-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x4096x1024 .f32) (main_arg1 : FVec F S3072x1024 .f32) (main_arg2 : FVec F S1024x1024 .f32) (main_arg3 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S1x1024x1024 : Shape := ⟨3, ![1, 1024, 1024]⟩
abbrev S128x1024 : Shape := ⟨2, ![128, 1024]⟩
abbrev S1x128 : Shape := ⟨2, ![1, 128]⟩
abbrev S1024x128 : Shape := ⟨2, ![1024, 128]⟩

abbrev nBuf : Space → Nat
  | .hbm => 57
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S3072x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S3072x1024, .f32⟩
  | .hbm, ⟨12, _⟩ => ⟨S3072x1024, .f32⟩
  | .hbm, ⟨13, _⟩ => ⟨S3072x1024, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S3072x1024, .f32⟩
  | .hbm, ⟨18, _⟩ => ⟨S3072x1024, .f32⟩
  | .hbm, ⟨19, _⟩ => ⟨S_, .f32⟩
  | .hbm, ⟨20, _⟩ => ⟨S3072x1024, .f32⟩
  | .hbm, ⟨21, _⟩ => ⟨S3072x1024, .f32⟩
  | .hbm, ⟨22, _⟩ => ⟨S3072x1024, .f32⟩
  | .hbm, ⟨23, _⟩ => ⟨S3072x1024, .f32⟩
  | .hbm, ⟨24, _⟩ => ⟨S3072x1024, .f32⟩
  | .hbm, ⟨25, _⟩ => ⟨S3072x1024, .f32⟩
  | .hbm, ⟨26, _⟩ => ⟨S1024x1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S1024x1024, .bf16⟩
  | .hbm, ⟨50, _⟩ => ⟨S1024x1024, .f32⟩
  | .hbm, ⟨51, _⟩ => ⟨S1024x1024, .bf16⟩
  | .hbm, ⟨52, _⟩ => ⟨S1024x1024, .f32⟩
  | .hbm, ⟨53, _⟩ => ⟨S1024x1024, .bf16⟩
  | .hbm, ⟨54, _⟩ => ⟨S1024x1024, .bf16⟩
  | .hbm, ⟨55, _⟩ => ⟨S1x1024, .f32⟩
  | .hbm, ⟨56, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .f32⟩
  | .local _ .vmem, ⟨10, _⟩ => ⟨S1x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_7 : Ref sig .tc := ⟨.hbm, 36, rfl⟩
abbrev main_cst_8 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c128_i32 : BitVec 32 := 128#32
  let v0 : BitVec 32 := Scalar.muli arg2 c128_i32
  v0
def k0_off1 (i : grid0.Coords) : Fin 2 → Nat :=
  let arg2 : BitVec 32 := BitVec.ofNat 32 (i 2).val
  let c128_i32 : BitVec 32 := 128#32
  let v0 : BitVec 32 := Scalar.muli arg2 c128_i32
  let v1 : BitVec 32 := v0
  let v5 : Index := Scalar.indexCast v1
  let c0_2 : Index := 0#32
  ![v5.toNat, 0]
def k0_off2 (i : grid0.Coords) : Fin 2 → Nat :=
  let c0_5 : Index := 0#32
  let arg2 : BitVec 32 := BitVec.ofNat 32 (i 2).val
  let c128_i32 : BitVec 32 := 128#32
  let v0 : BitVec 32 := Scalar.muli arg2 c128_i32
  let v1 : BitVec 32 := v0
  let v14 : Index := Scalar.indexCast v1
  ![0, v14.toNat]
def k0_off3 (i : grid0.Coords) : Fin 2 → Nat :=
  let c0_53 : Index := 0#32
  let arg2 : BitVec 32 := BitVec.ofNat 32 (i 2).val
  let c128_i32 : BitVec 32 := 128#32
  let v0 : BitVec 32 := Scalar.muli arg2 c128_i32
  let v1 : BitVec 32 := v0
  let v168 : Index := Scalar.indexCast v1
  ![0, v168.toNat]
def k0_cond2 (i : grid0.Coords) : BitVec 1 :=
  let arg2 : BitVec 32 := BitVec.ofNat 32 (i 2).val
  let c7_i32 : BitVec 32 := 7#32
  let v181 : BitVec 1 := Scalar.cmpi .eq arg2 c7_i32
  let v182 : BitVec 32 := Scalar.extui v181
  let c0_i32_61 : BitVec 32 := 0#32
  let v183 : BitVec 1 := Scalar.cmpi .ne v182 c0_i32_61
  v183

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  reducesTo_S3072x1024_S_d0_1 : S3072x1024.ReducesTo [0, 1] S_
  h_S_ : 0 < S_.numel
  bcast_S_S3072x1024 : S_.BroadcastsInDim S3072x1024 (![] : Fin 0 → Fin S3072x1024.rank)
  reducesTo_S1024x1024_S_d0_1 : S1024x1024.ReducesTo [0, 1] S_
  bcast_S_S1024x1024 : S_.BroadcastsInDim S1024x1024 (![] : Fin 0 → Fin S1024x1024.rank)
  slices_S3072x1024_S1024x1024_0_0 : S3072x1024.Slices ![0, 0] S1024x1024
  bitsLt_bf16_f32 : FTy.bits .bf16 < FTy.bits .f32
  slices_S3072x1024_S1024x1024_1024_0 : S3072x1024.Slices ![1024, 0] S1024x1024
  slices_S3072x1024_S1024x1024_2048_0 : S3072x1024.Slices ![2048, 0] S1024x1024
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  h_S128x1024 : 0 < S128x1024.numel
  shapeCasts_S128x1024_S128x1024 : S128x1024.ShapeCasts S128x1024
  h_S1x128 : 0 < S1x128.numel
  shapeCasts_S1x128_S1x128 : S1x128.ShapeCasts S1x128
  transposes_S128x1024_p1_0_S1024x128 : S128x1024.Transposes [1, 0] S1024x128
  broadcasts_S1x128_S1024x128 : S1x128.Broadcasts S1024x128
  iota_S1024x128_d0_w32 : S1024x128.Iotas .tc 32 [0]
  rotates_S1024x128_d0 : S1024x128.Rotates 0 none
  slices_S1024x128_o1023_0_S1x128 : S1024x128.Slices ![1023, 0] S1x128
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x128_p1_0_S128x1024 : S1024x128.Transposes [1, 0] S128x1024
  shapeCasts_S1024x1024_S1x1024x1024 : S1024x1024.ShapeCasts S1x1024x1024
  dot_S1024x1024_S1024x128_S1024x128_1_0_0_1_n_n_wf : DotDims.WF S1024x1024 S1024x128 S1024x128 [1] [0] [0] [1] [] []
  dot_S1024x128_S128x1024_S1024x1024_1_0_0_1_n_n_wf : DotDims.WF S1024x128 S128x1024 S1024x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x1024.size a ≤ S1024x1024.size a
  k0_off2_inb : ∀ i : grid0.Coords, ∀ a, (k0_off2 i) a + S1x128.size a ≤ S1x1024.size a
  k0_off3_inb : ∀ i : grid0.Coords, ∀ a, (k0_off3 i) a + S1024x128.size a ≤ S1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1024.size a ≤ S4x4096x1024.size a
  hwx0_6 : ∀ i : grid0.Coords, EltTy.bits .f32 = 32 ∨ (Rect.block (s := S4x4096x1024) S1x1024x1024.size (cc0_transform_6 i) (hinb0_6 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩
abbrev S4x4096x3072 : Shape := ⟨3, ![4, 4096, 3072]⟩
abbrev S1x1x1024 : Shape := ⟨3, ![1, 1, 1024]⟩
abbrev S4x1x1024 : Shape := ⟨3, ![4, 1, 1024]⟩
abbrev S4x4095x1024 : Shape := ⟨3, ![4, 4095, 1024]⟩
abbrev S4x2x1024 : Shape := ⟨3, ![4, 2, 1024]⟩
abbrev S4x4094x1024 : Shape := ⟨3, ![4, 4094, 1024]⟩
abbrev S4x4x1024 : Shape := ⟨3, ![4, 4, 1024]⟩
abbrev S4x4092x1024 : Shape := ⟨3, ![4, 4092, 1024]⟩
abbrev S4x8x1024 : Shape := ⟨3, ![4, 8, 1024]⟩
abbrev S4x4088x1024 : Shape := ⟨3, ![4, 4088, 1024]⟩
abbrev S4x16x1024 : Shape := ⟨3, ![4, 16, 1024]⟩
abbrev S4x4080x1024 : Shape := ⟨3, ![4, 4080, 1024]⟩
abbrev S4x32x1024 : Shape := ⟨3, ![4, 32, 1024]⟩
abbrev S4x4064x1024 : Shape := ⟨3, ![4, 4064, 1024]⟩
abbrev S4x64x1024 : Shape := ⟨3, ![4, 64, 1024]⟩
abbrev S4x4032x1024 : Shape := ⟨3, ![4, 4032, 1024]⟩
abbrev S4x128x1024 : Shape := ⟨3, ![4, 128, 1024]⟩
abbrev S4x3968x1024 : Shape := ⟨3, ![4, 3968, 1024]⟩
abbrev S4x256x1024 : Shape := ⟨3, ![4, 256, 1024]⟩
abbrev S4x3840x1024 : Shape := ⟨3, ![4, 3840, 1024]⟩
abbrev S4x512x1024 : Shape := ⟨3, ![4, 512, 1024]⟩
abbrev S4x3584x1024 : Shape := ⟨3, ![4, 3584, 1024]⟩
abbrev S4x1024x1024 : Shape := ⟨3, ![4, 1024, 1024]⟩
abbrev S4x3072x1024 : Shape := ⟨3, ![4, 3072, 1024]⟩
abbrev S4x2048x1024 : Shape := ⟨3, ![4, 2048, 1024]⟩

abbrev nBuf : Space → Nat
  | .hbm => 242
  | .vmem => 0
  | .smem => 0
  | _ => 0

abbrev hbmTy0_0 (i : Nat) : BufTy := match i % 128 with
  | 0 => ⟨S4x4096x1024, .f32⟩
  | 1 => ⟨S3072x1024, .f32⟩
  | 2 => ⟨S1024x1024, .f32⟩
  | 3 => ⟨S1024, .f32⟩
  | 4 => ⟨S3072x1024, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S3072x1024, .f32⟩
  | 12 => ⟨S3072x1024, .f32⟩
  | 13 => ⟨S3072x1024, .f32⟩
  | 14 => ⟨S_, .f32⟩
  | 15 => ⟨S_, .f32⟩
  | 16 => ⟨S_, .f32⟩
  | 17 => ⟨S3072x1024, .f32⟩
  | 18 => ⟨S3072x1024, .f32⟩
  | 19 => ⟨S_, .f32⟩
  | 20 => ⟨S3072x1024, .f32⟩
  | 21 => ⟨S3072x1024, .f32⟩
  | 22 => ⟨S3072x1024, .f32⟩
  | 23 => ⟨S3072x1024, .f32⟩
  | 24 => ⟨S3072x1024, .f32⟩
  | 25 => ⟨S3072x1024, .f32⟩
  | 26 => ⟨S4x4096x3072, .f32⟩
  | 27 => ⟨S4x4096x1024, .f32⟩
  | 28 => ⟨S1x1x1024, .f32⟩
  | 29 => ⟨S4x4096x1024, .f32⟩
  | 30 => ⟨S4x4096x1024, .f32⟩
  | 31 => ⟨S4x4096x1024, .f32⟩
  | 32 => ⟨S4x4096x1024, .f32⟩
  | 33 => ⟨S_, .f32⟩
  | 34 => ⟨S4x4096x1024, .f32⟩
  | 35 => ⟨S4x4096x1024, .f32⟩
  | 36 => ⟨S_, .f32⟩
  | 37 => ⟨S4x4096x1024, .f32⟩
  | 38 => ⟨S4x4096x1024, .f32⟩
  | 39 => ⟨S4x4096x1024, .f32⟩
  | 40 => ⟨S4x4096x1024, .f32⟩
  | 41 => ⟨S4x4096x1024, .f32⟩
  | 42 => ⟨S_, .f32⟩
  | 43 => ⟨S4x4096x1024, .f32⟩
  | 44 => ⟨S4x4096x1024, .f32⟩
  | 45 => ⟨S_, .f32⟩
  | 46 => ⟨S4x4096x1024, .f32⟩
  | 47 => ⟨S4x4096x1024, .f32⟩
  | 48 => ⟨S4x4096x1024, .f32⟩
  | 49 => ⟨S4x4096x1024, .f32⟩
  | 50 => ⟨S4x4096x1024, .f32⟩
  | 51 => ⟨S4x4096x1024, .f32⟩
  | 52 => ⟨S_, .f32⟩
  | 53 => ⟨S4x4096x1024, .f32⟩
  | 54 => ⟨S4x4096x1024, .f32⟩
  | 55 => ⟨S_, .f32⟩
  | 56 => ⟨S4x4096x1024, .f32⟩
  | 57 => ⟨S4x4096x1024, .f32⟩
  | 58 => ⟨S_, .f32⟩
  | 59 => ⟨S4x4096x1024, .f32⟩
  | 60 => ⟨S4x4096x1024, .f32⟩
  | 61 => ⟨S4x4096x1024, .f32⟩
  | 62 => ⟨S4x1x1024, .f32⟩
  | 63 => ⟨S_, .f32⟩
  | 64 => ⟨S4x1x1024, .f32⟩
  | 65 => ⟨S4x4095x1024, .f32⟩
  | 66 => ⟨S4x4096x1024, .f32⟩
  | 67 => ⟨S4x1x1024, .f32⟩
  | 68 => ⟨S_, .f32⟩
  | 69 => ⟨S4x1x1024, .f32⟩
  | 70 => ⟨S4x4095x1024, .f32⟩
  | 71 => ⟨S4x4096x1024, .f32⟩
  | 72 => ⟨S4x4096x1024, .f32⟩
  | 73 => ⟨S4x4096x1024, .f32⟩
  | 74 => ⟨S4x4096x1024, .f32⟩
  | 75 => ⟨S4x2x1024, .f32⟩
  | 76 => ⟨S_, .f32⟩
  | 77 => ⟨S4x2x1024, .f32⟩
  | 78 => ⟨S4x4094x1024, .f32⟩
  | 79 => ⟨S4x4096x1024, .f32⟩
  | 80 => ⟨S4x2x1024, .f32⟩
  | 81 => ⟨S_, .f32⟩
  | 82 => ⟨S4x2x1024, .f32⟩
  | 83 => ⟨S4x4094x1024, .f32⟩
  | 84 => ⟨S4x4096x1024, .f32⟩
  | 85 => ⟨S4x4096x1024, .f32⟩
  | 86 => ⟨S4x4096x1024, .f32⟩
  | 87 => ⟨S4x4096x1024, .f32⟩
  | 88 => ⟨S4x4x1024, .f32⟩
  | 89 => ⟨S_, .f32⟩
  | 90 => ⟨S4x4x1024, .f32⟩
  | 91 => ⟨S4x4092x1024, .f32⟩
  | 92 => ⟨S4x4096x1024, .f32⟩
  | 93 => ⟨S4x4x1024, .f32⟩
  | 94 => ⟨S_, .f32⟩
  | 95 => ⟨S4x4x1024, .f32⟩
  | 96 => ⟨S4x4092x1024, .f32⟩
  | 97 => ⟨S4x4096x1024, .f32⟩
  | 98 => ⟨S4x4096x1024, .f32⟩
  | 99 => ⟨S4x4096x1024, .f32⟩
  | 100 => ⟨S4x4096x1024, .f32⟩
  | 101 => ⟨S4x8x1024, .f32⟩
  | 102 => ⟨S_, .f32⟩
  | 103 => ⟨S4x8x1024, .f32⟩
  | 104 => ⟨S4x4088x1024, .f32⟩
  | 105 => ⟨S4x4096x1024, .f32⟩
  | 106 => ⟨S4x8x1024, .f32⟩
  | 107 => ⟨S_, .f32⟩
  | 108 => ⟨S4x8x1024, .f32⟩
  | 109 => ⟨S4x4088x1024, .f32⟩
  | 110 => ⟨S4x4096x1024, .f32⟩
  | 111 => ⟨S4x4096x1024, .f32⟩
  | 112 => ⟨S4x4096x1024, .f32⟩
  | 113 => ⟨S4x4096x1024, .f32⟩
  | 114 => ⟨S4x16x1024, .f32⟩
  | 115 => ⟨S_, .f32⟩
  | 116 => ⟨S4x16x1024, .f32⟩
  | 117 => ⟨S4x4080x1024, .f32⟩
  | 118 => ⟨S4x4096x1024, .f32⟩
  | 119 => ⟨S4x16x1024, .f32⟩
  | 120 => ⟨S_, .f32⟩
  | 121 => ⟨S4x16x1024, .f32⟩
  | 122 => ⟨S4x4080x1024, .f32⟩
  | 123 => ⟨S4x4096x1024, .f32⟩
  | 124 => ⟨S4x4096x1024, .f32⟩
  | 125 => ⟨S4x4096x1024, .f32⟩
  | 126 => ⟨S4x4096x1024, .f32⟩
  | 127 => ⟨S4x32x1024, .f32⟩
  | _ => ⟨S4x4096x1024, .f32⟩

abbrev hbmTy0_1 (i : Nat) : BufTy := match i % 128 with
  | 0 => ⟨S_, .f32⟩
  | 1 => ⟨S4x32x1024, .f32⟩
  | 2 => ⟨S4x4064x1024, .f32⟩
  | 3 => ⟨S4x4096x1024, .f32⟩
  | 4 => ⟨S4x32x1024, .f32⟩
  | 5 => ⟨S_, .f32⟩
  | 6 => ⟨S4x32x1024, .f32⟩
  | 7 => ⟨S4x4064x1024, .f32⟩
  | 8 => ⟨S4x4096x1024, .f32⟩
  | 9 => ⟨S4x4096x1024, .f32⟩
  | 10 => ⟨S4x4096x1024, .f32⟩
  | 11 => ⟨S4x4096x1024, .f32⟩
  | 12 => ⟨S4x64x1024, .f32⟩
  | 13 => ⟨S_, .f32⟩
  | 14 => ⟨S4x64x1024, .f32⟩
  | 15 => ⟨S4x4032x1024, .f32⟩
  | 16 => ⟨S4x4096x1024, .f32⟩
  | 17 => ⟨S4x64x1024, .f32⟩
  | 18 => ⟨S_, .f32⟩
  | 19 => ⟨S4x64x1024, .f32⟩
  | 20 => ⟨S4x4032x1024, .f32⟩
  | 21 => ⟨S4x4096x1024, .f32⟩
  | 22 => ⟨S4x4096x1024, .f32⟩
  | 23 => ⟨S4x4096x1024, .f32⟩
  | 24 => ⟨S4x4096x1024, .f32⟩
  | 25 => ⟨S4x128x1024, .f32⟩
  | 26 => ⟨S_, .f32⟩
  | 27 => ⟨S4x128x1024, .f32⟩
  | 28 => ⟨S4x3968x1024, .f32⟩
  | 29 => ⟨S4x4096x1024, .f32⟩
  | 30 => ⟨S4x128x1024, .f32⟩
  | 31 => ⟨S_, .f32⟩
  | 32 => ⟨S4x128x1024, .f32⟩
  | 33 => ⟨S4x3968x1024, .f32⟩
  | 34 => ⟨S4x4096x1024, .f32⟩
  | 35 => ⟨S4x4096x1024, .f32⟩
  | 36 => ⟨S4x4096x1024, .f32⟩
  | 37 => ⟨S4x4096x1024, .f32⟩
  | 38 => ⟨S4x256x1024, .f32⟩
  | 39 => ⟨S_, .f32⟩
  | 40 => ⟨S4x256x1024, .f32⟩
  | 41 => ⟨S4x3840x1024, .f32⟩
  | 42 => ⟨S4x4096x1024, .f32⟩
  | 43 => ⟨S4x256x1024, .f32⟩
  | 44 => ⟨S_, .f32⟩
  | 45 => ⟨S4x256x1024, .f32⟩
  | 46 => ⟨S4x3840x1024, .f32⟩
  | 47 => ⟨S4x4096x1024, .f32⟩
  | 48 => ⟨S4x4096x1024, .f32⟩
  | 49 => ⟨S4x4096x1024, .f32⟩
  | 50 => ⟨S4x4096x1024, .f32⟩
  | 51 => ⟨S4x512x1024, .f32⟩
  | 52 => ⟨S_, .f32⟩
  | 53 => ⟨S4x512x1024, .f32⟩
  | 54 => ⟨S4x3584x1024, .f32⟩
  | 55 => ⟨S4x4096x1024, .f32⟩
  | 56 => ⟨S4x512x1024, .f32⟩
  | 57 => ⟨S_, .f32⟩
  | 58 => ⟨S4x512x1024, .f32⟩
  | 59 => ⟨S4x3584x1024, .f32⟩
  | 60 => ⟨S4x4096x1024, .f32⟩
  | 61 => ⟨S4x4096x1024, .f32⟩
  | 62 => ⟨S4x4096x1024, .f32⟩
  | 63 => ⟨S4x4096x1024, .f32⟩
  | 64 => ⟨S4x1024x1024, .f32⟩
  | 65 => ⟨S_, .f32⟩
  | 66 => ⟨S4x1024x1024, .f32⟩
  | 67 => ⟨S4x3072x1024, .f32⟩
  | 68 => ⟨S4x4096x1024, .f32⟩
  | 69 => ⟨S4x1024x1024, .f32⟩
  | 70 => ⟨S_, .f32⟩
  | 71 => ⟨S4x1024x1024, .f32⟩
  | 72 => ⟨S4x3072x1024, .f32⟩
  | 73 => ⟨S4x4096x1024, .f32⟩
  | 74 => ⟨S4x4096x1024, .f32⟩
  | 75 => ⟨S4x4096x1024, .f32⟩
  | 76 => ⟨S4x4096x1024, .f32⟩
  | 77 => ⟨S4x2048x1024, .f32⟩
  | 78 => ⟨S_, .f32⟩
  | 79 => ⟨S4x2048x1024, .f32⟩
  | 80 => ⟨S4x2048x1024, .f32⟩
  | 81 => ⟨S4x4096x1024, .f32⟩
  | 82 => ⟨S4x2048x1024, .f32⟩
  | 83 => ⟨S_, .f32⟩
  | 84 => ⟨S4x2048x1024, .f32⟩
  | 85 => ⟨S4x2048x1024, .f32⟩
  | 86 => ⟨S4x4096x1024, .f32⟩
  | 87 => ⟨S4x4096x1024, .f32⟩
  | 88 => ⟨S4x4096x1024, .f32⟩
  | 89 => ⟨S4x4096x1024, .f32⟩
  | 90 => ⟨S1024x1024, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S1024x1024, .f32⟩
  | 98 => ⟨S1024x1024, .f32⟩
  | 99 => ⟨S1024x1024, .f32⟩
  | 100 => ⟨S_, .f32⟩
  | 101 => ⟨S_, .f32⟩
  | 102 => ⟨S_, .f32⟩
  | 103 => ⟨S1024x1024, .f32⟩
  | 104 => ⟨S1024x1024, .f32⟩
  | 105 => ⟨S_, .f32⟩
  | 106 => ⟨S1024x1024, .f32⟩
  | 107 => ⟨S1024x1024, .f32⟩
  | 108 => ⟨S1024x1024, .f32⟩
  | 109 => ⟨S1024x1024, .f32⟩
  | 110 => ⟨S1024x1024, .f32⟩
  | 111 => ⟨S1024x1024, .f32⟩
  | 112 => ⟨S4x4096x1024, .f32⟩
  | 113 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_cst_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_12 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_15 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_17 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_18 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_19 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_20 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_21 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_22 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_23 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_24 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_25 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_26 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_27 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_28 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_cst_29 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_cst_30 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_31 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_32 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_cst_33 : Ref sig .tc := ⟨.hbm, 219, rfl⟩
abbrev main_v168 : Ref sig .tc := ⟨.hbm, 220, rfl⟩
abbrev main_cst_34 : Ref sig .tc := ⟨.hbm, 221, rfl⟩
abbrev main_v169 : Ref sig .tc := ⟨.hbm, 222, rfl⟩
abbrev main_cst_35 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_cst_36 : Ref sig .tc := ⟨.hbm, 228, rfl⟩
abbrev main_cst_37 : Ref sig .tc := ⟨.hbm, 229, rfl⟩
abbrev main_call4_v0 : Ref sig .tc := ⟨.hbm, 230, rfl⟩
abbrev main_call4_v1 : Ref sig .tc := ⟨.hbm, 231, rfl⟩
abbrev main_call4_v2 : Ref sig .tc := ⟨.hbm, 232, rfl⟩
abbrev main_call4_v3 : Ref sig .tc := ⟨.hbm, 233, rfl⟩
abbrev main_call4_v4 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩

abbrev nD : Nat := 1
abbrev τ : Topo := Topo.v7x

variable {F : FTy → Type} [FloatOps F]

class Facts₀ : Prop where
  reducesTo_S3072x1024_S_d0_1 : S3072x1024.ReducesTo [0, 1] S_
  h_S_ : 0 < S_.numel
  bcast_S_S3072x1024 : S_.BroadcastsInDim S3072x1024 (![] : Fin 0 → Fin S3072x1024.rank)
  slices_S4x4096x3072_S4x4096x1024_0_0_0 : S4x4096x3072.Slices ![0, 0, 0] S4x4096x1024
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x1024 : S_.BroadcastsInDim S4x4096x1024 (![] : Fin 0 → Fin S4x4096x1024.rank)
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  slices_S4x4096x1024_S4x1x1024_0_0_0 : S4x4096x1024.Slices ![0, 0, 0] S4x1x1024
  bcast_S_S4x1x1024 : S_.BroadcastsInDim S4x1x1024 (![] : Fin 0 → Fin S4x1x1024.rank)
  slices_S4x4096x1024_S4x4095x1024_0_0_0 : S4x4096x1024.Slices ![0, 0, 0] S4x4095x1024
  concatenates_S4x1x1024_S4x4095x1024_S4x4096x1024_d1 : Shape.Concatenates [S4x1x1024, S4x4095x1024] S4x4096x1024 1
  slices_S4x4096x1024_S4x2x1024_0_0_0 : S4x4096x1024.Slices ![0, 0, 0] S4x2x1024
  bcast_S_S4x2x1024 : S_.BroadcastsInDim S4x2x1024 (![] : Fin 0 → Fin S4x2x1024.rank)
  slices_S4x4096x1024_S4x4094x1024_0_0_0 : S4x4096x1024.Slices ![0, 0, 0] S4x4094x1024
  concatenates_S4x2x1024_S4x4094x1024_S4x4096x1024_d1 : Shape.Concatenates [S4x2x1024, S4x4094x1024] S4x4096x1024 1
  slices_S4x4096x1024_S4x4x1024_0_0_0 : S4x4096x1024.Slices ![0, 0, 0] S4x4x1024
  bcast_S_S4x4x1024 : S_.BroadcastsInDim S4x4x1024 (![] : Fin 0 → Fin S4x4x1024.rank)
  slices_S4x4096x1024_S4x4092x1024_0_0_0 : S4x4096x1024.Slices ![0, 0, 0] S4x4092x1024
  concatenates_S4x4x1024_S4x4092x1024_S4x4096x1024_d1 : Shape.Concatenates [S4x4x1024, S4x4092x1024] S4x4096x1024 1
  slices_S4x4096x1024_S4x8x1024_0_0_0 : S4x4096x1024.Slices ![0, 0, 0] S4x8x1024
  bcast_S_S4x8x1024 : S_.BroadcastsInDim S4x8x1024 (![] : Fin 0 → Fin S4x8x1024.rank)
  slices_S4x4096x1024_S4x4088x1024_0_0_0 : S4x4096x1024.Slices ![0, 0, 0] S4x4088x1024
  concatenates_S4x8x1024_S4x4088x1024_S4x4096x1024_d1 : Shape.Concatenates [S4x8x1024, S4x4088x1024] S4x4096x1024 1
  slices_S4x4096x1024_S4x16x1024_0_0_0 : S4x4096x1024.Slices ![0, 0, 0] S4x16x1024
  bcast_S_S4x16x1024 : S_.BroadcastsInDim S4x16x1024 (![] : Fin 0 → Fin S4x16x1024.rank)
  slices_S4x4096x1024_S4x4080x1024_0_0_0 : S4x4096x1024.Slices ![0, 0, 0] S4x4080x1024
  concatenates_S4x16x1024_S4x4080x1024_S4x4096x1024_d1 : Shape.Concatenates [S4x16x1024, S4x4080x1024] S4x4096x1024 1
  slices_S4x4096x1024_S4x32x1024_0_0_0 : S4x4096x1024.Slices ![0, 0, 0] S4x32x1024
  bcast_S_S4x32x1024 : S_.BroadcastsInDim S4x32x1024 (![] : Fin 0 → Fin S4x32x1024.rank)
  slices_S4x4096x1024_S4x4064x1024_0_0_0 : S4x4096x1024.Slices ![0, 0, 0] S4x4064x1024
  concatenates_S4x32x1024_S4x4064x1024_S4x4096x1024_d1 : Shape.Concatenates [S4x32x1024, S4x4064x1024] S4x4096x1024 1
  slices_S4x4096x1024_S4x64x1024_0_0_0 : S4x4096x1024.Slices ![0, 0, 0] S4x64x1024
  bcast_S_S4x64x1024 : S_.BroadcastsInDim S4x64x1024 (![] : Fin 0 → Fin S4x64x1024.rank)
  slices_S4x4096x1024_S4x4032x1024_0_0_0 : S4x4096x1024.Slices ![0, 0, 0] S4x4032x1024
  concatenates_S4x64x1024_S4x4032x1024_S4x4096x1024_d1 : Shape.Concatenates [S4x64x1024, S4x4032x1024] S4x4096x1024 1
  slices_S4x4096x1024_S4x128x1024_0_0_0 : S4x4096x1024.Slices ![0, 0, 0] S4x128x1024
  bcast_S_S4x128x1024 : S_.BroadcastsInDim S4x128x1024 (![] : Fin 0 → Fin S4x128x1024.rank)
  slices_S4x4096x1024_S4x3968x1024_0_0_0 : S4x4096x1024.Slices ![0, 0, 0] S4x3968x1024
  concatenates_S4x128x1024_S4x3968x1024_S4x4096x1024_d1 : Shape.Concatenates [S4x128x1024, S4x3968x1024] S4x4096x1024 1
  slices_S4x4096x1024_S4x256x1024_0_0_0 : S4x4096x1024.Slices ![0, 0, 0] S4x256x1024
  bcast_S_S4x256x1024 : S_.BroadcastsInDim S4x256x1024 (![] : Fin 0 → Fin S4x256x1024.rank)
  slices_S4x4096x1024_S4x3840x1024_0_0_0 : S4x4096x1024.Slices ![0, 0, 0] S4x3840x1024
  concatenates_S4x256x1024_S4x3840x1024_S4x4096x1024_d1 : Shape.Concatenates [S4x256x1024, S4x3840x1024] S4x4096x1024 1
  slices_S4x4096x1024_S4x512x1024_0_0_0 : S4x4096x1024.Slices ![0, 0, 0] S4x512x1024
  bcast_S_S4x512x1024 : S_.BroadcastsInDim S4x512x1024 (![] : Fin 0 → Fin S4x512x1024.rank)
  slices_S4x4096x1024_S4x3584x1024_0_0_0 : S4x4096x1024.Slices ![0, 0, 0] S4x3584x1024
  concatenates_S4x512x1024_S4x3584x1024_S4x4096x1024_d1 : Shape.Concatenates [S4x512x1024, S4x3584x1024] S4x4096x1024 1
  slices_S4x4096x1024_S4x1024x1024_0_0_0 : S4x4096x1024.Slices ![0, 0, 0] S4x1024x1024
  bcast_S_S4x1024x1024 : S_.BroadcastsInDim S4x1024x1024 (![] : Fin 0 → Fin S4x1024x1024.rank)
  slices_S4x4096x1024_S4x3072x1024_0_0_0 : S4x4096x1024.Slices ![0, 0, 0] S4x3072x1024
  concatenates_S4x1024x1024_S4x3072x1024_S4x4096x1024_d1 : Shape.Concatenates [S4x1024x1024, S4x3072x1024] S4x4096x1024 1
  slices_S4x4096x1024_S4x2048x1024_0_0_0 : S4x4096x1024.Slices ![0, 0, 0] S4x2048x1024
  bcast_S_S4x2048x1024 : S_.BroadcastsInDim S4x2048x1024 (![] : Fin 0 → Fin S4x2048x1024.rank)
  concatenates_S4x2048x1024_S4x2048x1024_S4x4096x1024_d1 : Shape.Concatenates [S4x2048x1024, S4x2048x1024] S4x4096x1024 1
  reducesTo_S1024x1024_S_d0_1 : S1024x1024.ReducesTo [0, 1] S_
  bcast_S_S1024x1024 : S_.BroadcastsInDim S1024x1024 (![] : Fin 0 → Fin S1024x1024.rank)
  dot_S4x4096x1024_S3072x1024_S4x4096x3072_2_1_01_0_n_n_wf : DotDims.WF S4x4096x1024 S3072x1024 S4x4096x3072 [2] [1] [0, 1] [0] [] []
  dot_S4x4096x1024_S1024x1024_S4x4096x1024_2_1_01_0_n_n_wf : DotDims.WF S4x4096x1024 S1024x1024 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.BRunDefs.lean ====
/-
  The kernel body run whole, once per control case. The body branches twice on the grid point's third coordinate
  dn (the channel chunk): it zeroes the accumulator when dn = 0, and copies the accumulator to the output block when
  dn = 7. Three cases meet the grid: dn = 0, 0 < dn < 7, dn = 7. In each the body loads the feature block, the gate
  matrices' slices, the bias slice and the carried-state slice, stores the new carried-state slice, accumulates the
  gated state's product with the output matrix's slice, and (dn = 7) stores the output block.
-/
import proofs.«111377_j19533511262472_1_alg».proof.Proof.Gen.Kernel.Frame
import proofs.«111377_j19533511262472_1_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first branch's condition (dn = 0), as the body computes it from the grid point. -/
abbrev cond1 (i : grid0.Coords) : Prop := (Scalar.cmpi .ne (Scalar.extui (Scalar.cmpi .eq (BitVec.ofNat 32 (i 2).val) 0#32)) 0#32) = 1#1
/-- It holds at the points ≡ 0 (mod 8). -/
theorem hcond1 : ∀ t : Fin cfg0.N, cond1 (grid0.coords t) ↔ t.val % 8 = 0 :=
  (by decide +kernel : ∀ t : Fin grid0.N, cond1 (grid0.coords t) ↔ t.val % 8 = 0)
/-- The second branch's condition (dn = 7). -/
abbrev cond2 (i : grid0.Coords) : Prop := k0_cond2 i = 1#1
/-- It holds at the points ≡ 7 (mod 8). -/
theorem hcond2 : ∀ t : Fin cfg0.N, cond2 (grid0.coords t) ↔ t.val % 8 = 7 :=
  (by decide +kernel : ∀ t : Fin grid0.N, cond2 (grid0.coords t) ↔ t.val % 8 = 7)

end Cert.Kernel.Hand

end
-- ==== Proof.BRunA.lean ====
/-
  The kernel body run whole, once per control case. The body branches twice on the grid point's third coordinate
  dn (the channel chunk): it zeroes the accumulator when dn = 0, and copies the accumulator to the output block when
  dn = 7. Three cases meet the grid: dn = 0, 0 < dn < 7, dn = 7. In each the body loads the feature block, the gate
  matrices' slices, the bias slice and the carried-state slice, stores the new carried-state slice, accumulates the
  gated state's product with the output matrix's slice, and (dn = 7) stores the output block.
-/
import proofs.«111377_j19533511262472_1_alg».proof.Proof.BRunDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in the case dn = 0 (the accumulator is zeroed first; the output block is not stored): on whole staging memrefs, the six inputs and the output's buffer at their contents,
    the accumulator at anything and the carried-state buffer at given contents, the body runs to the continuation holding the inputs
    and the output's buffer as they were (nothing is stored into the output block in this case), and the accumulator and
    the carried-state buffer with the listed pieces written — the carried-state buffer's over what it held before, since
    its one piece covers a slice only; the pieces are what the run finds. -/
noncomputable def runA (c : Dev nD) (i : grid0.Coords) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1x1024 .f32) (harg11 : arg11.IsWhole) (hc1 : cond1 i) (hc2 : ¬cond2 i)
    (x0 : Vec F S1x1024x1024 .f32) (x1 x2 x3 : Vec F S1024x1024 .bf16) (x4 : Vec F S1x1024 .f32) (x5 : Vec F S1024x1024 .bf16) (x9 : Vec F S1x1024x1024 .f32) (xc : Vec F S1x1024 .f32) :
    Σ' (LA : List (View.Piece (Elt F) S1024x1024 .f32)), { LC : List (View.Piece (Elt F) S1x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare x9 ∗ (∃ d, owns (c : Thread nD τ) arg10 fullShare d) ∗ owns (c : Thread nD τ) arg11 fullShare xc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ owns (c : Thread nD τ) arg9 fullShare x9
                ∗ (∃ f, arg10.view.loc (c : Thread nD τ) ↦[arg10.view.set]{fullShare} arg10.view.writes (Elt F) f LA)
                ∗ (∃ f, ⌜arg11.view.read (Elt F) f = xc⌝ ∗ (arg11.view.loc (c : Thread nD τ) ↦[arg11.view.set]{fullShare} arg11.view.writes (Elt F) f LC))) -∗ K ⟨⟩))
          ⊢ wp frame (wpE (defs₀ (F := F)) Variants.none c none) E (cc0__gated_kernel i arg3 harg3 arg4 harg4 arg5 harg5 arg6 harg6 arg7 harg7 arg8 harg8 arg9 harg9 arg10 harg10 arg11 harg11) K } := by
  refine ⟨?_, ?_, fun E K => ?run⟩
  case run =>
    simp only [cc0__gated_kernel_eq_skeleton]; unfold cc0__gated_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%da, %fa, -, HA⟩, ⟨%fc, %hfc, HC⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf9
    obtain rfl := harg11.eq_unread hfc
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H9]
    · iexists _; isplitr; · ipureintro; exact harg9.read_unread _
      iexact H9
    isplitl [HA]; · iexists _; iexact HA
    iexists _; isplitr; · ipureintro; exact harg11.read_unread _
    iexact HC

end Cert.Kernel.Hand

end
-- ==== Proof.BRunB.lean ====
/-
  The kernel body run whole, once per control case. The body branches twice on the grid point's third coordinate
  dn (the channel chunk): it zeroes the accumulator when dn = 0, and copies the accumulator to the output block when
  dn = 7. Three cases meet the grid: dn = 0, 0 < dn < 7, dn = 7. In each the body loads the feature block, the gate
  matrices' slices, the bias slice and the carried-state slice, stores the new carried-state slice, accumulates the
  gated state's product with the output matrix's slice, and (dn = 7) stores the output block.
-/
import proofs.«111377_j19533511262472_1_alg».proof.Proof.BRunDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in the case 0 < dn < 7 (neither branch taken): on whole staging memrefs, the six inputs and the output's buffer at their contents,
    the accumulator and the carried-state buffer at given contents, the body runs to the continuation holding the inputs
    and the output's buffer as they were (nothing is stored into the output block in this case), and the accumulator and
    the carried-state buffer with the listed pieces written — the carried-state buffer's over what it held before, since
    its one piece covers a slice only; the pieces are what the run finds. -/
noncomputable def runB (c : Dev nD) (i : grid0.Coords) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1x1024 .f32) (harg11 : arg11.IsWhole) (hc1 : ¬cond1 i) (hc2 : ¬cond2 i)
    (x0 : Vec F S1x1024x1024 .f32) (x1 x2 x3 : Vec F S1024x1024 .bf16) (x4 : Vec F S1x1024 .f32) (x5 : Vec F S1024x1024 .bf16) (x9 : Vec F S1x1024x1024 .f32) (xa : Vec F S1024x1024 .f32) (xc : Vec F S1x1024 .f32) :
    Σ' (LA : List (View.Piece (Elt F) S1024x1024 .f32)), { LC : List (View.Piece (Elt F) S1x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare x9 ∗ owns (c : Thread nD τ) arg10 fullShare xa ∗ owns (c : Thread nD τ) arg11 fullShare xc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ owns (c : Thread nD τ) arg9 fullShare x9
                ∗ (∃ f, arg10.view.loc (c : Thread nD τ) ↦[arg10.view.set]{fullShare} arg10.view.writes (Elt F) f LA)
                ∗ (∃ f, ⌜arg11.view.read (Elt F) f = xc⌝ ∗ (arg11.view.loc (c : Thread nD τ) ↦[arg11.view.set]{fullShare} arg11.view.writes (Elt F) f LC))) -∗ K ⟨⟩))
          ⊢ wp frame (wpE (defs₀ (F := F)) Variants.none c none) E (cc0__gated_kernel i arg3 harg3 arg4 harg4 arg5 harg5 arg6 harg6 arg7 harg7 arg8 harg8 arg9 harg9 arg10 harg10 arg11 harg11) K } := by
  refine ⟨?_, ?_, fun E K => ?run⟩
  case run =>
    simp only [cc0__gated_kernel_eq_skeleton]; unfold cc0__gated_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%fa, %hfa, HA⟩, ⟨%fc, %hfc, HC⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf9
    obtain rfl := harg10.eq_unread hfa; obtain rfl := harg11.eq_unread hfc
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H9]
    · iexists _; isplitr; · ipureintro; exact harg9.read_unread _
      iexact H9
    isplitl [HA]; · iexists _; iexact HA
    iexists _; isplitr; · ipureintro; exact harg11.read_unread _
    iexact HC

end Cert.Kernel.Hand

end
-- ==== Proof.BRunC.lean ====
/-
  The kernel body run whole, once per control case. The body branches twice on the grid point's third coordinate
  dn (the channel chunk): it zeroes the accumulator when dn = 0, and copies the accumulator to the output block when
  dn = 7. Three cases meet the grid: dn = 0, 0 < dn < 7, dn = 7. In each the body loads the feature block, the gate
  matrices' slices, the bias slice and the carried-state slice, stores the new carried-state slice, accumulates the
  gated state's product with the output matrix's slice, and (dn = 7) stores the output block.
-/
import proofs.«111377_j19533511262472_1_alg».proof.Proof.BRunDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body in the case dn = 7 (the accumulator is copied to the output block at the end): on whole staging memrefs, the six inputs at their contents, the output's buffer at
    anything, the accumulator and the carried-state buffer at given contents, the body runs to the continuation holding
    the inputs as they were, and the output's buffer, the accumulator and the carried-state buffer with the listed pieces
    written — the carried-state buffer's over what it held before, since its one piece covers a slice only; the pieces are
    what the run finds. -/
noncomputable def runC (c : Dev nD) (i : grid0.Coords) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1x1024 .f32) (harg11 : arg11.IsWhole) (hc1 : ¬cond1 i) (hc2 : cond2 i)
    (x0 : Vec F S1x1024x1024 .f32) (x1 x2 x3 : Vec F S1024x1024 .bf16) (x4 : Vec F S1x1024 .f32) (x5 : Vec F S1024x1024 .bf16) (xa : Vec F S1024x1024 .f32) (xc : Vec F S1x1024 .f32) :
    Σ' (L9 : List (View.Piece (Elt F) S1x1024x1024 .f32)) (LA : List (View.Piece (Elt F) S1024x1024 .f32)), { LC : List (View.Piece (Elt F) S1x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d, owns (c : Thread nD τ) arg9 fullShare d) ∗ owns (c : Thread nD τ) arg10 fullShare xa ∗ owns (c : Thread nD τ) arg11 fullShare xc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LA)
                ∗ (∃ f, ⌜arg11.view.read (Elt F) f = xc⌝ ∗ (arg11.view.loc (c : Thread nD τ) ↦[arg11.view.set]{fullShare} arg11.view.writes (Elt F) f LC))) -∗ K ⟨⟩))
          ⊢ wp frame (wpE (defs₀ (F := F)) Variants.none c none) E (cc0__gated_kernel i arg3 harg3 arg4 harg4 arg5 harg5 arg6 harg6 arg7 harg7 arg8 harg8 arg9 harg9 arg10 harg10 arg11 harg11) K } := by
  refine ⟨?_, ?_, ?_, fun E K => ?run⟩
  case run =>
    simp only [cc0__gated_kernel_eq_skeleton]; unfold cc0__gated_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d9, %f9, -, H9⟩, ⟨%fa, %hfa, HA⟩, ⟨%fc, %hfc, HC⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfa; obtain rfl := harg11.eq_unread hfc
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H9]; · iexists _; iexact H9
    isplitl [HA]; · iexists _; iexact HA
    iexists _; isplitr; · ipureintro; exact harg11.read_unread _
    iexact HC

end Cert.Kernel.Hand

end
-- ==== Proof.BFrame.lean ====
/-
  The frame of the program: it runs to the end, faults nowhere and leaves its arguments unchanged, at any float
  instance. Nothing here names what the body leaves in the output block or in its two scratch buffers: the output
  window is handed to the body and taken back at some contents, the scratch buffers and the generator register
  are held at some contents between points, and each input window's staging buffer holds its block of the array
  as the region found it, at every point. The body's run is taken per control case (dn = 0, 0 < dn < 7, dn = 7).
-/
import proofs.«111377_j19533511262472_1_alg».proof.Proof.BRunA
import proofs.«111377_j19533511262472_1_alg».proof.Proof.BRunB
import proofs.«111377_j19533511262472_1_alg».proof.Proof.BRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it to the body, and its wholeness. -/
abbrev ms0F (t : Fin cfg0.N) : Memref sig .tc .vmem S1x1024x1024 .f32 := win0_0.stage (cfg0.slots t 0)
abbrev hs0F (t : Fin cfg0.N) : (ms0F t).IsWhole := hstage0_0 ((cfg0.slots t 0).cast nbuf0_0)
abbrev ms1F (t : Fin cfg0.N) : Memref sig .tc .vmem S1024x1024 .bf16 := win0_1.stage (cfg0.slots t 1)
abbrev hs1F (t : Fin cfg0.N) : (ms1F t).IsWhole := hstage0_1 ((cfg0.slots t 1).cast nbuf0_1)
abbrev ms2F (t : Fin cfg0.N) : Memref sig .tc .vmem S1024x1024 .bf16 := win0_2.stage (cfg0.slots t 2)
abbrev hs2F (t : Fin cfg0.N) : (ms2F t).IsWhole := hstage0_2 ((cfg0.slots t 2).cast nbuf0_2)
abbrev ms3F (t : Fin cfg0.N) : Memref sig .tc .vmem S1024x1024 .bf16 := win0_3.stage (cfg0.slots t 3)
abbrev hs3F (t : Fin cfg0.N) : (ms3F t).IsWhole := hstage0_3 ((cfg0.slots t 3).cast nbuf0_3)
abbrev ms4F (t : Fin cfg0.N) : Memref sig .tc .vmem S1x1024 .f32 := win0_4.stage (cfg0.slots t 4)
abbrev hs4F (t : Fin cfg0.N) : (ms4F t).IsWhole := hstage0_4 ((cfg0.slots t 4).cast nbuf0_4)
abbrev ms5F (t : Fin cfg0.N) : Memref sig .tc .vmem S1024x1024 .bf16 := win0_5.stage (cfg0.slots t 5)
abbrev hs5F (t : Fin cfg0.N) : (ms5F t).IsWhole := hstage0_5 ((cfg0.slots t 5).cast nbuf0_5)
abbrev ms6F (t : Fin cfg0.N) : Memref sig .tc .vmem S1x1024x1024 .f32 := win0_6.stage (cfg0.slots t 6)
abbrev hs6F (t : Fin cfg0.N) : (ms6F t).IsWhole := hstage0_6 ((cfg0.slots t 6).cast nbuf0_6)
/-- The two scratch operands: the accumulator and the carried-state buffer. -/
abbrev scAF : Memref sig .tc .vmem S1024x1024 .f32 := Memref.whole cc0_scratch0
abbrev scCF : Memref sig .tc .vmem S1x1024 .f32 := Memref.whole cc0_scratch1

/-- A buffer held at any contents is owned at what those contents read as. -/
theorem owns_some {S : Shape} {e : EltTy} (c : Dev nD) (mr : Memref sig .tc .vmem S e) (f : mr.view.ty.Contents (Elt F)) :
    (iprop(mr.view.loc (c : Thread nD τ) ↦[mr.view.set]{fullShare} f) : sProp 𝕄)
      ⊢ iprop(∃ d, owns (c : Thread nD τ) mr fullShare d) := by
  iintro H
  iexists (mr.view.read (Elt F) f)
  unfold owns
  iexists f
  isplitr
  · ipureintro; rfl
  iexact H

/-- The region's invariant with the two scratch operands as memrefs owned at some contents. -/
theorem PhiA_eq (c : Dev nD) :
    (Pipeline.ΦA spec0 c : sProp 𝕄)
      = iprop(iprop((∃ d, owns (c : Thread nD τ) scAF fullShare d) ∗ (∃ d, owns (c : Thread nD τ) scCF fullShare d)) ∗ (∃ r, prngReg c r)) := by
  unfold Pipeline.ΦA; rw [scopedRest0_eq]; simp only [scAF, scCF, owns_whole]; try rfl

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- The output window, whose contents the frame does not name. -/
def forgets0 : Fin 7 → Bool := fun w => w.val == 6

/-- The frame's proof data on core `c`: the arrays as the region finds them; after the body each input's buffer at
    its block, the output's unnamed; the scratch buffers and the generator register at some contents throughout. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem AF_eq (c : Dev nD) (w : Fin cfg0.W) : (datsF m 0 c).A w = V m c (Pipeline.arrRef spec0 w) := by
  dsimp only [datsF]

theorem afterF0 (c : Dev nD) (t : Fin cfg0.N) : (datsF m 0 c).after 0 t = iblk m c 0 t := by dsimp only [datsF]
theorem afterF1 (c : Dev nD) (t : Fin cfg0.N) : (datsF m 0 c).after 1 t = iblk m c 1 t := by dsimp only [datsF]
theorem afterF2 (c : Dev nD) (t : Fin cfg0.N) : (datsF m 0 c).after 2 t = iblk m c 2 t := by dsimp only [datsF]
theorem afterF3 (c : Dev nD) (t : Fin cfg0.N) : (datsF m 0 c).after 3 t = iblk m c 3 t := by dsimp only [datsF]
theorem afterF4 (c : Dev nD) (t : Fin cfg0.N) : (datsF m 0 c).after 4 t = iblk m c 4 t := by dsimp only [datsF]
theorem afterF5 (c : Dev nD) (t : Fin cfg0.N) : (datsF m 0 c).after 5 t = iblk m c 5 t := by dsimp only [datsF]

theorem beforeF0 (c : Dev nD) (t : Fin cfg0.N) (d) : (datsF m 0 c).before 0 t d = iblk m c 0 t :=
  before0_0_of m (datsF m 0 c) (AF_eq m c 0) (afterF0 m c) t d
theorem beforeF1 (c : Dev nD) (t : Fin cfg0.N) (d) : (datsF m 0 c).before 1 t d = iblk m c 1 t :=
  before0_1_of m (datsF m 0 c) (AF_eq m c 1) (afterF1 m c) t d
theorem beforeF2 (c : Dev nD) (t : Fin cfg0.N) (d) : (datsF m 0 c).before 2 t d = iblk m c 2 t :=
  before0_2_of m (datsF m 0 c) (AF_eq m c 2) (afterF2 m c) t d
theorem beforeF3 (c : Dev nD) (t : Fin cfg0.N) (d) : (datsF m 0 c).before 3 t d = iblk m c 3 t :=
  before0_3_of m (datsF m 0 c) (AF_eq m c 3) (afterF3 m c) t d
theorem beforeF4 (c : Dev nD) (t : Fin cfg0.N) (d) : (datsF m 0 c).before 4 t d = iblk m c 4 t :=
  before0_4_of m (datsF m 0 c) (AF_eq m c 4) (afterF4 m c) t d
theorem beforeF5 (c : Dev nD) (t : Fin cfg0.N) (d) : (datsF m 0 c).before 5 t d = iblk m c 5 t :=
  before0_5_of m (datsF m 0 c) (AF_eq m c 5) (afterF5 m c) t d

/-- What the body is called with at point `t`, -/
def bodyPreF (c : Dev nD) (t : Fin cfg0.N) : sProp 𝕄 :=
  iprop((datsF m 0 c).Φ t.castSucc ∗ (datsF m 0 c).owesAt () t.castSucc
    ∗ (∃ d, owns (c : Thread nD τ) (ms0F t) fullShare ((datsF m 0 c).before 0 t d))
    ∗ (∃ d, owns (c : Thread nD τ) (ms1F t) fullShare ((datsF m 0 c).before 1 t d))
    ∗ (∃ d, owns (c : Thread nD τ) (ms2F t) fullShare ((datsF m 0 c).before 2 t d))
    ∗ (∃ d, owns (c : Thread nD τ) (ms3F t) fullShare ((datsF m 0 c).before 3 t d))
    ∗ (∃ d, owns (c : Thread nD τ) (ms4F t) fullShare ((datsF m 0 c).before 4 t d))
    ∗ (∃ d, owns (c : Thread nD τ) (ms5F t) fullShare ((datsF m 0 c).before 5 t d))
    ∗ (∃ X, owns (c : Thread nD τ) (ms6F t) fullShare X))

/-- and what it returns. -/
def bodyPostF (c : Dev nD) (t : Fin cfg0.N) : sProp 𝕄 :=
  iprop((datsF m 0 c).Φ t.succ ∗ (datsF m 0 c).owesAt () t.succ
    ∗ (datsF m 0 c).leavesExact 0 t
    ∗ (datsF m 0 c).leavesExact 1 t
    ∗ (datsF m 0 c).leavesExact 2 t
    ∗ (datsF m 0 c).leavesExact 3 t
    ∗ (datsF m 0 c).leavesExact 4 t
    ∗ (datsF m 0 c).leavesExact 5 t
    ∗ (∃ X, owns (c : Thread nD τ) (ms6F t) fullShare X))

theorem leavesF (c : Dev nD) (t : Fin cfg0.N) :
    (datsF m 0 c).leavesExact 0 t = owns (c : Thread nD τ) (ms0F t) fullShare (iblk m c 0 t)
    ∧ (datsF m 0 c).leavesExact 1 t = owns (c : Thread nD τ) (ms1F t) fullShare (iblk m c 1 t)
    ∧ (datsF m 0 c).leavesExact 2 t = owns (c : Thread nD τ) (ms2F t) fullShare (iblk m c 2 t)
    ∧ (datsF m 0 c).leavesExact 3 t = owns (c : Thread nD τ) (ms3F t) fullShare (iblk m c 3 t)
    ∧ (datsF m 0 c).leavesExact 4 t = owns (c : Thread nD τ) (ms4F t) fullShare (iblk m c 4 t)
    ∧ (datsF m 0 c).leavesExact 5 t = owns (c : Thread nD τ) (ms5F t) fullShare (iblk m c 5 t) := by
  refine ⟨?_, ?_, ?_, ?_, ?_, ?_⟩
  · unfold Dat.leavesExact; rw [live0 t, afterF0]
  · unfold Dat.leavesExact; rw [live1 t, afterF1]
  · unfold Dat.leavesExact; rw [live2 t, afterF2]
  · unfold Dat.leavesExact; rw [live3 t, afterF3]
  · unfold Dat.leavesExact; rw [live4 t, afterF4]
  · unfold Dat.leavesExact; rw [live5 t, afterF5]

set_option maxHeartbeats 4000000 in
/-- The body at any point: the inputs' memrefs hold their blocks; the point's residue mod 8 says which case it is in;
    the case's run applies, with the scratch buffers and the output's buffer at whatever they hold. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF0, beforeF1, beforeF2, beforeF3, beforeF4, beforeF5]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA_eq]
  obtain ⟨e0, e1, e2, e3, e4, e5⟩ := leavesF m c t
  rw [e0, e1, e2, e3, e4, e5]
  iintro ⟨⟨⟨⟨%da, HSA⟩, ⟨%dc, HSC⟩⟩, Hg⟩, Ho, ⟨%d0, H0⟩, ⟨%d1, H1⟩, ⟨%d2, H2⟩, ⟨%d3, H3⟩, ⟨%d4, H4⟩, ⟨%d5, H5⟩, ⟨%X6, H6⟩⟩
  by_cases h1 : t.val % 8 = 0
  · have h2 : ¬ t.val % 8 = 7 := by omega
    iapply ((runA c (grid0.coords t) (ms0F t) (hs0F t) (ms1F t) (hs1F t) (ms2F t) (hs2F t) (ms3F t) (hs3F t) (ms4F t) (hs4F t) (ms5F t) (hs5F t) (ms6F t) (hs6F t) scAF (Memref.isWhole_whole _) scCF (Memref.isWhole_whole _)
      ((hcond1 t).mpr h1) (fun h => h2 ((hcond2 t).mp h)) (iblk m c 0 t) (iblk m c 1 t) (iblk m c 2 t) (iblk m c 3 t) (iblk m c 4 t) (iblk m c 5 t) X6 dc).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HSA]; · iexists _; iexact HSA
    isplitl [HSC]; · iexact HSC
    iintro ⟨H0, H1, H2, H3, H4, H5, H6, ⟨%ea, HSA⟩, ⟨%ec, -, HSC⟩⟩
    ihave HSA' := (owns_some (F := F) c scAF _) $$ HSA
    ihave HSC' := (owns_some (F := F) c scCF _) $$ HSC
    isplitl [HSA' HSC' Hg]
    · isplitl [HSA' HSC']
      · isplitl [HSA']
        · iexact HSA'
        · iexact HSC'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h2 : t.val % 8 = 7
    · iapply ((runC c (grid0.coords t) (ms0F t) (hs0F t) (ms1F t) (hs1F t) (ms2F t) (hs2F t) (ms3F t) (hs3F t) (ms4F t) (hs4F t) (ms5F t) (hs5F t) (ms6F t) (hs6F t) scAF (Memref.isWhole_whole _) scCF (Memref.isWhole_whole _)
        (fun h => h1 ((hcond1 t).mp h)) ((hcond2 t).mpr h2) (iblk m c 0 t) (iblk m c 1 t) (iblk m c 2 t) (iblk m c 3 t) (iblk m c 4 t) (iblk m c 5 t) da dc).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HSA]; · iexact HSA
      isplitl [HSC]; · iexact HSC
      iintro ⟨H0, H1, H2, H3, H4, H5, ⟨%e6, H6⟩, ⟨%ea, HSA⟩, ⟨%ec, -, HSC⟩⟩
      ihave HSA' := (owns_some (F := F) c scAF _) $$ HSA
      ihave HSC' := (owns_some (F := F) c scCF _) $$ HSC
      isplitl [HSA' HSC' Hg]
      · isplitl [HSA' HSC']
        · isplitl [HSA']
          · iexact HSA'
          · iexact HSC'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      ihave H6' := (owns_some (F := F) c (ms6F t) _) $$ H6
      iexact H6'
    · iapply ((runB c (grid0.coords t) (ms0F t) (hs0F t) (ms1F t) (hs1F t) (ms2F t) (hs2F t) (ms3F t) (hs3F t) (ms4F t) (hs4F t) (ms5F t) (hs5F t) (ms6F t) (hs6F t) scAF (Memref.isWhole_whole _) scCF (Memref.isWhole_whole _)
        (fun h => h1 ((hcond1 t).mp h)) (fun h => h2 ((hcond2 t).mp h)) (iblk m c 0 t) (iblk m c 1 t) (iblk m c 2 t) (iblk m c 3 t) (iblk m c 4 t) (iblk m c 5 t) X6 da dc).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HSA]; · iexact HSA
      isplitl [HSC]; · iexact HSC
      iintro ⟨H0, H1, H2, H3, H4, H5, H6, ⟨%ea, HSA⟩, ⟨%ec, -, HSC⟩⟩
      ihave HSA' := (owns_some (F := F) c scAF _) $$ HSA
      ihave HSC' := (owns_some (F := F) c scCF _) $$ HSC
      isplitl [HSA' HSC' Hg]
      · isplitl [HSA' HSC']
        · isplitl [HSA']
          · iexact HSA'
          · iexact HSC'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point, the output window forgotten. -/
theorem body_obligationF (c : Dev nD) : BodyObligation (datsF (F := F) m 0 c) (defs₀ (F := F)) Variants.none () Set.univ forgets0 := fun t => by
  rw [bigSep_W0, bigSep_W0]
  exact sound_bodyF m c t

set_option backward.isDefEq.respectTransparency.types false in
/-- Every weakly fair execution of @main terminates, with every input array and every bypassing buffer at its
    region-entry contents. -/
theorem run_mainF : θ_run defs (onTc (τ := τ) (main (F := F))) (s₀ m ρ)
    (Pipeline.RDat.FramePost (cfgs 0) (fun c => (datsF m 0 c).toRForget forgets0) (V m)) :=
  Pipeline.RDat.θ_run_frame cfgs (0 : Fin 1) launch0 defs₀ Variants.none (fun c => (datsF m 0 c).toRForget forgets0) m ρ main
    (hbody := fun c => (body_obligationF m c).toRForget) (hshare := fun c => ((datsF m 0 c).toRForget forgets0).share_full fun _ => rfl)
    (howed := fun _ _ => rfl) (V := V m) (hmain := hmain m Variants.none) (hA := AF_eq m) (hΦ := fun _ _ => rfl)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((AF_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_mainF m ρ)

end Cert.Kernel.Hand

end
-- ==== Proof.KRunDefs.lean ====
/-
  The kernel body run whole, once per control case. The body branches twice on the grid point's third coordinate
  dn (the channel chunk): it zeroes the accumulator when dn = 0, and copies the accumulator to the output block when
  dn = 7. Three cases meet the grid: dn = 0, 0 < dn < 7, dn = 7. In each the body loads the feature block, the gate
  matrices' slices, the bias slice and the carried-state slice, stores the new carried-state slice, accumulates the
  gated state's product with the output matrix's slice, and (dn = 7) stores the output block.
-/
import proofs.«111377_j19533511262472_1_alg».proof.Proof.Gen.KernelIdeal.Frame
import proofs.«111377_j19533511262472_1_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch's condition (dn = 0), as the body computes it from the grid point. -/
abbrev cond1 (i : grid0.Coords) : Prop := (Scalar.cmpi .ne (Scalar.extui (Scalar.cmpi .eq (BitVec.ofNat 32 (i 2).val) 0#32)) 0#32) = 1#1
/-- It holds at the points ≡ 0 (mod 8). -/
theorem hcond1 : ∀ t : Fin cfg0.N, cond1 (grid0.coords t) ↔ t.val % 8 = 0 :=
  (by decide +kernel : ∀ t : Fin grid0.N, cond1 (grid0.coords t) ↔ t.val % 8 = 0)
/-- The second branch's condition (dn = 7). -/
abbrev cond2 (i : grid0.Coords) : Prop := k0_cond2 i = 1#1
/-- It holds at the points ≡ 7 (mod 8). -/
theorem hcond2 : ∀ t : Fin cfg0.N, cond2 (grid0.coords t) ↔ t.val % 8 = 7 :=
  (by decide +kernel : ∀ t : Fin grid0.N, cond2 (grid0.coords t) ↔ t.val % 8 = 7)

end Cert.KernelIdeal.Hand

end
-- ==== Proof.KRunA.lean ====
/-
  The kernel body run whole, once per control case. The body branches twice on the grid point's third coordinate
  dn (the channel chunk): it zeroes the accumulator when dn = 0, and copies the accumulator to the output block when
  dn = 7. Three cases meet the grid: dn = 0, 0 < dn < 7, dn = 7. In each the body loads the feature block, the gate
  matrices' slices, the bias slice and the carried-state slice, stores the new carried-state slice, accumulates the
  gated state's product with the output matrix's slice, and (dn = 7) stores the output block.
-/
import proofs.«111377_j19533511262472_1_alg».proof.Proof.KRunDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in the case dn = 0 (the accumulator is zeroed first; the output block is not stored): on whole staging memrefs, the six inputs and the output's buffer at their contents,
    the accumulator at anything and the carried-state buffer at given contents, the body runs to the continuation holding the inputs
    and the output's buffer as they were (nothing is stored into the output block in this case), and the accumulator and
    the carried-state buffer with the listed pieces written — the carried-state buffer's over what it held before, since
    its one piece covers a slice only; the pieces are what the run finds. -/
noncomputable def runA (c : Dev nD) (i : grid0.Coords) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1x1024 .f32) (harg11 : arg11.IsWhole) (hc1 : cond1 i) (hc2 : ¬cond2 i)
    (x0 : Vec F S1x1024x1024 .f32) (x1 x2 x3 : Vec F S1024x1024 .bf16) (x4 : Vec F S1x1024 .f32) (x5 : Vec F S1024x1024 .bf16) (x9 : Vec F S1x1024x1024 .f32) (xc : Vec F S1x1024 .f32) :
    Σ' (LA : List (View.Piece (Elt F) S1024x1024 .f32)), { LC : List (View.Piece (Elt F) S1x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare x9 ∗ (∃ d, owns (c : Thread nD τ) arg10 fullShare d) ∗ owns (c : Thread nD τ) arg11 fullShare xc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ owns (c : Thread nD τ) arg9 fullShare x9
                ∗ (∃ f, arg10.view.loc (c : Thread nD τ) ↦[arg10.view.set]{fullShare} arg10.view.writes (Elt F) f LA)
                ∗ (∃ f, ⌜arg11.view.read (Elt F) f = xc⌝ ∗ (arg11.view.loc (c : Thread nD τ) ↦[arg11.view.set]{fullShare} arg11.view.writes (Elt F) f LC))) -∗ K ⟨⟩))
          ⊢ wp frame (wpE (defs₀ (F := F)) Variants.none c none) E (cc0__gated_kernel i arg3 harg3 arg4 harg4 arg5 harg5 arg6 harg6 arg7 harg7 arg8 harg8 arg9 harg9 arg10 harg10 arg11 harg11) K } := by
  refine ⟨?_, ?_, fun E K => ?run⟩
  case run =>
    simp only [cc0__gated_kernel_eq_skeleton]; unfold cc0__gated_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%da, %fa, -, HA⟩, ⟨%fc, %hfc, HC⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf9
    obtain rfl := harg11.eq_unread hfc
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H9]
    · iexists _; isplitr; · ipureintro; exact harg9.read_unread _
      iexact H9
    isplitl [HA]; · iexists _; iexact HA
    iexists _; isplitr; · ipureintro; exact harg11.read_unread _
    iexact HC

end Cert.KernelIdeal.Hand

end
-- ==== Proof.KRunB.lean ====
/-
  The kernel body run whole, once per control case. The body branches twice on the grid point's third coordinate
  dn (the channel chunk): it zeroes the accumulator when dn = 0, and copies the accumulator to the output block when
  dn = 7. Three cases meet the grid: dn = 0, 0 < dn < 7, dn = 7. In each the body loads the feature block, the gate
  matrices' slices, the bias slice and the carried-state slice, stores the new carried-state slice, accumulates the
  gated state's product with the output matrix's slice, and (dn = 7) stores the output block.
-/
import proofs.«111377_j19533511262472_1_alg».proof.Proof.KRunDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in the case 0 < dn < 7 (neither branch taken): on whole staging memrefs, the six inputs and the output's buffer at their contents,
    the accumulator and the carried-state buffer at given contents, the body runs to the continuation holding the inputs
    and the output's buffer as they were (nothing is stored into the output block in this case), and the accumulator and
    the carried-state buffer with the listed pieces written — the carried-state buffer's over what it held before, since
    its one piece covers a slice only; the pieces are what the run finds. -/
noncomputable def runB (c : Dev nD) (i : grid0.Coords) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1x1024 .f32) (harg11 : arg11.IsWhole) (hc1 : ¬cond1 i) (hc2 : ¬cond2 i)
    (x0 : Vec F S1x1024x1024 .f32) (x1 x2 x3 : Vec F S1024x1024 .bf16) (x4 : Vec F S1x1024 .f32) (x5 : Vec F S1024x1024 .bf16) (x9 : Vec F S1x1024x1024 .f32) (xa : Vec F S1024x1024 .f32) (xc : Vec F S1x1024 .f32) :
    Σ' (LA : List (View.Piece (Elt F) S1024x1024 .f32)), { LC : List (View.Piece (Elt F) S1x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare x9 ∗ owns (c : Thread nD τ) arg10 fullShare xa ∗ owns (c : Thread nD τ) arg11 fullShare xc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ owns (c : Thread nD τ) arg9 fullShare x9
                ∗ (∃ f, arg10.view.loc (c : Thread nD τ) ↦[arg10.view.set]{fullShare} arg10.view.writes (Elt F) f LA)
                ∗ (∃ f, ⌜arg11.view.read (Elt F) f = xc⌝ ∗ (arg11.view.loc (c : Thread nD τ) ↦[arg11.view.set]{fullShare} arg11.view.writes (Elt F) f LC))) -∗ K ⟨⟩))
          ⊢ wp frame (wpE (defs₀ (F := F)) Variants.none c none) E (cc0__gated_kernel i arg3 harg3 arg4 harg4 arg5 harg5 arg6 harg6 arg7 harg7 arg8 harg8 arg9 harg9 arg10 harg10 arg11 harg11) K } := by
  refine ⟨?_, ?_, fun E K => ?run⟩
  case run =>
    simp only [cc0__gated_kernel_eq_skeleton]; unfold cc0__gated_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, ⟨%fa, %hfa, HA⟩, ⟨%fc, %hfc, HC⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf9
    obtain rfl := harg10.eq_unread hfa; obtain rfl := harg11.eq_unread hfc
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H9]
    · iexists _; isplitr; · ipureintro; exact harg9.read_unread _
      iexact H9
    isplitl [HA]; · iexists _; iexact HA
    iexists _; isplitr; · ipureintro; exact harg11.read_unread _
    iexact HC

end Cert.KernelIdeal.Hand

end
-- ==== Proof.KRunC.lean ====
/-
  The kernel body run whole, once per control case. The body branches twice on the grid point's third coordinate
  dn (the channel chunk): it zeroes the accumulator when dn = 0, and copies the accumulator to the output block when
  dn = 7. Three cases meet the grid: dn = 0, 0 < dn < 7, dn = 7. In each the body loads the feature block, the gate
  matrices' slices, the bias slice and the carried-state slice, stores the new carried-state slice, accumulates the
  gated state's product with the output matrix's slice, and (dn = 7) stores the output block.
-/
import proofs.«111377_j19533511262472_1_alg».proof.Proof.KRunDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body in the case dn = 7 (the accumulator is copied to the output block at the end): on whole staging memrefs, the six inputs at their contents, the output's buffer at
    anything, the accumulator and the carried-state buffer at given contents, the body runs to the continuation holding
    the inputs as they were, and the output's buffer, the accumulator and the carried-state buffer with the listed pieces
    written — the carried-state buffer's over what it held before, since its one piece covers a slice only; the pieces are
    what the run finds. -/
noncomputable def runC (c : Dev nD) (i : grid0.Coords) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1x1024 .f32) (harg11 : arg11.IsWhole) (hc1 : ¬cond1 i) (hc2 : cond2 i)
    (x0 : Vec F S1x1024x1024 .f32) (x1 x2 x3 : Vec F S1024x1024 .bf16) (x4 : Vec F S1x1024 .f32) (x5 : Vec F S1024x1024 .bf16) (xa : Vec F S1024x1024 .f32) (xc : Vec F S1x1024 .f32) :
    Σ' (L9 : List (View.Piece (Elt F) S1x1024x1024 .f32)) (LA : List (View.Piece (Elt F) S1024x1024 .f32)), { LC : List (View.Piece (Elt F) S1x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d, owns (c : Thread nD τ) arg9 fullShare d) ∗ owns (c : Thread nD τ) arg10 fullShare xa ∗ owns (c : Thread nD τ) arg11 fullShare xc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LA)
                ∗ (∃ f, ⌜arg11.view.read (Elt F) f = xc⌝ ∗ (arg11.view.loc (c : Thread nD τ) ↦[arg11.view.set]{fullShare} arg11.view.writes (Elt F) f LC))) -∗ K ⟨⟩))
          ⊢ wp frame (wpE (defs₀ (F := F)) Variants.none c none) E (cc0__gated_kernel i arg3 harg3 arg4 harg4 arg5 harg5 arg6 harg6 arg7 harg7 arg8 harg8 arg9 harg9 arg10 harg10 arg11 harg11) K } := by
  refine ⟨?_, ?_, ?_, fun E K => ?run⟩
  case run =>
    simp only [cc0__gated_kernel_eq_skeleton]; unfold cc0__gated_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d9, %f9, -, H9⟩, ⟨%fa, %hfa, HA⟩, ⟨%fc, %hfc, HC⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfa; obtain rfl := harg11.eq_unread hfc
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H9]; · iexists _; iexact H9
    isplitl [HA]; · iexists _; iexact HA
    iexists _; isplitr; · ipureintro; exact harg11.read_unread _
    iexact HC

end Cert.KernelIdeal.Hand

end
-- ==== Proof.KFrame.lean ====
/-
  The frame of the program: it runs to the end, faults nowhere and leaves its arguments unchanged, at any float
  instance. Nothing here names what the body leaves in the output block or in its two scratch buffers: the output
  window is handed to the body and taken back at some contents, the scratch buffers and the generator register
  are held at some contents between points, and each input window's staging buffer holds its block of the array
  as the region found it, at every point. The body's run is taken per control case (dn = 0, 0 < dn < 7, dn = 7).
-/
import proofs.«111377_j19533511262472_1_alg».proof.Proof.KRunA
import proofs.«111377_j19533511262472_1_alg».proof.Proof.KRunB
import proofs.«111377_j19533511262472_1_alg».proof.Proof.KRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, as the pipeline passes it to the body, and its wholeness. -/
abbrev ms0F (t : Fin cfg0.N) : Memref sig .tc .vmem S1x1024x1024 .f32 := win0_0.stage (cfg0.slots t 0)
abbrev hs0F (t : Fin cfg0.N) : (ms0F t).IsWhole := hstage0_0 ((cfg0.slots t 0).cast nbuf0_0)
abbrev ms1F (t : Fin cfg0.N) : Memref sig .tc .vmem S1024x1024 .bf16 := win0_1.stage (cfg0.slots t 1)
abbrev hs1F (t : Fin cfg0.N) : (ms1F t).IsWhole := hstage0_1 ((cfg0.slots t 1).cast nbuf0_1)
abbrev ms2F (t : Fin cfg0.N) : Memref sig .tc .vmem S1024x1024 .bf16 := win0_2.stage (cfg0.slots t 2)
abbrev hs2F (t : Fin cfg0.N) : (ms2F t).IsWhole := hstage0_2 ((cfg0.slots t 2).cast nbuf0_2)
abbrev ms3F (t : Fin cfg0.N) : Memref sig .tc .vmem S1024x1024 .bf16 := win0_3.stage (cfg0.slots t 3)
abbrev hs3F (t : Fin cfg0.N) : (ms3F t).IsWhole := hstage0_3 ((cfg0.slots t 3).cast nbuf0_3)
abbrev ms4F (t : Fin cfg0.N) : Memref sig .tc .vmem S1x1024 .f32 := win0_4.stage (cfg0.slots t 4)
abbrev hs4F (t : Fin cfg0.N) : (ms4F t).IsWhole := hstage0_4 ((cfg0.slots t 4).cast nbuf0_4)
abbrev ms5F (t : Fin cfg0.N) : Memref sig .tc .vmem S1024x1024 .bf16 := win0_5.stage (cfg0.slots t 5)
abbrev hs5F (t : Fin cfg0.N) : (ms5F t).IsWhole := hstage0_5 ((cfg0.slots t 5).cast nbuf0_5)
abbrev ms6F (t : Fin cfg0.N) : Memref sig .tc .vmem S1x1024x1024 .f32 := win0_6.stage (cfg0.slots t 6)
abbrev hs6F (t : Fin cfg0.N) : (ms6F t).IsWhole := hstage0_6 ((cfg0.slots t 6).cast nbuf0_6)
/-- The two scratch operands: the accumulator and the carried-state buffer. -/
abbrev scAF : Memref sig .tc .vmem S1024x1024 .f32 := Memref.whole cc0_scratch0
abbrev scCF : Memref sig .tc .vmem S1x1024 .f32 := Memref.whole cc0_scratch1

/-- A buffer held at any contents is owned at what those contents read as. -/
theorem owns_some {S : Shape} {e : EltTy} (c : Dev nD) (mr : Memref sig .tc .vmem S e) (f : mr.view.ty.Contents (Elt F)) :
    (iprop(mr.view.loc (c : Thread nD τ) ↦[mr.view.set]{fullShare} f) : sProp 𝕄)
      ⊢ iprop(∃ d, owns (c : Thread nD τ) mr fullShare d) := by
  iintro H
  iexists (mr.view.read (Elt F) f)
  unfold owns
  iexists f
  isplitr
  · ipureintro; rfl
  iexact H

/-- The region's invariant with the two scratch operands as memrefs owned at some contents. -/
theorem PhiA_eq (c : Dev nD) :
    (Pipeline.ΦA spec0 c : sProp 𝕄)
      = iprop(iprop((∃ d, owns (c : Thread nD τ) scAF fullShare d) ∗ (∃ d, owns (c : Thread nD τ) scCF fullShare d)) ∗ (∃ r, prngReg c r)) := by
  unfold Pipeline.ΦA; rw [scopedRest0_eq]; simp only [scAF, scCF, owns_whole]; try rfl

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- The output window, whose contents the frame does not name. -/
def forgets0 : Fin 7 → Bool := fun w => w.val == 6

/-- The frame's proof data on core `c`: the arrays as the region finds them; after the body each input's buffer at
    its block, the output's unnamed; the scratch buffers and the generator register at some contents throughout. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem AF_eq (c : Dev nD) (w : Fin cfg0.W) : (datsF m 0 c).A w = V m c (Pipeline.arrRef spec0 w) := by
  dsimp only [datsF]

theorem afterF0 (c : Dev nD) (t : Fin cfg0.N) : (datsF m 0 c).after 0 t = iblk m c 0 t := by dsimp only [datsF]
theorem afterF1 (c : Dev nD) (t : Fin cfg0.N) : (datsF m 0 c).after 1 t = iblk m c 1 t := by dsimp only [datsF]
theorem afterF2 (c : Dev nD) (t : Fin cfg0.N) : (datsF m 0 c).after 2 t = iblk m c 2 t := by dsimp only [datsF]
theorem afterF3 (c : Dev nD) (t : Fin cfg0.N) : (datsF m 0 c).after 3 t = iblk m c 3 t := by dsimp only [datsF]
theorem afterF4 (c : Dev nD) (t : Fin cfg0.N) : (datsF m 0 c).after 4 t = iblk m c 4 t := by dsimp only [datsF]
theorem afterF5 (c : Dev nD) (t : Fin cfg0.N) : (datsF m 0 c).after 5 t = iblk m c 5 t := by dsimp only [datsF]

theorem beforeF0 (c : Dev nD) (t : Fin cfg0.N) (d) : (datsF m 0 c).before 0 t d = iblk m c 0 t :=
  before0_0_of m (datsF m 0 c) (AF_eq m c 0) (afterF0 m c) t d
theorem beforeF1 (c : Dev nD) (t : Fin cfg0.N) (d) : (datsF m 0 c).before 1 t d = iblk m c 1 t :=
  before0_1_of m (datsF m 0 c) (AF_eq m c 1) (afterF1 m c) t d
theorem beforeF2 (c : Dev nD) (t : Fin cfg0.N) (d) : (datsF m 0 c).before 2 t d = iblk m c 2 t :=
  before0_2_of m (datsF m 0 c) (AF_eq m c 2) (afterF2 m c) t d
theorem beforeF3 (c : Dev nD) (t : Fin cfg0.N) (d) : (datsF m 0 c).before 3 t d = iblk m c 3 t :=
  before0_3_of m (datsF m 0 c) (AF_eq m c 3) (afterF3 m c) t d
theorem beforeF4 (c : Dev nD) (t : Fin cfg0.N) (d) : (datsF m 0 c).before 4 t d = iblk m c 4 t :=
  before0_4_of m (datsF m 0 c) (AF_eq m c 4) (afterF4 m c) t d
theorem beforeF5 (c : Dev nD) (t : Fin cfg0.N) (d) : (datsF m 0 c).before 5 t d = iblk m c 5 t :=
  before0_5_of m (datsF m 0 c) (AF_eq m c 5) (afterF5 m c) t d

/-- What the body is called with at point `t`, -/
def bodyPreF (c : Dev nD) (t : Fin cfg0.N) : sProp 𝕄 :=
  iprop((datsF m 0 c).Φ t.castSucc ∗ (datsF m 0 c).owesAt () t.castSucc
    ∗ (∃ d, owns (c : Thread nD τ) (ms0F t) fullShare ((datsF m 0 c).before 0 t d))
    ∗ (∃ d, owns (c : Thread nD τ) (ms1F t) fullShare ((datsF m 0 c).before 1 t d))
    ∗ (∃ d, owns (c : Thread nD τ) (ms2F t) fullShare ((datsF m 0 c).before 2 t d))
    ∗ (∃ d, owns (c : Thread nD τ) (ms3F t) fullShare ((datsF m 0 c).before 3 t d))
    ∗ (∃ d, owns (c : Thread nD τ) (ms4F t) fullShare ((datsF m 0 c).before 4 t d))
    ∗ (∃ d, owns (c : Thread nD τ) (ms5F t) fullShare ((datsF m 0 c).before 5 t d))
    ∗ (∃ X, owns (c : Thread nD τ) (ms6F t) fullShare X))

/-- and what it returns. -/
def bodyPostF (c : Dev nD) (t : Fin cfg0.N) : sProp 𝕄 :=
  iprop((datsF m 0 c).Φ t.succ ∗ (datsF m 0 c).owesAt () t.succ
    ∗ (datsF m 0 c).leavesExact 0 t
    ∗ (datsF m 0 c).leavesExact 1 t
    ∗ (datsF m 0 c).leavesExact 2 t
    ∗ (datsF m 0 c).leavesExact 3 t
    ∗ (datsF m 0 c).leavesExact 4 t
    ∗ (datsF m 0 c).leavesExact 5 t
    ∗ (∃ X, owns (c : Thread nD τ) (ms6F t) fullShare X))

theorem leavesF (c : Dev nD) (t : Fin cfg0.N) :
    (datsF m 0 c).leavesExact 0 t = owns (c : Thread nD τ) (ms0F t) fullShare (iblk m c 0 t)
    ∧ (datsF m 0 c).leavesExact 1 t = owns (c : Thread nD τ) (ms1F t) fullShare (iblk m c 1 t)
    ∧ (datsF m 0 c).leavesExact 2 t = owns (c : Thread nD τ) (ms2F t) fullShare (iblk m c 2 t)
    ∧ (datsF m 0 c).leavesExact 3 t = owns (c : Thread nD τ) (ms3F t) fullShare (iblk m c 3 t)
    ∧ (datsF m 0 c).leavesExact 4 t = owns (c : Thread nD τ) (ms4F t) fullShare (iblk m c 4 t)
    ∧ (datsF m 0 c).leavesExact 5 t = owns (c : Thread nD τ) (ms5F t) fullShare (iblk m c 5 t) := by
  refine ⟨?_, ?_, ?_, ?_, ?_, ?_⟩
  · unfold Dat.leavesExact; rw [live0 t, afterF0]
  · unfold Dat.leavesExact; rw [live1 t, afterF1]
  · unfold Dat.leavesExact; rw [live2 t, afterF2]
  · unfold Dat.leavesExact; rw [live3 t, afterF3]
  · unfold Dat.leavesExact; rw [live4 t, afterF4]
  · unfold Dat.leavesExact; rw [live5 t, afterF5]

set_option maxHeartbeats 4000000 in
/-- The body at any point: the inputs' memrefs hold their blocks; the point's residue mod 8 says which case it is in;
    the case's run applies, with the scratch buffers and the output's buffer at whatever they hold. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [beforeF0, beforeF1, beforeF2, beforeF3, beforeF4, beforeF5]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA_eq]
  obtain ⟨e0, e1, e2, e3, e4, e5⟩ := leavesF m c t
  rw [e0, e1, e2, e3, e4, e5]
  iintro ⟨⟨⟨⟨%da, HSA⟩, ⟨%dc, HSC⟩⟩, Hg⟩, Ho, ⟨%d0, H0⟩, ⟨%d1, H1⟩, ⟨%d2, H2⟩, ⟨%d3, H3⟩, ⟨%d4, H4⟩, ⟨%d5, H5⟩, ⟨%X6, H6⟩⟩
  by_cases h1 : t.val % 8 = 0
  · have h2 : ¬ t.val % 8 = 7 := by omega
    iapply ((runA c (grid0.coords t) (ms0F t) (hs0F t) (ms1F t) (hs1F t) (ms2F t) (hs2F t) (ms3F t) (hs3F t) (ms4F t) (hs4F t) (ms5F t) (hs5F t) (ms6F t) (hs6F t) scAF (Memref.isWhole_whole _) scCF (Memref.isWhole_whole _)
      ((hcond1 t).mpr h1) (fun h => h2 ((hcond2 t).mp h)) (iblk m c 0 t) (iblk m c 1 t) (iblk m c 2 t) (iblk m c 3 t) (iblk m c 4 t) (iblk m c 5 t) X6 dc).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HSA]; · iexists _; iexact HSA
    isplitl [HSC]; · iexact HSC
    iintro ⟨H0, H1, H2, H3, H4, H5, H6, ⟨%ea, HSA⟩, ⟨%ec, -, HSC⟩⟩
    ihave HSA' := (owns_some (F := F) c scAF _) $$ HSA
    ihave HSC' := (owns_some (F := F) c scCF _) $$ HSC
    isplitl [HSA' HSC' Hg]
    · isplitl [HSA' HSC']
      · isplitl [HSA']
        · iexact HSA'
        · iexact HSC'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h2 : t.val % 8 = 7
    · iapply ((runC c (grid0.coords t) (ms0F t) (hs0F t) (ms1F t) (hs1F t) (ms2F t) (hs2F t) (ms3F t) (hs3F t) (ms4F t) (hs4F t) (ms5F t) (hs5F t) (ms6F t) (hs6F t) scAF (Memref.isWhole_whole _) scCF (Memref.isWhole_whole _)
        (fun h => h1 ((hcond1 t).mp h)) ((hcond2 t).mpr h2) (iblk m c 0 t) (iblk m c 1 t) (iblk m c 2 t) (iblk m c 3 t) (iblk m c 4 t) (iblk m c 5 t) da dc).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HSA]; · iexact HSA
      isplitl [HSC]; · iexact HSC
      iintro ⟨H0, H1, H2, H3, H4, H5, ⟨%e6, H6⟩, ⟨%ea, HSA⟩, ⟨%ec, -, HSC⟩⟩
      ihave HSA' := (owns_some (F := F) c scAF _) $$ HSA
      ihave HSC' := (owns_some (F := F) c scCF _) $$ HSC
      isplitl [HSA' HSC' Hg]
      · isplitl [HSA' HSC']
        · isplitl [HSA']
          · iexact HSA'
          · iexact HSC'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      ihave H6' := (owns_some (F := F) c (ms6F t) _) $$ H6
      iexact H6'
    · iapply ((runB c (grid0.coords t) (ms0F t) (hs0F t) (ms1F t) (hs1F t) (ms2F t) (hs2F t) (ms3F t) (hs3F t) (ms4F t) (hs4F t) (ms5F t) (hs5F t) (ms6F t) (hs6F t) scAF (Memref.isWhole_whole _) scCF (Memref.isWhole_whole _)
        (fun h => h1 ((hcond1 t).mp h)) (fun h => h2 ((hcond2 t).mp h)) (iblk m c 0 t) (iblk m c 1 t) (iblk m c 2 t) (iblk m c 3 t) (iblk m c 4 t) (iblk m c 5 t) X6 da dc).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HSA]; · iexact HSA
      isplitl [HSC]; · iexact HSC
      iintro ⟨H0, H1, H2, H3, H4, H5, H6, ⟨%ea, HSA⟩, ⟨%ec, -, HSC⟩⟩
      ihave HSA' := (owns_some (F := F) c scAF _) $$ HSA
      ihave HSC' := (owns_some (F := F) c scCF _) $$ HSC
      isplitl [HSA' HSC' Hg]
      · isplitl [HSA' HSC']
        · isplitl [HSA']
          · iexact HSA'
          · iexact HSC'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point, the output window forgotten. -/
theorem body_obligationF (c : Dev nD) : BodyObligation (datsF (F := F) m 0 c) (defs₀ (F := F)) Variants.none () Set.univ forgets0 := fun t => by
  rw [bigSep_W0, bigSep_W0]
  exact sound_bodyF m c t

set_option backward.isDefEq.respectTransparency.types false in
/-- Every weakly fair execution of @main terminates, with every input array and every bypassing buffer at its
    region-entry contents. -/
theorem run_mainF : θ_run defs (onTc (τ := τ) (main (F := F))) (s₀ m ρ)
    (Pipeline.RDat.FramePost (cfgs 0) (fun c => (datsF m 0 c).toRForget forgets0) (V m)) :=
  Pipeline.RDat.θ_run_frame cfgs (0 : Fin 1) launch0 defs₀ Variants.none (fun c => (datsF m 0 c).toRForget forgets0) m ρ main
    (hbody := fun c => (body_obligationF m c).toRForget) (hshare := fun c => ((datsF m 0 c).toRForget forgets0).share_full fun _ => rfl)
    (howed := fun _ _ => rfl) (V := V m) (hmain := hmain m Variants.none) (hA := AF_eq m) (hΦ := fun _ _ => rfl)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((AF_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_mainF m ρ)

end Cert.KernelIdeal.Hand

end
-- ==== Proof.KBlocks.lean ====
/-
  The windows' blocks as pieces of the arrays. The grid is 4 × 4 × 8 (batch b, time chunk tn, channel chunk dn) run in
  row-major order: point t is (t / 32, (t / 8) mod 4, t mod 8). The feature window's block at t is rows
  1024·tn … 1024·tn + 1023 of batch b; the three gate-matrix windows, the bias window and the output-matrix window
  have one block, the whole array, at every point.
-/
import proofs.«111377_j19533511262472_1_alg».proof.Proof.Gen.KernelIdeal.Frame
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The grid point's coordinates. -/
def bOf (t : Fin cfg0.N) : Fin 4 := ⟨t.val / 32, by have := t.isLt; have h : cfg0.N = 128 := N_0; omega⟩
def tnOf (t : Fin cfg0.N) : Fin 4 := ⟨(t.val / 8) % 4, by omega⟩
def dnOf (t : Fin cfg0.N) : Fin 8 := ⟨t.val % 8, by omega⟩

/-- The grid's coordinates of each of its 128 points. -/
theorem coords_facts : ∀ t : Fin cfg0.N,
    ((grid0.coords t) 0).val = t.val / 32 ∧ ((grid0.coords t) 1).val = (t.val / 8) % 4 ∧ ((grid0.coords t) 2).val = t.val % 8 :=
  (by decide +kernel : ∀ t : Fin grid0.N,
    ((grid0.coords t) 0).val = t.val / 32 ∧ ((grid0.coords t) 1).val = (t.val / 8) % 4 ∧ ((grid0.coords t) 2).val = t.val % 8)

/-- The index maps' values over the grid: the feature window's block index is (b, tn, 0); every other input
    window's is zero on both axes. -/
theorem idx_facts : ∀ t : Fin cfg0.N,
    win0_0.index t (0 : Fin 3) = t.val / 32 ∧ win0_0.index t (1 : Fin 3) = (t.val / 8) % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem coords_val (t : Fin cfg0.N) :
    ((grid0.coords t) 0).val = (bOf t).val ∧ ((grid0.coords t) 1).val = (tnOf t).val ∧ ((grid0.coords t) 2).val = (dnOf t).val := by
  exact coords_facts t

/-- The feature block at point `t`, read at row `r`, feature `k`. -/
theorem iblk0_apply (c : Dev nD) (t : Fin cfg0.N) (r k : Fin 1024) :
    iblk m c 0 t (ix3 (0 : Fin 1) r k)
      = (V m c main_arg0 : S4x4096x1024.Idx → Elt F .f32) (ix3 (bOf t) (⟨1024 * (tnOf t).val + r.val, by have := (tnOf t).isLt; omega⟩ : Fin 4096) k) := by
  obtain ⟨e0, e1, e2, -⟩ := idx_facts t
  show V m c main_arg0 (((cfg0.win 0).blk t).view.emb (ix3 (0 : Fin 1) r k)) = _
  refine congrArg _ (funext fun a => Fin.ext ?_)
  match a with
  | ⟨0, _⟩ =>
    show win0_0.index t (0 : Fin 3) * 1 + 1 * 0 = t.val / 32
    omega
  | ⟨1, _⟩ =>
    show win0_0.index t (1 : Fin 3) * 1024 + 1 * r.val = 1024 * ((t.val / 8) % 4) + r.val
    omega
  | ⟨2, _⟩ =>
    show win0_0.index t (2 : Fin 3) * 1024 + 1 * k.val = k.val
    omega

/-- The one-block windows: the block is the whole array. -/
theorem iblk1_apply (c : Dev nD) (t : Fin cfg0.N) (r k : Fin 1024) :
    iblk m c 1 t (ix2 r k) = (V m c main_v25 : S1024x1024.Idx → Elt F .bf16) (ix2 r k) := by
  obtain ⟨-, -, -, e10, e11, e20, e21, e30, e31, e40, e41, e50, e51⟩ := idx_facts t
  show V m c main_v25 (((cfg0.win 1).blk t).view.emb (ix2 r k)) = _
  refine congrArg _ (funext fun a => Fin.ext ?_)
  match a with
  | ⟨0, _⟩ =>
    show win0_1.index t (0 : Fin 2) * 1024 + 1 * r.val = r.val
    omega
  | ⟨1, _⟩ =>
    show win0_1.index t (1 : Fin 2) * 1024 + 1 * k.val = k.val
    omega
theorem iblk2_apply (c : Dev nD) (t : Fin cfg0.N) (r k : Fin 1024) :
    iblk m c 2 t (ix2 r k) = (V m c main_v27 : S1024x1024.Idx → Elt F .bf16) (ix2 r k) := by
  obtain ⟨-, -, -, e10, e11, e20, e21, e30, e31, e40, e41, e50, e51⟩ := idx_facts t
  show V m c main_v27 (((cfg0.win 2).blk t).view.emb (ix2 r k)) = _
  refine congrArg _ (funext fun a => Fin.ext ?_)
  match a with
  | ⟨0, _⟩ =>
    show win0_2.index t (0 : Fin 2) * 1024 + 1 * r.val = r.val
    omega
  | ⟨1, _⟩ =>
    show win0_2.index t (1 : Fin 2) * 1024 + 1 * k.val = k.val
    omega
theorem iblk3_apply (c : Dev nD) (t : Fin cfg0.N) (r k : Fin 1024) :
    iblk m c 3 t (ix2 r k) = (V m c main_v29 : S1024x1024.Idx → Elt F .bf16) (ix2 r k) := by
  obtain ⟨-, -, -, e10, e11, e20, e21, e30, e31, e40, e41, e50, e51⟩ := idx_facts t
  show V m c main_v29 (((cfg0.win 3).blk t).view.emb (ix2 r k)) = _
  refine congrArg _ (funext fun a => Fin.ext ?_)
  match a with
  | ⟨0, _⟩ =>
    show win0_3.index t (0 : Fin 2) * 1024 + 1 * r.val = r.val
    omega
  | ⟨1, _⟩ =>
    show win0_3.index t (1 : Fin 2) * 1024 + 1 * k.val = k.val
    omega
theorem iblk4_apply (c : Dev nD) (t : Fin cfg0.N) (d : Fin 1024) :
    iblk m c 4 t (ix2 (0 : Fin 1) d) = (V m c main_v31 : S1x1024.Idx → Elt F .f32) (ix2 (0 : Fin 1) d) := by
  obtain ⟨-, -, -, e10, e11, e20, e21, e30, e31, e40, e41, e50, e51⟩ := idx_facts t
  show V m c main_v31 (((cfg0.win 4).blk t).view.emb (ix2 (0 : Fin 1) d)) = _
  refine congrArg _ (funext fun a => Fin.ext ?_)
  match a with
  | ⟨0, _⟩ =>
    show win0_4.index t (0 : Fin 2) * 1 + 1 * 0 = 0
    omega
  | ⟨1, _⟩ =>
    show win0_4.index t (1 : Fin 2) * 1024 + 1 * d.val = d.val
    omega
theorem iblk5_apply (c : Dev nD) (t : Fin cfg0.N) (e d : Fin 1024) :
    iblk m c 5 t (ix2 e d) = (V m c main_v30 : S1024x1024.Idx → Elt F .bf16) (ix2 e d) := by
  obtain ⟨-, -, -, e10, e11, e20, e21, e30, e31, e40, e41, e50, e51⟩ := idx_facts t
  show V m c main_v30 (((cfg0.win 5).blk t).view.emb (ix2 e d)) = _
  refine congrArg _ (funext fun a => Fin.ext ?_)
  match a with
  | ⟨0, _⟩ =>
    show win0_5.index t (0 : Fin 2) * 1024 + 1 * e.val = e.val
    omega
  | ⟨1, _⟩ =>
    show win0_5.index t (1 : Fin 2) * 1024 + 1 * d.val = d.val
    omega

end Cert.KernelIdeal.Hand

end
-- ==== Proof.Scan.lean ====
/-
  The doubling scan of an affine recurrence on the extended reals.

  A column of the gated recurrence is h(t) = a(t) · h(t-1) + b(t) with h(-1) = 0, every a(t) a nonnegative real
  (a sigmoid's value) and b(t) any extended real. Writing (a, b) for the affine map x ↦ a·x + b, composition is
  (a, b) ∘ (a', b') = (a·a', a·b' + b); it is associative because a nonnegative real multiplier distributes over
  a sum of extended reals. One round of the doubling scan at stride s replaces the map at t by its composite with
  the map at t - s (the identity (1, 0) when t < s); after k rounds the map at t is the composite of the original
  maps over the window of the last min (2^k) (t+1) positions ending at t. Hence, once 2^k exceeds t, its constant
  term is h(t); and a window that starts at a chunk boundary B, applied to h(B-1), gives h at the window's end.
-/
import Mathlib.Data.EReal.Operations
import Mathlib.Data.EReal.Inv

noncomputable section

namespace Cert.Scan

/-- One round of the doubling scan at stride `s`: the slope and constant sequences after composing position `t`
    with position `t - s` (with the identity map before position `s`). -/
def hsStep (s : ℕ) (p : (ℕ → EReal) × (ℕ → EReal)) : (ℕ → EReal) × (ℕ → EReal) :=
  (fun t => p.1 t * (if s ≤ t then p.1 (t - s) else 1),
   fun t => p.1 t * (if s ≤ t then p.2 (t - s) else 0) + p.2 t)

/-- `k` rounds, at strides 1, 2, 4, …, 2^(k-1). -/
def hsIter : ℕ → (ℕ → EReal) × (ℕ → EReal) → (ℕ → EReal) × (ℕ → EReal)
  | 0, p => p
  | k + 1, p => hsStep (2 ^ k) (hsIter k p)

/-- The sequential recurrence from the zero state: h(0) = b(0), h(t+1) = a(t+1)·h(t) + b(t+1). -/
def seqScan (a b : ℕ → EReal) : ℕ → EReal
  | 0 => b 0
  | t + 1 => a (t + 1) * seqScan a b t + b (t + 1)

/-- Every slope is a nonnegative real. -/
def NonnegReal (a : ℕ → EReal) : Prop := ∀ t, ∃ r : ℝ, 0 ≤ r ∧ a t = (r : EReal)

/-- The recurrence started from an arbitrary state `x` carried in before position 0:
    g(0) = a(0)·x + b(0), g(t+1) = a(t+1)·g(t) + b(t+1). -/
def scanFrom (x : EReal) (a b : ℕ → EReal) : ℕ → EReal
  | 0 => a 0 * x + b 0
  | t + 1 => a (t + 1) * scanFrom x a b t + b (t + 1)

/-- From the zero state the general recurrence is the sequential one (a·0 + b = b). -/
theorem scanFrom_zero_eq (a b : ℕ → EReal) (t : ℕ) : scanFrom 0 a b t = seqScan a b t := by
  induction t with
  | zero => simp [scanFrom, seqScan]
  | succ t ih => simp [scanFrom, seqScan, ih]

/-- Composition of affine maps: a nonnegative real slope distributes over a sum of extended reals, so
    applying (c·d, c·e + f) to y is applying (c, f) after (d, e). -/
theorem affine_comp {c : EReal} (hc : ∃ r : ℝ, 0 ≤ r ∧ c = (r : EReal)) (d e f y : EReal) :
    (c * d) * y + (c * e + f) = c * (d * y + e) + f := by
  obtain ⟨r, hr, rfl⟩ := hc
  rw [EReal.left_distrib_of_nonneg_of_ne_top (EReal.coe_nonneg.mpr hr) (EReal.coe_ne_top r),
    mul_assoc, add_assoc]

/-- A product of nonnegative reals is a nonnegative real. -/
theorem nonnegReal_mul {c d : EReal} (hc : ∃ r : ℝ, 0 ≤ r ∧ c = (r : EReal))
    (hd : ∃ r : ℝ, 0 ≤ r ∧ d = (r : EReal)) : ∃ r : ℝ, 0 ≤ r ∧ c * d = (r : EReal) := by
  obtain ⟨r, hr, rfl⟩ := hc
  obtain ⟨s, hs, rfl⟩ := hd
  exact ⟨r * s, mul_nonneg hr hs, (EReal.coe_mul r s).symm⟩

/-- Every slope stays a nonnegative real through the rounds (each is a product of original slopes). -/
theorem hsIter_nonneg (a b : ℕ → EReal) (ha : NonnegReal a) (k : ℕ) :
    NonnegReal (hsIter k (a, b)).1 := by
  induction k with
  | zero => exact ha
  | succ k ih =>
    intro t
    show ∃ r : ℝ, 0 ≤ r ∧ (hsIter k (a, b)).1 t *
      (if 2 ^ k ≤ t then (hsIter k (a, b)).1 (t - 2 ^ k) else 1) = (r : EReal)
    split_ifs with h
    · exact nonnegReal_mul (ih t) (ih _)
    · rw [mul_one]; exact ih t

/-- The invariant of the doubling scan. After `k` rounds the affine map at `t` is the composite of the original
    maps over the last min (2^k) (t+1) positions: applied to the carried-in state when the window reaches
    position 0, and to the recurrence's value just before the window otherwise, it gives the recurrence at `t`. -/
theorem hsIter_scan (a b : ℕ → EReal) (ha : NonnegReal a) (x : EReal) (k : ℕ) :
    ∀ t, (t < 2 ^ k → (hsIter k (a, b)).1 t * x + (hsIter k (a, b)).2 t = scanFrom x a b t) ∧
      (2 ^ k ≤ t → (hsIter k (a, b)).1 t * scanFrom x a b (t - 2 ^ k) + (hsIter k (a, b)).2 t
        = scanFrom x a b t) := by
  induction k with
  | zero =>
    intro t
    constructor
    · intro h
      have h0 : t = 0 := by simpa using h
      subst h0
      rfl
    · intro h
      obtain ⟨u, rfl⟩ : ∃ u, t = u + 1 := ⟨t - 1, by simp at h; omega⟩
      simp [hsIter, scanFrom]
  | succ k ih =>
    intro t
    have hA := hsIter_nonneg a b ha k
    have e1 : (hsIter (k + 1) (a, b)).1 t = (hsIter k (a, b)).1 t *
        (if 2 ^ k ≤ t then (hsIter k (a, b)).1 (t - 2 ^ k) else 1) := rfl
    have e2 : (hsIter (k + 1) (a, b)).2 t = (hsIter k (a, b)).1 t *
        (if 2 ^ k ≤ t then (hsIter k (a, b)).2 (t - 2 ^ k) else 0) + (hsIter k (a, b)).2 t := rfl
    have hp : 2 ^ (k + 1) = 2 ^ k * 2 := pow_succ 2 k
    rw [e1, e2]
    by_cases h : 2 ^ k ≤ t
    · rw [if_pos h, if_pos h]
      constructor
      · intro h2
        rw [affine_comp (hA t)]
        have hu : t - 2 ^ k < 2 ^ k := by omega
        rw [(ih (t - 2 ^ k)).1 hu, (ih t).2 h]
      · intro h2
        rw [affine_comp (hA t)]
        have hu : 2 ^ k ≤ t - 2 ^ k := by omega
        have hs : t - 2 ^ (k + 1) = (t - 2 ^ k) - 2 ^ k := by omega
        rw [hs, (ih (t - 2 ^ k)).2 hu, (ih t).2 h]
    · rw [if_neg h, if_neg h, mul_one, mul_zero, zero_add]
      constructor
      · intro _
        exact (ih t).1 (by omega)
      · intro h2
        exfalso
        omega

/-- Inside a chunk that starts at `B' + 1`, the recurrence over the shifted sequences carried in from the
    sequential value at `B'` is the sequential recurrence at the shifted position. -/
theorem scanFrom_shift (a b : ℕ → EReal) (B' r : ℕ) :
    scanFrom (seqScan a b B') (fun t => a (B' + 1 + t)) (fun t => b (B' + 1 + t)) r
      = seqScan a b (B' + 1 + r) := by
  induction r with
  | zero => rfl
  | succ r ih =>
    show a (B' + 1 + (r + 1)) * scanFrom (seqScan a b B') (fun t => a (B' + 1 + t))
      (fun t => b (B' + 1 + t)) r + b (B' + 1 + (r + 1)) = seqScan a b (B' + 1 + (r + 1))
    rw [ih]
    rfl

/-- After `k` rounds the value at `t` only depends on the inputs at positions `≤ t`. -/
theorem hsIter_congr (k : ℕ) (p q : (ℕ → EReal) × (ℕ → EReal)) (t : ℕ)
    (h : ∀ u, u ≤ t → p.1 u = q.1 u ∧ p.2 u = q.2 u) :
    (hsIter k p).1 t = (hsIter k q).1 t ∧ (hsIter k p).2 t = (hsIter k q).2 t := by
  induction k generalizing t with
  | zero => exact h t le_rfl
  | succ k ih =>
    have h1 := ih t h
    show (hsIter k p).1 t * (if 2 ^ k ≤ t then (hsIter k p).1 (t - 2 ^ k) else 1)
        = (hsIter k q).1 t * (if 2 ^ k ≤ t then (hsIter k q).1 (t - 2 ^ k) else 1) ∧
      (hsIter k p).1 t * (if 2 ^ k ≤ t then (hsIter k p).2 (t - 2 ^ k) else 0) + (hsIter k p).2 t
        = (hsIter k q).1 t * (if 2 ^ k ≤ t then (hsIter k q).2 (t - 2 ^ k) else 0) + (hsIter k q).2 t
    have h2 := ih (t - 2 ^ k) (fun u hu => h u (le_trans hu (Nat.sub_le _ _)))
    rw [h1.1, h1.2, h2.1, h2.2]
    exact ⟨rfl, rfl⟩

/-- Once the window covers everything before `t`, the scan's constant term is the sequential recurrence. -/
theorem hs_full (a b : ℕ → EReal) (ha : NonnegReal a) (k t : ℕ) (ht : t < 2 ^ k) :
    (hsIter k (a, b)).2 t = seqScan a b t := by
  have h := ((hsIter_scan a b ha 0 k) t).1 ht
  rw [mul_zero, zero_add] at h
  rw [h, scanFrom_zero_eq]

/-- A chunk of length at most `2^k` starting at `B`: the local scan of the shifted sequences, applied to the
    state carried in from position `B - 1` (zero for the first chunk), is the sequential recurrence at `B + r`. -/
theorem hs_chunk (a b : ℕ → EReal) (ha : NonnegReal a) (k B r : ℕ) (hr : r < 2 ^ k) (carry : EReal)
    (hc : carry = if B = 0 then 0 else seqScan a b (B - 1)) :
    (hsIter k (fun t => a (B + t), fun t => b (B + t))).1 r * carry
      + (hsIter k (fun t => a (B + t), fun t => b (B + t))).2 r = seqScan a b (B + r) := by
  have ha' : NonnegReal (fun t => a (B + t)) := fun t => ha (B + t)
  rw [((hsIter_scan _ _ ha' carry k) r).1 hr]
  subst hc
  rcases B with _ | B'
  · simp only [if_true, Nat.zero_add]
    exact scanFrom_zero_eq a b r
  · simp only [Nat.succ_ne_zero, if_false, Nat.add_sub_cancel]
    exact scanFrom_shift a b B' r

end Cert.Scan

end
-- ==== Proof.Spec.lean ====
/-
  The function both programs compute, on the extended reals.

  With x : [4, 4096, 1024], a gate matrix wg : [3072, 1024] (three stacked [1024, 1024] blocks), an output matrix
  wo : [1024, 1024] and a bias bs : [1024], for batch b, time t and channel d:
    gate r b t = Σ_k x[b,t,k] · wg[r,k]
    f = σ(gate d + bs[d]),  c = gate (1024+d) · σ(gate (1024+d)),  o = σ(gate (2048+d)),
    h(b,t,d) = f(b,t,d) · h(b,t-1,d) + (1 - f(b,t,d)) · c(b,t,d),  h(b,-1,d) = 0,
  and the result at (b, t, e) is Σ_d (h(b,t,d) · o(b,t,d)) · wo[e,d].
  σ is the logistic function 1 / (1 + e^(-x)), whose values are reals in [0, 1] at every extended real: the slopes
  of the recurrence are nonnegative reals, which is all the scan laws need.
-/
import Idealize.ShloMosaic.PureOps.Ideal
import Idealize.ShloMosaic.Lib.ValueIdx
import proofs.«111377_j19533511262472_1_alg».proof.Proof.Scan

noncomputable section

namespace Cert.Spec

open Idealize.ShloMosaic Idealize.ShloMosaic.ValueIdx

abbrev SX : Shape := ⟨3, ![4, 4096, 1024]⟩
abbrev SW3 : Shape := ⟨2, ![3072, 1024]⟩
abbrev SW1 : Shape := ⟨2, ![1024, 1024]⟩
abbrev SB : Shape := ⟨1, ![1024]⟩

variable (x : FVec Ideal SX .f32) (wg : FVec Ideal SW3 .f32) (wo : FVec Ideal SW1 .f32) (bs : FVec Ideal SB .f32)

/-- Row `r` of the gate matrix against the features at (b, t). -/
def gate (r : Fin 3072) (b : Fin 4) (t : Fin 4096) : EReal :=
  ∑ k : Fin 1024, (x (ix3 b t k) : EReal) * (wg (ix2 r k) : EReal)

/-- The three row blocks of the gate matrix. -/
def rowF (d : Fin 1024) : Fin 3072 := ⟨d.val, by omega⟩
def rowC (d : Fin 1024) : Fin 3072 := ⟨1024 + d.val, by omega⟩
def rowO (d : Fin 1024) : Fin 3072 := ⟨2048 + d.val, by omega⟩

/-- The forget gate. -/
def fG (b : Fin 4) (t : Fin 4096) (d : Fin 1024) : EReal := Ideal.logistic (gate x wg (rowF d) b t + (bs (ix1 d) : EReal))
/-- The candidate: x · σ(x) of its gate. -/
def cG (b : Fin 4) (t : Fin 4096) (d : Fin 1024) : EReal := gate x wg (rowC d) b t * Ideal.logistic (gate x wg (rowC d) b t)
/-- The output gate. -/
def oG (b : Fin 4) (t : Fin 4096) (d : Fin 1024) : EReal := Ideal.logistic (gate x wg (rowO d) b t)
/-- The recurrence's constant term (1 - f) · c. -/
def bG (b : Fin 4) (t : Fin 4096) (d : Fin 1024) : EReal := (1 - fG x wg bs b t d) * cG x wg b t d

/-- A column's slopes as a sequence (the identity slope past the end). -/
def aSeq (b : Fin 4) (d : Fin 1024) : ℕ → EReal := fun t => if h : t < 4096 then fG x wg bs b ⟨t, h⟩ d else 1
/-- A column's constant terms as a sequence (zero past the end). -/
def bSeq (b : Fin 4) (d : Fin 1024) : ℕ → EReal := fun t => if h : t < 4096 then bG x wg bs b ⟨t, h⟩ d else 0

/-- The logistic function's value is a nonnegative real at every extended real. -/
theorem logistic_nonnegReal (y : EReal) : ∃ r : ℝ, 0 ≤ r ∧ Ideal.logistic y = (r : EReal) := by
  induction y using EReal.rec with
  | bot => exact ⟨0, le_refl 0, by rw [Ideal.logistic_bot, EReal.coe_zero]⟩
  | coe r =>
    refine ⟨(1 + Real.exp (-r))⁻¹, ?_, Ideal.logistic_coe r⟩
    have h : (0 : ℝ) < 1 + Real.exp (-r) := by positivity
    exact (inv_pos.mpr h).le
  | top => exact ⟨1, zero_le_one, by rw [Ideal.logistic_top, EReal.coe_one]⟩

theorem aSeq_nonnegReal (b : Fin 4) (d : Fin 1024) : Cert.Scan.NonnegReal (aSeq x wg bs b d) := by
  intro t
  unfold aSeq
  by_cases h : t < 4096
  · rw [dif_pos h]
    exact logistic_nonnegReal _
  · rw [dif_neg h]
    exact ⟨1, zero_le_one, by rw [EReal.coe_one]⟩

/-- The recurrent state. -/
def hG (b : Fin 4) (t : Fin 4096) (d : Fin 1024) : EReal := Cert.Scan.seqScan (aSeq x wg bs b d) (bSeq x wg bs b d) t.val

/-- The result at (b, t, e). -/
def Gat (b : Fin 4) (t : Fin 4096) (e : Fin 1024) : EReal :=
  ∑ d : Fin 1024, (hG x wg bs b t d * oG x wg b t d) * (wo (ix2 e d) : EReal)

/-- The result array. -/
def G : FVec Ideal SX .f32 := fun i => Gat x wg wo bs (i 0) (i 1) (i 2)

theorem G_apply (b : Fin 4) (t : Fin 4096) (e : Fin 1024) : G x wg wo bs (ix3 b t e) = Gat x wg wo bs b t e := rfl

end Cert.Spec

end
-- ==== Proof.KHost.lean ====
/-
  The five operand arrays the program hands its kernel, read at an index on the extended reals.

  Before the kernel runs, the program quantises the gate matrix W1 : [3072, 1024] and the output matrix W2 : [1024, 1024]
  (absolute value, mean, divide, round, clip, multiply, subtract, add), exactly as the reference program does. Writing
  Q1 and Q2 for the reference's quantised gate and output matrices as functions of W1 and W2:
    the first  gate operand [1024, 1024] is rows    0 … 1023 of Q1 (the forget rows),
    the second gate operand [1024, 1024] is rows 1024 … 2047 of Q1 (the candidate rows),
    the third  gate operand [1024, 1024] is rows 2048 … 3071 of Q1 (the output-gate rows),
    the output-matrix operand [1024, 1024] is Q2,
    the bias operand [1, 1024] is the bias vector [1024] as one row.
  The narrowing of an operand's element type is the identity on the extended reals.
-/
import proofs.«111377_j19533511262472_1_alg».proof.Proof.Gen.KernelIdeal.Frame
import proofs.«111377_j19533511262472_1_alg».proof.Proof.RefRead
import proofs.«111377_j19533511262472_1_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

section Generic
variable {F : FTy → Type} [FloatOps F]
variable (m : (ℓ : Loc nD τ sig) → Buf (Elt F) ℓ) (c : Dev nD)

open Idealize.ShloMosaic.StableHlo

/-- The quantised gate matrix is the reference's, as a function of the gate matrix. -/
theorem V_main_v11 :
    (V m c main_v11 : (⟨Cert.KernelIdeal.S3072x1024, .f32⟩ : BufTy).Contents (Elt F))
      = Cert.ReferenceIdeal.ReadP.val_main_v11 (F := F) (m ((c : Thread nD τ).loc main_arg1)) := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-- The quantised output matrix is the reference's, as a function of the output matrix. -/
theorem V_main_v23 :
    (V m c main_v23 : (⟨Cert.KernelIdeal.S1024x1024, .f32⟩ : BufTy).Contents (Elt F))
      = Cert.ReferenceIdeal.ReadP.val_main_v178 (F := F) (m ((c : Thread nD τ).loc main_arg2)) := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-- The first gate operand: the quantised gate matrix cut at rows 0 … 1023, narrowed. -/
theorem V_main_v25 :
    (V m c main_v25 : (⟨Cert.KernelIdeal.S1024x1024, .bf16⟩ : BufTy).Contents (Elt F))
      = truncf .bf16 (extractStridedSlice Cert.KernelIdeal.S1024x1024 ![0, 0]
          (Cert.ReferenceIdeal.ReadP.val_main_v11 (F := F) (m ((c : Thread nD τ).loc main_arg1))) slices_S3072x1024_S1024x1024_0_0) bitsLt_bf16_f32 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-- The second gate operand: rows 1024 … 2047. -/
theorem V_main_v27 :
    (V m c main_v27 : (⟨Cert.KernelIdeal.S1024x1024, .bf16⟩ : BufTy).Contents (Elt F))
      = truncf .bf16 (extractStridedSlice Cert.KernelIdeal.S1024x1024 ![1024, 0]
          (Cert.ReferenceIdeal.ReadP.val_main_v11 (F := F) (m ((c : Thread nD τ).loc main_arg1))) slices_S3072x1024_S1024x1024_1024_0) bitsLt_bf16_f32 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-- The third gate operand: rows 2048 … 3071. -/
theorem V_main_v29 :
    (V m c main_v29 : (⟨Cert.KernelIdeal.S1024x1024, .bf16⟩ : BufTy).Contents (Elt F))
      = truncf .bf16 (extractStridedSlice Cert.KernelIdeal.S1024x1024 ![2048, 0]
          (Cert.ReferenceIdeal.ReadP.val_main_v11 (F := F) (m ((c : Thread nD τ).loc main_arg1))) slices_S3072x1024_S1024x1024_2048_0) bitsLt_bf16_f32 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-- The output-matrix operand: the quantised output matrix, narrowed. -/
theorem V_main_v30 :
    (V m c main_v30 : (⟨Cert.KernelIdeal.S1024x1024, .bf16⟩ : BufTy).Contents (Elt F))
      = truncf .bf16 (Cert.ReferenceIdeal.ReadP.val_main_v178 (F := F) (m ((c : Thread nD τ).loc main_arg2))) bitsLt_bf16_f32 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-- The bias operand: the bias vector as one row. -/
theorem V_main_v31 :
    (V m c main_v31 : (⟨Cert.KernelIdeal.S1x1024, .f32⟩ : BufTy).Contents (Elt F))
      = shapeCast Cert.KernelIdeal.S1x1024 (m ((c : Thread nD τ).loc main_arg3)) shapeCasts_S1024_S1x1024 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

end Generic

section AtIdeal
variable (m : (ℓ : Loc nD τ sig) → Buf (Elt Ideal) ℓ) (c : Dev nD)

/-- The first gate operand at (r, k) is the quantised gate matrix at (r, k): its forget row r. -/
theorem V_main_v25_apply (r k : Fin 1024) :
    ((V m c main_v25 : Vec Ideal Cert.KernelIdeal.S1024x1024 .bf16) (ix2 r k) : EReal)
      = ((Cert.ReferenceIdeal.ReadP.val_main_v11 (F := Ideal) (m ((c : Thread nD τ).loc main_arg1)) : Vec Ideal Cert.Spec.SW3 .f32)
          (ix2 (Cert.Spec.rowF r) k) : EReal) := by
  refine (congrFun (V_main_v25 m c) (ix2 r k)).trans ?_
  show extractStridedSlice Cert.KernelIdeal.S1024x1024 ![0, 0]
      (Cert.ReferenceIdeal.ReadP.val_main_v11 (F := Ideal) (m ((c : Thread nD τ).loc main_arg1))) slices_S3072x1024_S1024x1024_0_0 (ix2 r k) = _
  exact slice2_axis0_apply 0 _ slices_S3072x1024_S1024x1024_0_0 r k (Cert.Spec.rowF r) (Nat.zero_add _).symm

/-- The second gate operand at (r, k) is the quantised gate matrix at (1024 + r, k): its candidate row r. -/
theorem V_main_v27_apply (r k : Fin 1024) :
    ((V m c main_v27 : Vec Ideal Cert.KernelIdeal.S1024x1024 .bf16) (ix2 r k) : EReal)
      = ((Cert.ReferenceIdeal.ReadP.val_main_v11 (F := Ideal) (m ((c : Thread nD τ).loc main_arg1)) : Vec Ideal Cert.Spec.SW3 .f32)
          (ix2 (Cert.Spec.rowC r) k) : EReal) := by
  refine (congrFun (V_main_v27 m c) (ix2 r k)).trans ?_
  show extractStridedSlice Cert.KernelIdeal.S1024x1024 ![1024, 0]
      (Cert.ReferenceIdeal.ReadP.val_main_v11 (F := Ideal) (m ((c : Thread nD τ).loc main_arg1))) slices_S3072x1024_S1024x1024_1024_0 (ix2 r k) = _
  exact slice2_axis0_apply 1024 _ slices_S3072x1024_S1024x1024_1024_0 r k (Cert.Spec.rowC r) rfl

/-- The third gate operand at (r, k) is the quantised gate matrix at (2048 + r, k): its output-gate row r. -/
theorem V_main_v29_apply (r k : Fin 1024) :
    ((V m c main_v29 : Vec Ideal Cert.KernelIdeal.S1024x1024 .bf16) (ix2 r k) : EReal)
      = ((Cert.ReferenceIdeal.ReadP.val_main_v11 (F := Ideal) (m ((c : Thread nD τ).loc main_arg1)) : Vec Ideal Cert.Spec.SW3 .f32)
          (ix2 (Cert.Spec.rowO r) k) : EReal) := by
  refine (congrFun (V_main_v29 m c) (ix2 r k)).trans ?_
  show extractStridedSlice Cert.KernelIdeal.S1024x1024 ![2048, 0]
      (Cert.ReferenceIdeal.ReadP.val_main_v11 (F := Ideal) (m ((c : Thread nD τ).loc main_arg1))) slices_S3072x1024_S1024x1024_2048_0 (ix2 r k) = _
  exact slice2_axis0_apply 2048 _ slices_S3072x1024_S1024x1024_2048_0 r k (Cert.Spec.rowO r) rfl

/-- The output-matrix operand at (e, d) is the quantised output matrix at (e, d). -/
theorem V_main_v30_apply (e d : Fin 1024) :
    ((V m c main_v30 : Vec Ideal Cert.KernelIdeal.S1024x1024 .bf16) (ix2 e d) : EReal)
      = ((Cert.ReferenceIdeal.ReadP.val_main_v178 (F := Ideal) (m ((c : Thread nD τ).loc main_arg2)) : Vec Ideal Cert.Spec.SW1 .f32)
          (ix2 e d) : EReal) :=
  congrFun (V_main_v30 m c) (ix2 e d)

/-- The bias operand at (0, d) is the bias at d. -/
theorem V_main_v31_apply (d : Fin 1024) :
    ((V m c main_v31 : Vec Ideal Cert.KernelIdeal.S1x1024 .f32) (ix2 (0 : Fin 1) d) : EReal)
      = (((m ((c : Thread nD τ).loc main_arg3)) : Vec Ideal Cert.Spec.SB .f32) (ix1 d) : EReal) := by
  refine (congrFun (V_main_v31 m c) (ix2 (0 : Fin 1) d)).trans ?_
  exact shapeCast_a_1a_apply _ shapeCasts_S1024_S1x1024 (0 : Fin 1) d

end AtIdeal

end Cert.KernelIdeal.Hand

end
-- ==== Proof.KBody.lean ====
/-
  The kernel body's arithmetic at one grid point as pure functions of what the body loads: the feature block x
  (1024 time steps × 1024 features), the 128-row slices of the three gate matrices, the bias and carried-state
  slices of 128 channels, the 128-column slice of the output matrix, and the accumulator. They compose the printed
  payloads in the order the body does:
    gates and the recurrence's coefficients, ten doubling rounds within the chunk, the combination with the state
    carried in from the previous chunk (zero at the first chunk), the new carried state (the chunk's last row),
    the gated state h · o, and the accumulation of its product with the output matrix's slice.
-/
import proofs.«111377_j19533511262472_1_alg».proof.Proof.Gen.KernelIdeal.Skeleton

noncomputable section

namespace Cert.KernelIdeal.Hand

open Idealize.ShloMosaic Idealize.ShloMosaic.TcCoe Cert.KernelIdeal Cert.KernelIdeal.Gen

variable {F : FTy → Type} [FloatOps F]

section
variable (tn : BitVec 32) (x : Vec F S1x1024x1024 .f32) (wf wc wog : Vec F S128x1024 .bf16) (bias cin : Vec F S1x128 .f32)

/-- The forget gate f of the chunk's 1024 rows and 128 channels: the slopes of the recurrence. -/
def fGate : FVec F S1024x128 .f32 := k0_pay5 x wf bias
/-- The output gate o. -/
def oGate : FVec F S1024x128 .f32 := k0_pay6 x wog
/-- The recurrence's constant term (1 - f) · c. -/
def bTerm : FVec F S1024x128 .f32 := k0_pay7 x wf wc bias

/-- After the first four rounds (strides 1, 2, 4, 8): constants and slopes. -/
def sc78 : FVec F S1024x128 .f32 :=
  k0_pay18 (k0_pay5 x wf bias) (k0_pay7 x wf wc bias) (k0_pay8) (k0_pay9 x wf wc bias) (k0_pay10 x wf bias) (k0_pay11 (F := F))
def sc79 : FVec F S1024x128 .f32 := k0_pay19 (k0_pay5 x wf bias) (k0_pay10 x wf bias)

/-- After the next rounds (strides 16 … 128), as the body's third part hands them on. -/
def sc114 : FVec F S1024x128 .f32 := k0_pay25 (sc78 x wf wc bias) (sc79 x wf bias) k0_pay20 16#32
def sc115 : FVec F S1024x128 .f32 := k0_pay26 (sc79 x wf bias) k0_pay20 16#32
def sc122 : FVec F S1024x128 .f32 := k0_pay28 (sc79 x wf bias) k0_pay20 16#32
def sc124 : FVec F S1024x128 .f32 := k0_pay29 (sc78 x wf wc bias) (sc79 x wf bias) k0_pay20 16#32

/-- The recurrent state h of the chunk: the last rounds (strides 256, 512) and the combination with the carried state. -/
def hcore : FVec F S1024x128 .f32 :=
  k0_pay30 tn (sc114 x wf wc bias) (sc115 x wf bias) (sc122 x wf bias) (sc124 x wf wc bias) cin
/-- The state carried to the next chunk: the chunk's last row of h. -/
def carryNew : FVec F S1x128 .f32 :=
  k0_pay31 tn (sc114 x wf wc bias) (sc115 x wf bias) (sc122 x wf bias) (sc124 x wf wc bias) cin
/-- The gated state h · o. -/
def hO : FVec F S1024x128 .bf16 :=
  k0_pay32 tn (k0_pay6 x wog) (sc114 x wf wc bias) (sc115 x wf bias) (sc122 x wf bias) (sc124 x wf wc bias) cin
end

/-- The accumulator after adding the product of h · o with the output matrix's 128-column slice. -/
def accNew (ho : FVec F S1024x128 .bf16) (wo : Vec F S1024x128 .bf16) (acc : Vec F S1024x1024 .f32) : FVec F S1024x1024 .f32 :=
  k0_pay2 ho wo acc

end Cert.KernelIdeal.Hand

end
-- ==== Proof.KPayGates.lean ====
/-
  The kernel body's arithmetic read at an index, on the extended reals.

  At row r (a time step of the chunk) and channel j: a gate's pre-activation is the inner product of the feature
  row with the gate matrix's row j; f and o are its logistic values, the constant term is (1 - f) · (g · σ(g));
  the ten masked rotate-and-combine rounds are ten rounds of the doubling scan of the column's affine maps; the
  carried-in state enters through the slope's product; the new carried state is the last row; the accumulator
  gains the inner product of the gated state's row with the output matrix's row e over the 128 channels.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«111377_j19533511262472_1_alg».proof.Proof.KBody
import proofs.«111377_j19533511262472_1_alg».proof.Proof.Scan

noncomputable section

namespace Cert.KernelIdeal.Hand

open Idealize.ShloMosaic Idealize.ShloMosaic.TcCoe Idealize.ShloMosaic.ValueIdx Cert.KernelIdeal Cert.KernelIdeal.Gen

/-! ## The two contractions at an index

  Both products contract the left operand's axis 1 with the right operand's axis 0 and keep the left's axis 0 and
  the right's axis 1 in that order: at output (r, c) and contraction position k the operands are read at (r, k) and
  (k, c). -/

theorem lhs_dotA_0 (j : S1024x128.Idx) (k : dot_S1024x1024_S1024x128_S1024x128_1_0_0_1_n_n.contr.Idx) :
    (dot_S1024x1024_S1024x128_S1024x128_1_0_0_1_n_n.lhsIdx j k 0).val = (j 0).val := rfl
theorem lhs_dotA_1 (j : S1024x128.Idx) (k : dot_S1024x1024_S1024x128_S1024x128_1_0_0_1_n_n.contr.Idx) :
    (dot_S1024x1024_S1024x128_S1024x128_1_0_0_1_n_n.lhsIdx j k 1).val = (k ⟨0, by decide⟩).val :=
  DotDims.lhsIdx_val_of_single (d := dot_S1024x1024_S1024x128_S1024x128_1_0_0_1_n_n) (cl := 1) rfl j k
theorem rhs_dotA_0 (j : S1024x128.Idx) (k : dot_S1024x1024_S1024x128_S1024x128_1_0_0_1_n_n.contr.Idx) :
    (dot_S1024x1024_S1024x128_S1024x128_1_0_0_1_n_n.rhsIdx j k 0).val = (k ⟨0, by decide⟩).val :=
  DotDims.rhsIdx_val_of_single (d := dot_S1024x1024_S1024x128_S1024x128_1_0_0_1_n_n) (cr := 0) rfl j k
theorem rhs_dotA_1 (j : S1024x128.Idx) (k : dot_S1024x1024_S1024x128_S1024x128_1_0_0_1_n_n.contr.Idx) :
    (dot_S1024x1024_S1024x128_S1024x128_1_0_0_1_n_n.rhsIdx j k 1).val = (j 1).val := rfl

/-- A [1024, 1024] × [1024, 128] product into the zero accumulator, at (r, j): the sum over the 1024 positions. -/
theorem matmulA_apply (A : FVec Ideal S1024x1024 .bf16) (B : FVec Ideal S1024x128 .bf16) (r : Fin 1024) (j : Fin 128) :
    (matmul dot_S1024x1024_S1024x128_S1024x128_1_0_0_1_n_n none A B (constant (F := Ideal) S1024x128 .f32 0x00000000#32) (ix2 r j) : EReal)
      = ∑ k : Fin 1024, (A (ix2 r k) : EReal) * (B (ix2 k j) : EReal) := by
  refine (Ideal.matmul_constant_zero_apply dot_S1024x1024_S1024x128_S1024x128_1_0_0_1_n_n none A B (ix2 r j)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have hl : dot_S1024x1024_S1024x128_S1024x128_1_0_0_1_n_n.lhsIdx (ix2 r j)
      ((contrEquiv1 dot_S1024x1024_S1024x128_S1024x128_1_0_0_1_n_n 1024 rfl rfl).symm k) = ix2 r k := by
    funext a
    match a with
    | ⟨0, _⟩ => exact Fin.ext (lhs_dotA_0 _ _)
    | ⟨1, _⟩ => exact Fin.ext ((lhs_dotA_1 _ _).trans hk)
  have hr : dot_S1024x1024_S1024x128_S1024x128_1_0_0_1_n_n.rhsIdx (ix2 r j)
      ((contrEquiv1 dot_S1024x1024_S1024x128_S1024x128_1_0_0_1_n_n 1024 rfl rfl).symm k) = ix2 k j := by
    funext a
    match a with
    | ⟨0, _⟩ => exact Fin.ext ((rhs_dotA_0 _ _).trans hk)
    | ⟨1, _⟩ => exact Fin.ext (rhs_dotA_1 _ _)
  rw [hl, hr]

theorem lhs_dotB_0 (j : S1024x1024.Idx) (k : dot_S1024x128_S128x1024_S1024x1024_1_0_0_1_n_n.contr.Idx) :
    (dot_S1024x128_S128x1024_S1024x1024_1_0_0_1_n_n.lhsIdx j k 0).val = (j 0).val := rfl
theorem lhs_dotB_1 (j : S1024x1024.Idx) (k : dot_S1024x128_S128x1024_S1024x1024_1_0_0_1_n_n.contr.Idx) :
    (dot_S1024x128_S128x1024_S1024x1024_1_0_0_1_n_n.lhsIdx j k 1).val = (k ⟨0, by decide⟩).val :=
  DotDims.lhsIdx_val_of_single (d := dot_S1024x128_S128x1024_S1024x1024_1_0_0_1_n_n) (cl := 1) rfl j k
theorem rhs_dotB_0 (j : S1024x1024.Idx) (k : dot_S1024x128_S128x1024_S1024x1024_1_0_0_1_n_n.contr.Idx) :
    (dot_S1024x128_S128x1024_S1024x1024_1_0_0_1_n_n.rhsIdx j k 0).val = (k ⟨0, by decide⟩).val :=
  DotDims.rhsIdx_val_of_single (d := dot_S1024x128_S128x1024_S1024x1024_1_0_0_1_n_n) (cr := 0) rfl j k
theorem rhs_dotB_1 (j : S1024x1024.Idx) (k : dot_S1024x128_S128x1024_S1024x1024_1_0_0_1_n_n.contr.Idx) :
    (dot_S1024x128_S128x1024_S1024x1024_1_0_0_1_n_n.rhsIdx j k 1).val = (j 1).val := rfl

/-- A [1024, 128] × [128, 1024] product into the zero accumulator, at (r, e): the sum over the 128 positions. -/
theorem matmulB_apply (A : FVec Ideal S1024x128 .bf16) (B : FVec Ideal S128x1024 .bf16) (r e : Fin 1024) :
    (matmul dot_S1024x128_S128x1024_S1024x1024_1_0_0_1_n_n none A B (constant (F := Ideal) S1024x1024 .f32 0x00000000#32) (ix2 r e) : EReal)
      = ∑ k : Fin 128, (A (ix2 r k) : EReal) * (B (ix2 k e) : EReal) := by
  refine (Ideal.matmul_constant_zero_apply dot_S1024x128_S128x1024_S1024x1024_1_0_0_1_n_n none A B (ix2 r e)).trans ?_
  rw [← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have hl : dot_S1024x128_S128x1024_S1024x1024_1_0_0_1_n_n.lhsIdx (ix2 r e)
      ((contrEquiv1 dot_S1024x128_S128x1024_S1024x1024_1_0_0_1_n_n 128 rfl rfl).symm k) = ix2 r k := by
    funext a
    match a with
    | ⟨0, _⟩ => exact Fin.ext (lhs_dotB_0 _ _)
    | ⟨1, _⟩ => exact Fin.ext ((lhs_dotB_1 _ _).trans hk)
  have hr : dot_S1024x128_S128x1024_S1024x1024_1_0_0_1_n_n.rhsIdx (ix2 r e)
      ((contrEquiv1 dot_S1024x128_S128x1024_S1024x1024_1_0_0_1_n_n 128 rfl rfl).symm k) = ix2 k e := by
    funext a
    match a with
    | ⟨0, _⟩ => exact Fin.ext ((rhs_dotB_0 _ _).trans hk)
    | ⟨1, _⟩ => exact Fin.ext (rhs_dotB_1 _ _)
  rw [hl, hr]

variable (tn : BitVec 32) (x : Vec Ideal S1x1024x1024 .f32) (wf wc wog : Vec Ideal S128x1024 .bf16) (bias cin : Vec Ideal S1x128 .f32)

/-- A gate's pre-activation at row `r`, channel `j`: the feature row against row `j` of the gate matrix's slice. -/
def gpre (w : Vec Ideal S128x1024 .bf16) (r : Fin 1024) (j : Fin 128) : EReal :=
  ∑ k : Fin 1024, (x (ix3 (0 : Fin 1) r k) : EReal) * (w (ix2 j k) : EReal)

/-- The narrowed feature block at (r, k) is the feature at (0, r, k): dropping the leading unit axis keeps the two
    coordinates, and the narrowing is the identity on the extended reals. -/
theorem pay4_apply (r k : Fin 1024) : (k0_pay4 x (ix2 r k) : EReal) = (x (ix3 (0 : Fin 1) r k) : EReal) :=
  shapeCast_1ab_ab_apply x shapeCasts_S1x1024x1024_S1024x1024 r k

/-- The product of the feature block with a gate matrix's transposed slice, at (r, j), is the gate's pre-activation. -/
theorem gateMat_apply (w : Vec Ideal S128x1024 .bf16) (r : Fin 1024) (j : Fin 128) :
    (matmul dot_S1024x1024_S1024x128_S1024x128_1_0_0_1_n_n none (k0_pay4 x)
        (transpose S1024x128 [1, 0] (shapeCast S128x1024 w shapeCasts_S128x1024_S128x1024 : FVec Ideal S128x1024 .bf16)
          transposes_S128x1024_p1_0_S1024x128 : FVec Ideal S1024x128 .bf16)
        (constant (F := Ideal) S1024x128 .f32 0x00000000#32) (ix2 r j) : EReal) = gpre x w r j := by
  refine (matmulA_apply _ _ r j).trans ?_
  unfold gpre
  refine Finset.sum_congr rfl fun k _ => ?_
  rw [pay4_apply, transpose_ix2_apply, shapeCast_self]

theorem fGate_apply (r : Fin 1024) (j : Fin 128) :
    (fGate x wf bias (ix2 r j) : EReal) = Ideal.logistic (gpre x wf r j + (bias (ix2 (0 : Fin 1) j) : EReal)) := by
  have h : (fGate x wf bias (ix2 r j) : EReal)
      = Ideal.logistic
          ((matmul dot_S1024x1024_S1024x128_S1024x128_1_0_0_1_n_n none (k0_pay4 x)
              (transpose S1024x128 [1, 0] (shapeCast S128x1024 wf shapeCasts_S128x1024_S128x1024) transposes_S128x1024_p1_0_S1024x128)
              (constant (F := Ideal) S1024x128 .f32 0x00000000#32) (ix2 r j) : EReal)
            + (broadcastTo S1024x128 (shapeCast S1x128 bias shapeCasts_S1x128_S1x128) broadcasts_S1x128_S1024x128 (ix2 r j) : EReal)) := rfl
  rw [h, gateMat_apply, broadcastTo_1b_ab_apply, shapeCast_self]

theorem oGate_apply (r : Fin 1024) (j : Fin 128) :
    (oGate x wog (ix2 r j) : EReal) = Ideal.logistic (gpre x wog r j) := by
  have h : (oGate x wog (ix2 r j) : EReal)
      = Ideal.logistic
          (matmul dot_S1024x1024_S1024x128_S1024x128_1_0_0_1_n_n none (k0_pay4 x)
              (transpose S1024x128 [1, 0] (shapeCast S128x1024 wog shapeCasts_S128x1024_S128x1024) transposes_S128x1024_p1_0_S1024x128)
              (constant (F := Ideal) S1024x128 .f32 0x00000000#32) (ix2 r j) : EReal) := rfl
  rw [h, gateMat_apply]

theorem bTerm_apply (r : Fin 1024) (j : Fin 128) :
    (bTerm x wf wc bias (ix2 r j) : EReal)
      = (1 - (fGate x wf bias (ix2 r j) : EReal)) * (gpre x wc r j * Ideal.logistic (gpre x wc r j)) := by
  have h : (bTerm x wf wc bias (ix2 r j) : EReal)
      = (Ideal.ofBits .f32 0x3F800000#32 - (fGate x wf bias (ix2 r j) : EReal))
          * ((matmul dot_S1024x1024_S1024x128_S1024x128_1_0_0_1_n_n none (k0_pay4 x)
                (transpose S1024x128 [1, 0] (shapeCast S128x1024 wc shapeCasts_S128x1024_S128x1024) transposes_S128x1024_p1_0_S1024x128)
                (constant (F := Ideal) S1024x128 .f32 0x00000000#32) (ix2 r j) : EReal)
              * Ideal.logistic
                  (matmul dot_S1024x1024_S1024x128_S1024x128_1_0_0_1_n_n none (k0_pay4 x)
                    (transpose S1024x128 [1, 0] (shapeCast S128x1024 wc shapeCasts_S128x1024_S128x1024) transposes_S128x1024_p1_0_S1024x128)
                    (constant (F := Ideal) S1024x128 .f32 0x00000000#32) (ix2 r j) : EReal)) := rfl
  rw [h, gateMat_apply, Ideal.ofBits_one_f32]

theorem accNew_apply (ho : FVec Ideal S1024x128 .bf16) (wo : Vec Ideal S1024x128 .bf16) (acc : Vec Ideal S1024x1024 .f32)
    (r e : Fin 1024) :
    (accNew ho wo acc (ix2 r e) : EReal)
      = (acc (ix2 r e) : EReal) + ∑ j : Fin 128, (ho (ix2 r j) : EReal) * (wo (ix2 e j) : EReal) := by
  have h : accNew ho wo acc
      = shapeCast S1024x1024
          (addf acc
            (matmul dot_S1024x128_S128x1024_S1024x1024_1_0_0_1_n_n none ho
              (transpose S128x1024 [1, 0] (shapeCast S1024x128 wo shapeCasts_S1024x128_S1024x128) transposes_S1024x128_p1_0_S128x1024)
              (constant (F := Ideal) S1024x1024 .f32 0x00000000#32)))
          shapeCasts_S1024x1024_S1024x1024 := rfl
  rw [h, shapeCast_self, addf_apply, matmulB_apply]
  refine congrArg (fun s => (acc (ix2 r e) : EReal) + s) (Finset.sum_congr rfl fun j _ => ?_)
  rw [transpose_ix2_apply, shapeCast_self]

theorem pay1_apply (i : S1024x1024.Idx) : (k0_pay1 (F := Ideal) i : EReal) = 0 := by
  have h : k0_pay1 (F := Ideal)
      = shapeCast S1024x1024 (broadcast S1024x1024 (Ideal.ofBits .f32 0x00000000#32)) shapeCasts_S1024x1024_S1024x1024 := rfl
  rw [h, shapeCast_self, broadcast_apply, Ideal.ofBits_zero_f32]

theorem pay3_apply (v : Vec Ideal S1024x1024 .f32) (r e : Fin 1024) :
    (k0_pay3 v (ix3 (0 : Fin 1) r e) : EReal) = (v (ix2 r e) : EReal) :=
  shapeCast_ab_1ab_apply v shapeCasts_S1024x1024_S1x1024x1024 (0 : Fin 1) r e

end Cert.KernelIdeal.Hand

end
-- ==== Proof.KPayScan.lean ====
/-
  The kernel body's arithmetic read at an index, on the extended reals.

  At row r (a time step of the chunk) and channel j: a gate's pre-activation is the inner product of the feature
  row with the gate matrix's row j; f and o are its logistic values, the constant term is (1 - f) · (g · σ(g));
  the ten masked rotate-and-combine rounds are ten rounds of the doubling scan of the column's affine maps; the
  carried-in state enters through the slope's product; the new carried state is the last row; the accumulator
  gains the inner product of the gated state's row with the output matrix's row e over the 128 channels.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«111377_j19533511262472_1_alg».proof.Proof.KBody
import proofs.«111377_j19533511262472_1_alg».proof.Proof.Scan

noncomputable section

namespace Cert.KernelIdeal.Hand

open Idealize.ShloMosaic Idealize.ShloMosaic.TcCoe Idealize.ShloMosaic.ValueIdx Cert.KernelIdeal Cert.KernelIdeal.Gen

variable (tn : BitVec 32) (x : Vec Ideal S1x1024x1024 .f32) (wf wc wog : Vec Ideal S128x1024 .bf16) (bias cin : Vec Ideal S1x128 .f32)

/-- Channel `j`'s slopes and constant terms down the chunk's rows, as sequences. -/
def aL (j : Fin 128) : ℕ → EReal := fun t => if h : t < 1024 then (fGate x wf bias (ix2 (⟨t, h⟩ : Fin 1024) j) : EReal) else 1
def bL (j : Fin 128) : ℕ → EReal := fun t => if h : t < 1024 then (bTerm x wf wc bias (ix2 (⟨t, h⟩ : Fin 1024) j) : EReal) else 0

/-- A signed comparison of two small words is the comparison of their values. -/
theorem sle_small (sb : BitVec 32) (hs : sb.toNat < 1024) (r : ℕ) (hr : r < 1024) :
    sb.sle (BitVec.ofNat 32 r) = decide (sb.toNat ≤ r) := by
  have h1 : sb.toInt = (sb.toNat : ℤ) := BitVec.toInt_eq_toNat_of_lt (by omega)
  have h3 : (BitVec.ofNat 32 r).toNat = r := by
    rw [BitVec.toNat_ofNat]; exact Nat.mod_eq_of_lt (by omega)
  have h2 : (BitVec.ofNat 32 r).toInt = (r : ℤ) := by
    rw [BitVec.toInt_eq_toNat_of_lt (by rw [h3]; omega), h3]
  rw [BitVec.sle_eq_decide, h1, h2]
  exact decide_eq_decide.mpr Int.ofNat_le

/-- The comparison "row index ≥ s" read at (r, j). -/
theorem mask_apply (sb : BitVec 32) (hs : sb.toNat < 1024) (r : Fin 1024) (j : Fin 128) :
    cmpi .sge (iota .tc S1024x128 32 [0] iota_S1024x128_d0_w32) (broadcast S1024x128 sb) (ix2 r j)
      = if sb.toNat ≤ r.val then 1#1 else 0#1 := by
  show IntOp.cmpi .sge (iota .tc S1024x128 32 [0] iota_S1024x128_d0_w32 (ix2 r j)) sb = _
  rw [iota_single_apply]
  show BitVec.ofBool (sb.sle (BitVec.ofNat 32 r.val)) = _
  rw [sle_small sb hs r.val r.isLt]
  by_cases h : sb.toNat ≤ r.val
  · rw [if_pos h, decide_eq_true h]; rfl
  · rw [if_neg h, decide_eq_false h]; rfl

/-- A rotation by s down the rows, masked to the rows ≥ s with the constant c elsewhere, read at (r, j):
    the operand s rows up when there is such a row, else c. -/
theorem rotSel_apply (sb : BitVec 32) (hs : sb.toNat < 1024) (v : FVec Ideal S1024x128 .f32) (c : EReal)
    (r : Fin 1024) (j : Fin 128) :
    select (cmpi .sge (iota .tc S1024x128 32 [0] iota_S1024x128_d0_w32) (broadcast S1024x128 sb))
        (dynamicRotate 0 sb none v rotates_S1024x128_d0) (broadcast S1024x128 c) (ix2 r j)
      = if h : sb.toNat ≤ r.val then v (ix2 (⟨r.val - sb.toNat, by omega⟩ : Fin 1024) j) else c := by
  rw [select_apply, mask_apply sb hs r j]
  by_cases h : sb.toNat ≤ r.val
  · rw [if_pos h, dif_pos h, select_one]
    refine dynamicRotate_apply 0 sb v rotates_S1024x128_d0 _ _ ?_
    intro b
    have hr := r.isLt
    fin_cases b
    · show r.val - sb.toNat = if (0 : Fin 2) = 0 then (r.val + 1024 - sb.toNat % 1024) % 1024 else r.val
      rw [if_pos rfl]; omega
    · show j.val = if (1 : Fin 2) = 0 then _ else j.val
      rw [if_neg (by decide)]
  · rw [if_neg h, dif_neg h, select_zero]; rfl

/-- One round's new slopes: a · (a rotated by s, masked, 1 on the first s rows). -/
def rndA (sb : BitVec 32) (a : FVec Ideal S1024x128 .f32) : FVec Ideal S1024x128 .f32 :=
  mulf a (select (cmpi .sge (iota .tc S1024x128 32 [0] iota_S1024x128_d0_w32) (broadcast S1024x128 sb))
    (dynamicRotate 0 sb none a rotates_S1024x128_d0)
    (broadcast S1024x128 (Scalar.ofBits (F := Ideal) .f32 0x3F800000#32)))

/-- One round's new constant terms: a · (b rotated by s, masked, 0 on the first s rows) + b. -/
def rndB (sb : BitVec 32) (a b : FVec Ideal S1024x128 .f32) : FVec Ideal S1024x128 .f32 :=
  addf (mulf a (select (cmpi .sge (iota .tc S1024x128 32 [0] iota_S1024x128_d0_w32) (broadcast S1024x128 sb))
    (dynamicRotate 0 sb none b rotates_S1024x128_d0)
    (broadcast S1024x128 (Scalar.ofBits (F := Ideal) .f32 0x00000000#32)))) b

/-- One such round at stride s on a pair whose column j is the pair of sequences P (on the rows below 1024)
    has column j the doubling scan's round at stride s of P. -/
theorem round_apply (sb : BitVec 32) (s : ℕ) (hsb : sb.toNat = s) (hs : s < 1024)
    (a b : FVec Ideal S1024x128 .f32) (j : Fin 128) (P : (ℕ → EReal) × (ℕ → EReal))
    (hP : ∀ (u : ℕ) (hu : u < 1024),
      a (ix2 (⟨u, hu⟩ : Fin 1024) j) = P.1 u ∧ b (ix2 (⟨u, hu⟩ : Fin 1024) j) = P.2 u)
    (t : ℕ) (ht : t < 1024) :
    rndA sb a (ix2 (⟨t, ht⟩ : Fin 1024) j) = (Cert.Scan.hsStep s P).1 t ∧
      rndB sb a b (ix2 (⟨t, ht⟩ : Fin 1024) j) = (Cert.Scan.hsStep s P).2 t := by
  subst hsb
  have hone : (Scalar.ofBits (F := Ideal) .f32 0x3F800000#32 : EReal) = 1 := Ideal.ofBits_one_f32
  have hzero : (Scalar.ofBits (F := Ideal) .f32 0x00000000#32 : EReal) = 0 := Ideal.ofBits_zero_f32
  constructor
  · show a (ix2 (⟨t, ht⟩ : Fin 1024) j) * _ = P.1 t * (if sb.toNat ≤ t then P.1 (t - sb.toNat) else 1)
    rw [rotSel_apply sb hs a _ ⟨t, ht⟩ j, (hP t ht).1, hone]
    by_cases h : sb.toNat ≤ t
    · rw [dif_pos h, if_pos h]
      exact congrArg _ (hP (t - sb.toNat) (by omega)).1
    · rw [dif_neg h, if_neg h]
  · show a (ix2 (⟨t, ht⟩ : Fin 1024) j) * _ + b (ix2 (⟨t, ht⟩ : Fin 1024) j)
      = P.1 t * (if sb.toNat ≤ t then P.2 (t - sb.toNat) else 0) + P.2 t
    rw [rotSel_apply sb hs b _ ⟨t, ht⟩ j, (hP t ht).1, (hP t ht).2, hzero]
    by_cases h : sb.toNat ≤ t
    · rw [dif_pos h, if_pos h]
      exact congrArg (fun z => P.1 t * z + P.2 t) (hP (t - sb.toNat) (by omega)).2
    · rw [dif_neg h, if_neg h]

/-- The pair after k such rounds, at strides 1, 2, 4, …, 2^(k-1). -/
def rounds (a0 b0 : FVec Ideal S1024x128 .f32) : ℕ → FVec Ideal S1024x128 .f32 × FVec Ideal S1024x128 .f32
  | 0 => (a0, b0)
  | k + 1 => (rndA (BitVec.ofNat 32 (2 ^ k)) (rounds a0 b0 k).1,
      rndB (BitVec.ofNat 32 (2 ^ k)) (rounds a0 b0 k).1 (rounds a0 b0 k).2)

/-- Up to ten such rounds have column j the same number of rounds of the doubling scan of the column. -/
theorem rounds_apply (a0 b0 : FVec Ideal S1024x128 .f32) (j : Fin 128) (P : (ℕ → EReal) × (ℕ → EReal))
    (hP : ∀ (u : ℕ) (hu : u < 1024),
      a0 (ix2 (⟨u, hu⟩ : Fin 1024) j) = P.1 u ∧ b0 (ix2 (⟨u, hu⟩ : Fin 1024) j) = P.2 u)
    (k : ℕ) (hk : k ≤ 10) (u : ℕ) (hu : u < 1024) :
    (rounds a0 b0 k).1 (ix2 (⟨u, hu⟩ : Fin 1024) j) = (Cert.Scan.hsIter k P).1 u ∧
      (rounds a0 b0 k).2 (ix2 (⟨u, hu⟩ : Fin 1024) j) = (Cert.Scan.hsIter k P).2 u := by
  induction k generalizing u with
  | zero => exact hP u hu
  | succ k ih =>
    have hpow : 2 ^ k < 1024 :=
      lt_of_le_of_lt (Nat.pow_le_pow_right (by norm_num) (show k ≤ 9 by omega)) (by norm_num)
    have hsb : (BitVec.ofNat 32 (2 ^ k)).toNat = 2 ^ k := by
      rw [BitVec.toNat_ofNat]; exact Nat.mod_eq_of_lt (by omega)
    exact round_apply (BitVec.ofNat 32 (2 ^ k)) (2 ^ k) hsb hpow _ _ j (Cert.Scan.hsIter k P)
      (fun u hu => ih (by omega) u hu) u hu

/-- The carried-in state's row (zero at the first chunk) spread down the 1024 rows. -/
def carryVec (tn : BitVec 32) (cin : Vec Ideal S1x128 .f32) : FVec Ideal S1024x128 .f32 :=
  broadcastTo S1024x128
    (shapeCast S1x128
      (Scalar.select (Scalar.cmpi .eq tn 0#32)
        (broadcast S1x128 (Scalar.ofBits (F := Ideal) .f32 0x00000000#32)) cin)
      shapeCasts_S1x128_S1x128)
    broadcasts_S1x128_S1024x128

theorem carryVec_apply (tn : BitVec 32) (cin : Vec Ideal S1x128 .f32) (r : Fin 1024) (j : Fin 128) :
    (carryVec tn cin (ix2 r j) : EReal)
      = if tn = 0#32 then (0 : EReal) else (cin (ix2 (0 : Fin 1) j) : EReal) := by
  unfold carryVec
  rw [shapeCast_self]
  refine (broadcastTo_apply _ broadcasts_S1x128_S1024x128 (ix2 r j) (ix2 (0 : Fin 1) j) ?_).trans ?_
  · intro a
    fin_cases a
    · rfl
    · rfl
  · by_cases h : tn = 0#32
    · subst h
      rw [if_pos rfl]
      have hc : Scalar.cmpi .eq 0#32 0#32 = 1#1 := rfl
      rw [hc, select_one, broadcast_apply]
      exact Ideal.ofBits_zero_f32
    · rw [if_neg h]
      have hc : Scalar.cmpi .eq tn 0#32 = 0#1 := by
        show BitVec.ofBool (tn == 0#32) = 0#1
        rw [beq_eq_false_iff_ne.mpr h]; rfl
      rw [hc, select_zero]

/-- The chunk's state: ten doubling rounds of the column, applied to the carried-in state (zero at the first chunk). -/
theorem hcore_apply (r : Fin 1024) (j : Fin 128) :
    (hcore tn x wf wc bias cin (ix2 r j) : EReal)
      = (Cert.Scan.hsIter 10 (aL x wf bias j, bL x wf wc bias j)).1 r.val
          * (if tn = 0#32 then (0 : EReal) else (cin (ix2 (0 : Fin 1) j) : EReal))
        + (Cert.Scan.hsIter 10 (aL x wf bias j, bL x wf wc bias j)).2 r.val := by
  have e : hcore tn x wf wc bias cin
      = addf (mulf (rounds (fGate x wf bias) (bTerm x wf wc bias) 10).1 (carryVec tn cin))
          (rounds (fGate x wf bias) (bTerm x wf wc bias) 10).2 := rfl
  have hP : ∀ (u : ℕ) (hu : u < 1024),
      fGate x wf bias (ix2 (⟨u, hu⟩ : Fin 1024) j) = (aL x wf bias j, bL x wf wc bias j).1 u ∧
        bTerm x wf wc bias (ix2 (⟨u, hu⟩ : Fin 1024) j) = (aL x wf bias j, bL x wf wc bias j).2 u :=
    fun u hu => ⟨by show _ = aL x wf bias j u; unfold aL; rw [dif_pos hu],
      by show _ = bL x wf wc bias j u; unfold bL; rw [dif_pos hu]⟩
  obtain ⟨r, hr⟩ := r
  have h10 := rounds_apply _ _ j _ hP 10 le_rfl r hr
  rw [e, addf_apply, mulf_apply, h10.1, h10.2, carryVec_apply]

theorem carryNew_apply (j : Fin 128) :
    (carryNew tn x wf wc bias cin (ix2 (0 : Fin 1) j) : EReal) = (hcore tn x wf wc bias cin (ix2 (1023 : Fin 1024) j) : EReal) := by
  show shapeCast S1x128 (extractStridedSlice S1x128 ![1023, 0] (hcore tn x wf wc bias cin)
    slices_S1024x128_o1023_0_S1x128) shapeCasts_S1x128_S1x128 (ix2 (0 : Fin 1) j) = _
  rw [shapeCast_self]
  refine extractStridedSlice_apply _ _ slices_S1024x128_o1023_0_S1x128 _ _ ?_
  intro a
  fin_cases a
  · rfl
  · show j.val = 0 + j.val
    rw [Nat.zero_add]

theorem hO_apply (r : Fin 1024) (j : Fin 128) :
    (hO tn x wf wc wog bias cin (ix2 r j) : EReal)
      = (hcore tn x wf wc bias cin (ix2 r j) : EReal) * (oGate x wog (ix2 r j) : EReal) := by
  rfl

end Cert.KernelIdeal.Hand

end
-- ==== Proof.KStep.lean ====
/-
  One grid point of the kernel against the function G, on the extended reals.

  The grid point is (b, tn, dn): batch b, time chunk tn (rows 1024·tn … 1024·tn + 1023), channel chunk dn (channels
  128·dn … 128·dn + 127). If what the body loads are the corresponding pieces of the arrays — the feature block, rows of
  the gate matrix, the bias slice, columns of the output matrix — and the carried-in slice is the recurrent state at
  the previous chunk's last row (nothing is asked of it at the first chunk, where the body replaces it by zero), then
  the chunk's state is h of the specification (the chunk-plus-carry law of the doubling scan), the new carried slice
  is its last row, and the accumulator moves from the partial sum of G's channel sum over the first 128·dn channels
  to the partial sum over the first 128·(dn + 1).
-/
import proofs.«111377_j19533511262472_1_alg».proof.Proof.KPayGates
import proofs.«111377_j19533511262472_1_alg».proof.Proof.KPayScan
import proofs.«111377_j19533511262472_1_alg».proof.Proof.Spec

noncomputable section

namespace Cert.KernelIdeal.Hand

open Idealize.ShloMosaic Idealize.ShloMosaic.TcCoe Idealize.ShloMosaic.ValueIdx Cert.KernelIdeal Cert.KernelIdeal.Gen Cert.Spec

variable (X : FVec Ideal SX .f32) (Wg : FVec Ideal SW3 .f32) (Wo : FVec Ideal SW1 .f32) (Bs : FVec Ideal SB .f32)

/-- Row `r` of time chunk `tn`, and channel `j` of channel chunk `dn`, as positions in the whole arrays. -/
def tIdx (tn : Fin 4) (r : Fin 1024) : Fin 4096 := ⟨1024 * tn.val + r.val, by omega⟩
def dIdx (dn : Fin 8) (j : Fin 128) : Fin 1024 := ⟨128 * dn.val + j.val, by omega⟩

/-- What the body loads at the point (b, tn, dn) are the arrays' pieces there. -/
structure Loaded (b : Fin 4) (tn : Fin 4) (dn : Fin 8) (x : Vec Ideal S1x1024x1024 .f32) (wf wc wog : Vec Ideal S128x1024 .bf16)
    (bias : Vec Ideal S1x128 .f32) (wo : Vec Ideal S1024x128 .bf16) : Prop where
  hx : ∀ (r k : Fin 1024), (x (ix3 (0 : Fin 1) r k) : EReal) = (X (ix3 b (tIdx tn r) k) : EReal)
  hwf : ∀ (j : Fin 128) (k : Fin 1024), (wf (ix2 j k) : EReal) = (Wg (ix2 (rowF (dIdx dn j)) k) : EReal)
  hwc : ∀ (j : Fin 128) (k : Fin 1024), (wc (ix2 j k) : EReal) = (Wg (ix2 (rowC (dIdx dn j)) k) : EReal)
  hwog : ∀ (j : Fin 128) (k : Fin 1024), (wog (ix2 j k) : EReal) = (Wg (ix2 (rowO (dIdx dn j)) k) : EReal)
  hbias : ∀ (j : Fin 128), (bias (ix2 (0 : Fin 1) j) : EReal) = (Bs (ix1 (dIdx dn j)) : EReal)
  hwo : ∀ (e : Fin 1024) (j : Fin 128), (wo (ix2 e j) : EReal) = (Wo (ix2 e (dIdx dn j)) : EReal)

/-- The carried-in slice is the recurrent state at the previous chunk's last row (asked only past the first chunk). -/
def CarryOK (b : Fin 4) (tn : Fin 4) (dn : Fin 8) (cin : Vec Ideal S1x128 .f32) : Prop :=
  ∀ (h : tn.val ≠ 0) (j : Fin 128), (cin (ix2 (0 : Fin 1) j) : EReal) = hG X Wg Bs b ⟨1024 * tn.val - 1, by omega⟩ (dIdx dn j)

/-- The partial channel sum of G over the first `n` channels, at row `r` of chunk `tn`. -/
def accSpec (b : Fin 4) (tn : Fin 4) (n : ℕ) (r e : Fin 1024) : EReal :=
  ∑ d : Fin 1024, if d.val < n then (hG X Wg Bs b (tIdx tn r) d * oG X Wg b (tIdx tn r) d) * (Wo (ix2 e d) : EReal) else 0

theorem accSpec_zero (b : Fin 4) (tn : Fin 4) (r e : Fin 1024) : accSpec X Wg Wo Bs b tn 0 r e = 0 := by
  unfold accSpec
  refine Finset.sum_eq_zero fun d _ => ?_
  rw [if_neg (Nat.not_lt_zero _)]

theorem accSpec_full (b : Fin 4) (tn : Fin 4) (r e : Fin 1024) : accSpec X Wg Wo Bs b tn 1024 r e = Gat X Wg Wo Bs b (tIdx tn r) e := by
  unfold accSpec Gat
  refine Finset.sum_congr rfl fun d _ => ?_
  rw [if_pos d.isLt]

/-- The channels of chunk `dn` are exactly the positions 128·dn ≤ d < 128·(dn + 1): a sum over that window is the
    sum over the chunk's 128 channels. -/
theorem sum_chunk_window (f : Fin 1024 → EReal) (dn : Fin 8) :
    (∑ d : Fin 1024, if 128 * dn.val ≤ d.val ∧ d.val < 128 * (dn.val + 1) then f d else 0)
      = ∑ j : Fin 128, f (dIdx dn j) := by
  rw [← Finset.sum_filter]
  have himg : (Finset.univ.filter fun d : Fin 1024 => 128 * dn.val ≤ d.val ∧ d.val < 128 * (dn.val + 1))
      = Finset.univ.image (dIdx dn) := by
    ext d
    simp only [Finset.mem_filter, Finset.mem_univ, true_and, Finset.mem_image]
    constructor
    · rintro ⟨h1, h2⟩
      refine ⟨⟨d.val - 128 * dn.val, by omega⟩, Fin.ext ?_⟩
      show 128 * dn.val + (d.val - 128 * dn.val) = d.val
      omega
    · rintro ⟨j, rfl⟩
      have hj := j.isLt
      show 128 * dn.val ≤ 128 * dn.val + j.val ∧ 128 * dn.val + j.val < 128 * (dn.val + 1)
      omega
  rw [himg, Finset.sum_image]
  intro j1 _ j2 _ h
  have hv : 128 * dn.val + j1.val = 128 * dn.val + j2.val := congrArg Fin.val h
  exact Fin.ext (by omega)

/-- The partial sum over the first 128·(dn + 1) positions is the partial sum over the first 128·dn plus the sum over
    chunk `dn`'s channels. -/
theorem sum_chunk_step (f : Fin 1024 → EReal) (dn : Fin 8) :
    (∑ d : Fin 1024, if d.val < 128 * (dn.val + 1) then f d else 0)
      = (∑ d : Fin 1024, if d.val < 128 * dn.val then f d else 0) + ∑ j : Fin 128, f (dIdx dn j) := by
  rw [← sum_chunk_window f dn, ← Finset.sum_add_distrib]
  refine Finset.sum_congr rfl fun d _ => ?_
  by_cases h1 : d.val < 128 * dn.val
  · have h2 : d.val < 128 * (dn.val + 1) := by omega
    have h3 : ¬ (128 * dn.val ≤ d.val ∧ d.val < 128 * (dn.val + 1)) := by omega
    rw [if_pos h1, if_pos h2, if_neg h3, add_zero]
  · by_cases h2 : d.val < 128 * (dn.val + 1)
    · have h3 : 128 * dn.val ≤ d.val ∧ d.val < 128 * (dn.val + 1) := ⟨by omega, h2⟩
      rw [if_neg h1, if_pos h2, if_pos h3, zero_add]
    · have h3 : ¬ (128 * dn.val ≤ d.val ∧ d.val < 128 * (dn.val + 1)) := by omega
      rw [if_neg h1, if_neg h2, if_neg h3, add_zero]

section
variable {b : Fin 4} {tn : Fin 4} {dn : Fin 8} {x : Vec Ideal S1x1024x1024 .f32} {wf wc wog : Vec Ideal S128x1024 .bf16}
  {bias cin : Vec Ideal S1x128 .f32} {wo : Vec Ideal S1024x128 .bf16}

/-- A loaded gate slice's pre-activation at (r, j) is the specification's gate at the global row and time. -/
theorem gpre_spec (hL : Loaded X Wg Wo Bs b tn dn x wf wc wog bias wo) (w : Vec Ideal S128x1024 .bf16) (row : Fin 3072)
    (j : Fin 128) (hw : ∀ k : Fin 1024, (w (ix2 j k) : EReal) = (Wg (ix2 row k) : EReal)) (r : Fin 1024) :
    gpre x w r j = gate X Wg row b (tIdx tn r) := by
  unfold gpre gate
  refine Finset.sum_congr rfl fun k _ => ?_
  rw [hL.hx r k, hw k]

/-- The local slopes of channel `j` are the global slopes of channel 128·dn + j shifted by 1024·tn. -/
theorem aL_spec (hL : Loaded X Wg Wo Bs b tn dn x wf wc wog bias wo) (j : Fin 128) (t : ℕ) (ht : t < 1024) :
    aL x wf bias j t = aSeq X Wg Bs b (dIdx dn j) (1024 * tn.val + t) := by
  have h4 : 1024 * tn.val + t < 4096 := by have := tn.isLt; omega
  show (if h : t < 1024 then (fGate x wf bias (ix2 (⟨t, h⟩ : Fin 1024) j) : EReal) else 1)
    = if h : 1024 * tn.val + t < 4096 then fG X Wg Bs b ⟨1024 * tn.val + t, h⟩ (dIdx dn j) else 1
  rw [dif_pos ht, dif_pos h4, fGate_apply, gpre_spec X Wg Wo Bs hL wf (rowF (dIdx dn j)) j (hL.hwf j), hL.hbias j]
  rfl

/-- The local constant terms of channel `j` are the global ones of channel 128·dn + j shifted by 1024·tn. -/
theorem bL_spec (hL : Loaded X Wg Wo Bs b tn dn x wf wc wog bias wo) (j : Fin 128) (t : ℕ) (ht : t < 1024) :
    bL x wf wc bias j t = bSeq X Wg Bs b (dIdx dn j) (1024 * tn.val + t) := by
  have h4 : 1024 * tn.val + t < 4096 := by have := tn.isLt; omega
  show (if h : t < 1024 then (bTerm x wf wc bias (ix2 (⟨t, h⟩ : Fin 1024) j) : EReal) else 0)
    = if h : 1024 * tn.val + t < 4096 then bG X Wg Bs b ⟨1024 * tn.val + t, h⟩ (dIdx dn j) else 0
  rw [dif_pos ht, dif_pos h4, bTerm_apply, fGate_apply, gpre_spec X Wg Wo Bs hL wf (rowF (dIdx dn j)) j (hL.hwf j),
    gpre_spec X Wg Wo Bs hL wc (rowC (dIdx dn j)) j (hL.hwc j), hL.hbias j]
  rfl

/-- A chunk number below 4 is zero as a 32-bit word only when it is zero. -/
theorem ofNat_tn_eq_zero_iff (tn : Fin 4) : BitVec.ofNat 32 tn.val = 0#32 ↔ tn.val = 0 := by
  constructor
  · intro h
    have h2 := congrArg BitVec.toNat h
    rw [BitVec.toNat_ofNat, Nat.mod_eq_of_lt (by have := tn.isLt; omega)] at h2
    exact h2
  · intro h
    rw [h]

/-- The chunk's state is the specification's. -/
theorem hcore_spec (hL : Loaded X Wg Wo Bs b tn dn x wf wc wog bias wo) (hc : CarryOK X Wg Bs b tn dn cin) (r : Fin 1024) (j : Fin 128) :
    (hcore (BitVec.ofNat 32 tn.val) x wf wc bias cin (ix2 r j) : EReal) = hG X Wg Bs b (tIdx tn r) (dIdx dn j) := by
  rw [hcore_apply]
  have hcg := Cert.Scan.hsIter_congr 10 (aL x wf bias j, bL x wf wc bias j)
    (fun t => aSeq X Wg Bs b (dIdx dn j) (1024 * tn.val + t), fun t => bSeq X Wg Bs b (dIdx dn j) (1024 * tn.val + t)) r.val
    (fun u hu => ⟨aL_spec X Wg Wo Bs hL j u (by have := r.isLt; omega), bL_spec X Wg Wo Bs hL j u (by have := r.isLt; omega)⟩)
  rw [hcg.1, hcg.2]
  refine Cert.Scan.hs_chunk (aSeq X Wg Bs b (dIdx dn j)) (bSeq X Wg Bs b (dIdx dn j)) (aSeq_nonnegReal X Wg Bs b (dIdx dn j))
    10 (1024 * tn.val) r.val (by have := r.isLt; omega) _ ?_
  by_cases h : tn.val = 0
  · rw [if_pos ((ofNat_tn_eq_zero_iff tn).mpr h), if_pos (by omega)]
  · rw [if_neg (fun h0 => h ((ofNat_tn_eq_zero_iff tn).mp h0)), if_neg (by omega), hc h j]
    rfl

/-- The new carried slice is the state at the chunk's last row. -/
theorem carryNew_spec (hL : Loaded X Wg Wo Bs b tn dn x wf wc wog bias wo) (hc : CarryOK X Wg Bs b tn dn cin) (j : Fin 128) :
    (carryNew (BitVec.ofNat 32 tn.val) x wf wc bias cin (ix2 (0 : Fin 1) j) : EReal)
      = hG X Wg Bs b ⟨1024 * tn.val + 1023, by omega⟩ (dIdx dn j) := by
  rw [carryNew_apply, hcore_spec X Wg Wo Bs hL hc (1023 : Fin 1024) j]
  rfl

/-- The accumulator gains channel chunk `dn`. -/
theorem accNew_spec (hL : Loaded X Wg Wo Bs b tn dn x wf wc wog bias wo) (hc : CarryOK X Wg Bs b tn dn cin)
    (acc : Vec Ideal S1024x1024 .f32) (hacc : ∀ r e : Fin 1024, (acc (ix2 r e) : EReal) = accSpec X Wg Wo Bs b tn (128 * dn.val) r e)
    (r e : Fin 1024) :
    (accNew (hO (BitVec.ofNat 32 tn.val) x wf wc wog bias cin) wo acc (ix2 r e) : EReal)
      = accSpec X Wg Wo Bs b tn (128 * (dn.val + 1)) r e := by
  rw [accNew_apply, hacc r e]
  unfold accSpec
  rw [sum_chunk_step (fun d => (hG X Wg Bs b (tIdx tn r) d * oG X Wg b (tIdx tn r) d) * (Wo (ix2 e d) : EReal)) dn]
  refine congrArg (fun s => _ + s) (Finset.sum_congr rfl fun j _ => ?_)
  rw [hO_apply, hcore_spec X Wg Wo Bs hL hc r j, oGate_apply, gpre_spec X Wg Wo Bs hL wog (rowO (dIdx dn j)) j (hL.hwog j),
    hL.hwo e j]
  rfl
end

end Cert.KernelIdeal.Hand

end
-- ==== Proof.KLoad.lean ====
/-
  What the body loads at a grid point are the arrays' pieces there. At point t = (b, tn, dn) the feature window's
  buffer holds rows 1024·tn … of batch b; the body's slice loads take rows 128·dn … 128·dn + 127 of the three gate
  matrices' blocks (rows 128·dn + j, 1024 + 128·dn + j, 2048 + 128·dn + j of the quantised gate matrix), columns
  128·dn … of the bias and of the carried-state buffer, and columns 128·dn … of the quantised output matrix.
-/
import proofs.«111377_j19533511262472_1_alg».proof.Proof.KBlocks
import proofs.«111377_j19533511262472_1_alg».proof.Proof.KHost
import proofs.«111377_j19533511262472_1_alg».proof.Proof.KStep

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.Spec

/-- The slice loads' offsets over the grid: the gate blocks' rows, the bias' and carried state's columns and the output
    matrix's columns all start at 128 · dn, the other coordinate at zero. -/
theorem off_facts : ∀ t : Fin cfg0.N,
    k0_off1 (grid0.coords t) 0 = 128 * (t.val % 8) ∧ k0_off1 (grid0.coords t) 1 = 0
    ∧ k0_off2 (grid0.coords t) 0 = 0 ∧ k0_off2 (grid0.coords t) 1 = 128 * (t.val % 8)
    ∧ k0_off3 (grid0.coords t) 0 = 0 ∧ k0_off3 (grid0.coords t) 1 = 128 * (t.val % 8) :=
  (by decide +kernel : ∀ t : Fin grid0.N,
    k0_off1 (grid0.coords t) 0 = 128 * (t.val % 8) ∧ k0_off1 (grid0.coords t) 1 = 0
    ∧ k0_off2 (grid0.coords t) 0 = 0 ∧ k0_off2 (grid0.coords t) 1 = 128 * (t.val % 8)
    ∧ k0_off3 (grid0.coords t) 0 = 0 ∧ k0_off3 (grid0.coords t) 1 = 128 * (t.val % 8))

/-- A load of m0 × m1 consecutive entries from (o0, o1) of a matrix reads, at (p, q), the matrix at (o0 + p, o1 + q). -/
theorem ld_unit2_apply {Val : EltTy → Type} {e : EltTy} {n0 n1 m0 m1 : Nat}
    (X : (⟨2, ![n0, n1]⟩ : Shape).Idx → Val e) (off : Fin 2 → Nat)
    (inb : ∀ a, off a + (⟨2, ![m0, m1]⟩ : Shape).size a ≤ (⟨2, ![n0, n1]⟩ : Shape).size a)
    (p : Fin m0) (q : Fin m1) (p' : Fin n0) (q' : Fin n1) (h0 : p'.val = off 0 + p.val) (h1 : q'.val = off 1 + q.val) :
    (View.ld X (Rect.unit (s := ⟨2, ![n0, n1]⟩) off (⟨2, ![m0, m1]⟩ : Shape).size inb) : (⟨2, ![m0, m1]⟩ : Shape).Idx → Val e) (ix2 p q)
      = X (ix2 p' q') := by
  show X ((Rect.unit (s := ⟨2, ![n0, n1]⟩) off (⟨2, ![m0, m1]⟩ : Shape).size inb).idx (ix2 p q)) = X (ix2 p' q')
  refine congrArg X (funext fun a => Fin.ext ?_)
  match a with
  | ⟨0, _⟩ =>
    show off 0 + 1 * p.val = p'.val
    omega
  | ⟨1, _⟩ =>
    show off 1 + 1 * q.val = q'.val
    omega

variable (m : (ℓ : Loc nD τ sig) → Buf (Elt Ideal) ℓ) (c : Dev nD)

/-- The specification's four arrays, read off the kernel program's launch memory: the features, the quantised gate
    matrix, the quantised output matrix, the bias. -/
def Xa : FVec Ideal SX .f32 := (m ((c : Thread nD τ).loc main_arg0) : SX.Idx → Ideal .f32)
def WgA : FVec Ideal SW3 .f32 := Cert.ReferenceIdeal.ReadP.val_main_v11 (F := Ideal) (m ((c : Thread nD τ).loc main_arg1))
def WoA : FVec Ideal SW1 .f32 := Cert.ReferenceIdeal.ReadP.val_main_v178 (F := Ideal) (m ((c : Thread nD τ).loc main_arg2))
def BsA : FVec Ideal SB .f32 := (m ((c : Thread nD τ).loc main_arg3) : SB.Idx → Ideal .f32)

/-- The body's slice loads at point `t`, of the windows' blocks and of a carried-state buffer's contents. -/
def ldWf (t : Fin cfg0.N) : Vec Ideal S128x1024 .bf16 :=
  View.ld (iblk m c 1 t) (Rect.unit (s := S1024x1024) (k0_off1 (grid0.coords t)) S128x1024.size (k0_off1_inb (grid0.coords t)))
def ldWc (t : Fin cfg0.N) : Vec Ideal S128x1024 .bf16 :=
  View.ld (iblk m c 2 t) (Rect.unit (s := S1024x1024) (k0_off1 (grid0.coords t)) S128x1024.size (k0_off1_inb (grid0.coords t)))
def ldWog (t : Fin cfg0.N) : Vec Ideal S128x1024 .bf16 :=
  View.ld (iblk m c 3 t) (Rect.unit (s := S1024x1024) (k0_off1 (grid0.coords t)) S128x1024.size (k0_off1_inb (grid0.coords t)))
def ldBias (t : Fin cfg0.N) : Vec Ideal S1x128 .f32 :=
  View.ld (iblk m c 4 t) (Rect.unit (s := S1x1024) (k0_off2 (grid0.coords t)) S1x128.size (k0_off2_inb (grid0.coords t)))
def ldWo (t : Fin cfg0.N) : Vec Ideal S1024x128 .bf16 :=
  View.ld (iblk m c 5 t) (Rect.unit (s := S1024x1024) (k0_off3 (grid0.coords t)) S1024x128.size (k0_off3_inb (grid0.coords t)))
def ldCarry (t : Fin cfg0.N) (C : Vec Ideal S1x1024 .f32) : Vec Ideal S1x128 .f32 :=
  View.ld C (Rect.unit (s := S1x1024) (k0_off2 (grid0.coords t)) S1x128.size (k0_off2_inb (grid0.coords t)))

/-- The loads are the arrays' pieces at (b, tn, dn). -/
theorem loaded (t : Fin cfg0.N) :
    Loaded (Xa m c) (WgA m c) (WoA m c) (BsA m c) (bOf t) (tnOf t) (dnOf t)
      (iblk m c 0 t) (ldWf m c t) (ldWc m c t) (ldWog m c t) (ldBias m c t) (ldWo m c t) := by
  obtain ⟨o10, o11, o20, o21, o30, o31⟩ := off_facts t
  refine ⟨?_, ?_, ?_, ?_, ?_, ?_⟩
  · intro r k
    rw [iblk0_apply, V_main_arg0]
    rfl
  · intro j k
    have h : ldWf m c t (ix2 j k) = iblk m c 1 t (ix2 (dIdx (dnOf t) j) k) :=
      ld_unit2_apply _ _ _ j k _ _ (by show 128 * (t.val % 8) + j.val = _; omega) (by omega)
    exact (h.trans (iblk1_apply m c t _ k)).trans (V_main_v25_apply m c _ k)
  · intro j k
    have h : ldWc m c t (ix2 j k) = iblk m c 2 t (ix2 (dIdx (dnOf t) j) k) :=
      ld_unit2_apply _ _ _ j k _ _ (by show 128 * (t.val % 8) + j.val = _; omega) (by omega)
    exact (h.trans (iblk2_apply m c t _ k)).trans (V_main_v27_apply m c _ k)
  · intro j k
    have h : ldWog m c t (ix2 j k) = iblk m c 3 t (ix2 (dIdx (dnOf t) j) k) :=
      ld_unit2_apply _ _ _ j k _ _ (by show 128 * (t.val % 8) + j.val = _; omega) (by omega)
    exact (h.trans (iblk3_apply m c t _ k)).trans (V_main_v29_apply m c _ k)
  · intro j
    have h : ldBias m c t (ix2 (0 : Fin 1) j) = iblk m c 4 t (ix2 (0 : Fin 1) (dIdx (dnOf t) j)) :=
      ld_unit2_apply _ _ _ (0 : Fin 1) j _ _ (by show (0 : ℕ) = _; omega) (by show 128 * (t.val % 8) + j.val = _; omega)
    exact (h.trans (iblk4_apply m c t _)).trans (V_main_v31_apply m c _)
  · intro e j
    have h : ldWo m c t (ix2 e j) = iblk m c 5 t (ix2 e (dIdx (dnOf t) j)) :=
      ld_unit2_apply _ _ _ e j _ _ (by omega) (by show 128 * (t.val % 8) + j.val = _; omega)
    exact (h.trans (iblk5_apply m c t e _)).trans (V_main_v30_apply m c e _)

/-- The carried-state slice the body loads is the buffer's slice dn. -/
theorem ldCarry_apply (t : Fin cfg0.N) (C : Vec Ideal S1x1024 .f32) (j : Fin 128) :
    (ldCarry t C (ix2 (0 : Fin 1) j) : EReal) = (C (ix2 (0 : Fin 1) (dIdx (dnOf t) j)) : EReal) := by
  obtain ⟨-, -, o20, o21, -, -⟩ := off_facts t
  exact ld_unit2_apply C _ _ (0 : Fin 1) j _ _ (by show (0 : ℕ) = _; omega) (by show 128 * (t.val % 8) + j.val = _; omega)

/-- The branch and select words the body computes from the point are its coordinates. -/
theorem arg1_eq (t : Fin cfg0.N) : BitVec.ofNat 32 ((grid0.coords t) 1).val = BitVec.ofNat 32 (tnOf t).val := by
  exact congrArg (BitVec.ofNat 32) (coords_val t).2.1

end Cert.KernelIdeal.Hand

end
-- ==== Proof.KInv.lean ====
/-
  The carried-state buffer across grid points. Point t = (b, tn, dn) overwrites the buffer's slice dn (channels
  128·dn … 128·dn + 127) with the recurrent state at the chunk's last row, and leaves the other seven slices alone.
  So after point n the buffer holds, on the slice of each of the last eight points t' ≤ n, what t' wrote. Point t with
  tn ≠ 0 reads slice dn, last written by point t - 8 = (b, tn - 1, dn): the state at row 1024·tn - 1, which is what the
  chunk-plus-carry law asks of the carried-in slice.
-/
import proofs.«111377_j19533511262472_1_alg».proof.Proof.KBlocks
import proofs.«111377_j19533511262472_1_alg».proof.Proof.KStep

noncomputable section

namespace Cert.KernelIdeal.Hand

open Idealize.ShloMosaic Idealize.ShloMosaic.TcCoe Idealize.ShloMosaic.ValueIdx Cert.KernelIdeal Cert.KernelIdeal.Gen Cert.Spec

variable (X : FVec Ideal SX .f32) (Wg : FVec Ideal SW3 .f32) (Bs : FVec Ideal SB .f32)

/-- What point `t'` writes into its slice of the carried-state buffer, at channel `j` of the slice. -/
def carrySlice (t' : Fin cfg0.N) (j : Fin 128) : EReal :=
  hG X Wg Bs (bOf t') ⟨1024 * (tnOf t').val + 1023, by have := (tnOf t').isLt; omega⟩ (dIdx (dnOf t') j)

/-- After point `n`: on the slice of each of the last eight points, what that point wrote. -/
def Known (n : ℕ) (C : Vec Ideal S1x1024 .f32) : Prop :=
  ∀ t' : Fin cfg0.N, t'.val ≤ n → n < t'.val + 8 → ∀ j : Fin 128,
    (C (ix2 (0 : Fin 1) (dIdx (dnOf t') j)) : EReal) = carrySlice X Wg Bs t' j

/-- At the first time chunk nothing is asked of the carried-in slice. -/
theorem carryOK_first (t : Fin cfg0.N) (h0 : (tnOf t).val = 0) (cin : Vec Ideal S1x128 .f32) :
    CarryOK X Wg Bs (bOf t) (tnOf t) (dnOf t) cin := by
  intro h
  exact absurd h0 h

/-- Past the first time chunk the slice the point reads was written eight points earlier, by the previous chunk. -/
theorem carryOK_of_known (t : Fin cfg0.N) (C : Vec Ideal S1x1024 .f32) (hK : 0 < t.val → Known X Wg Bs (t.val - 1) C)
    (cin : Vec Ideal S1x128 .f32) (hcin : ∀ j : Fin 128, (cin (ix2 (0 : Fin 1) j) : EReal) = (C (ix2 (0 : Fin 1) (dIdx (dnOf t) j)) : EReal)) :
    CarryOK X Wg Bs (bOf t) (tnOf t) (dnOf t) cin := by
  intro h j
  have hN : cfg0.N = 128 := N_0
  have ht := t.isLt
  have htn : (tnOf t).val = (t.val / 8) % 4 := rfl
  have h8 : 8 ≤ t.val := by omega
  have ht' : t.val - 8 < cfg0.N := by omega
  have hb : bOf (⟨t.val - 8, ht'⟩ : Fin cfg0.N) = bOf t :=
    Fin.ext (by show (t.val - 8) / 32 = t.val / 32; omega)
  have hd : dnOf (⟨t.val - 8, ht'⟩ : Fin cfg0.N) = dnOf t :=
    Fin.ext (by show (t.val - 8) % 8 = t.val % 8; omega)
  have htn' : (tnOf (⟨t.val - 8, ht'⟩ : Fin cfg0.N)).val = (t.val / 8) % 4 - 1 := by
    show ((t.val - 8) / 8) % 4 = (t.val / 8) % 4 - 1
    omega
  have hk := hK (by omega) (⟨t.val - 8, ht'⟩ : Fin cfg0.N) (by show t.val - 8 ≤ t.val - 1; omega)
    (by show t.val - 1 < t.val - 8 + 8; omega) j
  rw [hd] at hk
  rw [hcin j, hk]
  unfold carrySlice
  rw [hb, hd]
  congr 1
  exact Fin.ext (by
    show 1024 * (tnOf (⟨t.val - 8, ht'⟩ : Fin cfg0.N)).val + 1023 = 1024 * (tnOf t).val - 1
    omega)

/-- The point's store keeps the invariant. -/
theorem known_step (t : Fin cfg0.N) (C C' : Vec Ideal S1x1024 .f32) (hK : 0 < t.val → Known X Wg Bs (t.val - 1) C)
    (hin : ∀ j : Fin 128, (C' (ix2 (0 : Fin 1) (dIdx (dnOf t) j)) : EReal) = carrySlice X Wg Bs t j)
    (hout : ∀ d : Fin 1024, d.val / 128 ≠ (dnOf t).val → (C' (ix2 (0 : Fin 1) d) : EReal) = (C (ix2 (0 : Fin 1) d) : EReal)) :
    Known X Wg Bs t.val C' := by
  intro t' h1 h2 j
  have hN : cfg0.N = 128 := N_0
  by_cases heq : t' = t
  · subst heq
    exact hin j
  · have hlt : t'.val < t.val := lt_of_le_of_ne h1 (fun h => heq (Fin.ext h))
    have hne : (dIdx (dnOf t') j).val / 128 ≠ (dnOf t).val := by
      show (128 * (t'.val % 8) + j.val) / 128 ≠ t.val % 8
      have := j.isLt
      omega
    rw [hout _ hne]
    exact hK (by omega) t' (by omega) (by omega) j

end Cert.KernelIdeal.Hand

end
-- ==== Proof.KState.lean ====
/-
  What the kernel's two scratch buffers and its output block hold after each grid point, on the extended reals, in
  closed form: after point t = (b, tn, dn) the accumulator holds, at row r and column e, the partial channel sum of G
  over the first 128·(dn + 1) channels at time 1024·tn + r; the output block written at a point with dn = 7 holds G at
  those times; the carried-state buffer is described by the invariant `Known`.
-/
import proofs.«111377_j19533511262472_1_alg».proof.Proof.KLoad
import proofs.«111377_j19533511262472_1_alg».proof.Proof.KInv
import proofs.«111377_j19533511262472_1_alg».proof.Proof.KRunA
import proofs.«111377_j19533511262472_1_alg».proof.Proof.KRunB
import proofs.«111377_j19533511262472_1_alg».proof.Proof.KRunC

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

/-- Each window's current staging memref at point `t`, as the pipeline passes it to the body, and its wholeness. -/
abbrev ms0 (t : Fin cfg0.N) : Memref sig .tc .vmem S1x1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024x1024 .f32 := win0_6.stage (cfg0.slots t 6)
abbrev hs6 (t : Fin cfg0.N) : (ms6 t).IsWhole := hstage0_6 ((cfg0.slots t 6).cast nbuf0_6)
/-- The two scratch operands: the accumulator and the carried-state buffer. -/
abbrev scA : Memref sig .tc .vmem S1024x1024 .f32 := Memref.whole cc0_scratch0
abbrev scC : Memref sig .tc .vmem S1x1024 .f32 := Memref.whole cc0_scratch1

/-- The accumulator after point `t`. -/
def accAt (t : Fin cfg0.N) : Vec Ideal S1024x1024 .f32 := fun i =>
  accSpec (Xa m c) (WgA m c) (WoA m c) (BsA m c) (bOf t) (tnOf t) (128 * ((dnOf t).val + 1)) (i 0) (i 1)

/-- The accumulator as point `t` finds it (past the first channel chunk): the partial sum over the chunks before. -/
def accIn (t : Fin cfg0.N) : Vec Ideal S1024x1024 .f32 := fun i =>
  accSpec (Xa m c) (WgA m c) (WoA m c) (BsA m c) (bOf t) (tnOf t) (128 * (dnOf t).val) (i 0) (i 1)

/-- The output block a point with dn = 7 writes. -/
def outAt (t : Fin cfg0.N) : Vec Ideal S1x1024x1024 .f32 := fun i =>
  Gat (Xa m c) (WgA m c) (WoA m c) (BsA m c) (bOf t) (tIdx (tnOf t) (i 1)) (i 2)

/-- Within a run of channel chunks the accumulator a point finds is what the point before left. -/
theorem accIn_eq_accAt_pred (t : Fin cfg0.N) (h : t.val % 8 ≠ 0) :
    accIn m c t = accAt m c ⟨t.val - 1, by have := t.isLt; omega⟩ := by
  have ht' : t.val - 1 < cfg0.N := by have := t.isLt; omega
  show accIn m c t = accAt m c ⟨t.val - 1, ht'⟩
  have hb : bOf ⟨t.val - 1, ht'⟩ = bOf t := Fin.ext (by show (t.val - 1) / 32 = t.val / 32; omega)
  have htn : tnOf ⟨t.val - 1, ht'⟩ = tnOf t := Fin.ext (by show ((t.val - 1) / 8) % 4 = (t.val / 8) % 4; omega)
  have hd : (dnOf ⟨t.val - 1, ht'⟩).val + 1 = (dnOf t).val := by show (t.val - 1) % 8 + 1 = t.val % 8; omega
  funext i
  unfold accIn accAt
  rw [hb, htn, hd]

end Cert.KernelIdeal.Hand

end
-- ==== Proof.KCaseA.lean ====
/-
  The kernel body's case dn = 0: the accumulator is zeroed, then gains channel chunk 0. What the case's run leaves, read back on the extended reals: the accumulator is the
  partial channel sum of G over the first 128·(dn + 1) channels; the carried-state buffer, whose slice dn the body
  overwrites with the recurrent state at the chunk's last row, keeps its invariant.
-/
import proofs.«111377_j19533511262472_1_alg».proof.Proof.KState
import Idealize.ShloMosaic.Lib.WritesUnit
import Idealize.ShloMosaic.Lib.Writes

set_option maxRecDepth 16384

noncomputable section

namespace Cert.KernelIdeal.Hand

open Idealize.ShloMosaic Idealize.ShloMosaic.TcCoe Idealize.ShloMosaic.ValueIdx Idealize.ShloMosaic.Tactic Idealize.SL.Sem
open Cert.KernelIdeal Cert.KernelIdeal.Gen Cert.Spec

theorem hz3A : (![0, 0, 0] : Fin 3 → ℕ) = fun _ => 0 := funext fun a => by fin_cases a <;> rfl
theorem hz2A : (![0, 0] : Fin 2 → ℕ) = fun _ => 0 := funext fun a => by fin_cases a <;> rfl

section Generic
variable {F : FTy → Type} [FloatOps F]

/-- The slices the body loads at grid point `i`, of blocks given as variables. -/
abbrev gRowsA (i : grid0.Coords) (x : Vec F S1024x1024 .bf16) : Vec F S128x1024 .bf16 :=
  View.ld x (Rect.unit (s := S1024x1024) (k0_off1 i) S128x1024.size (k0_off1_inb i))
abbrev gColsA (i : grid0.Coords) (x : Vec F S1x1024 .f32) : Vec F S1x128 .f32 :=
  View.ld x (Rect.unit (s := S1x1024) (k0_off2 i) S1x128.size (k0_off2_inb i))
abbrev gOutA (i : grid0.Coords) (x : Vec F S1024x1024 .bf16) : Vec F S1024x128 .bf16 :=
  View.ld x (Rect.unit (s := S1024x1024) (k0_off3 i) S1024x128.size (k0_off3_inb i))

/-- The accumulator's pieces in the case dn = 0: the zero block, then over it the zero block plus the gated state's
    product with the output matrix's slice. -/
theorem runA_acc (c : Dev nD) (i : grid0.Coords) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1x1024 .f32) (harg11 : arg11.IsWhole) (hc1 : cond1 i) (hc2 : ¬cond2 i)
    (x0 : Vec F S1x1024x1024 .f32) (x1 x2 x3 : Vec F S1024x1024 .bf16) (x4 : Vec F S1x1024 .f32) (x5 : Vec F S1024x1024 .bf16) (x9 : Vec F S1x1024x1024 .f32) (xc : Vec F S1x1024 .f32) :
    (runA c i arg3 harg3 arg4 harg4 arg5 harg5 arg6 harg6 arg7 harg7 arg8 harg8 arg9 harg9 arg10 harg10 arg11 harg11 hc1 hc2 x0 x1 x2 x3 x4 x5 x9 xc).1
      = [⟨Rect.unit ![0, 0] ![1024, 1024] inb_S1024x1024_S1024x1024_0_0,
          accNew (hO (BitVec.ofNat 32 (i 1).val) x0 (gRowsA i x1) (gRowsA i x2) (gRowsA i x3) (gColsA i x4) (gColsA i xc))
            (gOutA i x5) k0_pay1⟩,
         ⟨Rect.unit ![0, 0] ![1024, 1024] inb_S1024x1024_S1024x1024_0_0, k0_pay1⟩] := by
  unfold runA
  dsimp only
  sl_unfold_words
  simp only [View.readAt_eq_ld, Memref.IsWhole.read_unread, View.ld_unit_zero (S := S1x1024x1024) hz3A,
    View.readCov_unit_zero (S := S1024x1024) _ hz2A]
  rfl

/-- The carried-state buffer's one piece: slice dn, the new carried state. -/
theorem runA_carry (c : Dev nD) (i : grid0.Coords) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1x1024 .f32) (harg11 : arg11.IsWhole) (hc1 : cond1 i) (hc2 : ¬cond2 i)
    (x0 : Vec F S1x1024x1024 .f32) (x1 x2 x3 : Vec F S1024x1024 .bf16) (x4 : Vec F S1x1024 .f32) (x5 : Vec F S1024x1024 .bf16) (x9 : Vec F S1x1024x1024 .f32) (xc : Vec F S1x1024 .f32) :
    (runA c i arg3 harg3 arg4 harg4 arg5 harg5 arg6 harg6 arg7 harg7 arg8 harg8 arg9 harg9 arg10 harg10 arg11 harg11 hc1 hc2 x0 x1 x2 x3 x4 x5 x9 xc).2.1
      = [⟨Rect.unit (k0_off2 i) ![1, 128] (k0_off2_inb i),
          carryNew (BitVec.ofNat 32 (i 1).val) x0 (gRowsA i x1) (gRowsA i x2) (gColsA i x4) (gColsA i xc)⟩] := by
  unfold runA
  dsimp only
  sl_unfold_words
  simp only [View.readAt_eq_ld, Memref.IsWhole.read_unread, View.ld_unit_zero (S := S1x1024x1024) hz3A]
  rfl

end Generic

variable (m : (ℓ : Loc nD τ sig) → Buf (Elt Ideal) ℓ) (c : Dev nD)

/-- The carried-in slice the body loads satisfies the chunk-plus-carry law's hypothesis. -/
theorem carryOK_atA (t : Fin cfg0.N) (dc : Vec Ideal S1x1024 .f32)
    (hK : 0 < t.val → Known (Xa m c) (WgA m c) (BsA m c) (t.val - 1) dc) :
    CarryOK (Xa m c) (WgA m c) (BsA m c) (bOf t) (tnOf t) (dnOf t) (ldCarry t dc) := by
  by_cases h0 : (tnOf t).val = 0
  · exact carryOK_first (Xa m c) (WgA m c) (BsA m c) t h0 (ldCarry t dc)
  · exact carryOK_of_known (Xa m c) (WgA m c) (BsA m c) t dc hK (ldCarry t dc) (fun j => ldCarry_apply t dc j)

/-- The accumulator after the case's run. -/
theorem acc_readA (t : Fin cfg0.N) (h1 : cond1 (grid0.coords t)) (h2 : ¬cond2 (grid0.coords t)) (x9 : Vec Ideal S1x1024x1024 .f32) (dc : Vec Ideal S1x1024 .f32)
    (ea : scA.view.ty.Contents (Elt Ideal))
    (hK : 0 < t.val → Known (Xa m c) (WgA m c) (BsA m c) (t.val - 1) dc) :
    scA.view.read (Elt Ideal) (scA.view.writes (Elt Ideal) ea (runA c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _) h1 h2 (iblk m c 0 t) (iblk m c 1 t) (iblk m c 2 t) (iblk m c 3 t) (iblk m c 4 t) (iblk m c 5 t) x9 dc).1) = accAt m c t := by
  have hd0 : (dnOf t).val = 0 := (hcond1 t).mp h1
  have e := runA_acc (F := Ideal) c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _) h1 h2 (iblk m c 0 t) (iblk m c 1 t) (iblk m c 2 t) (iblk m c 3 t) (iblk m c 4 t) (iblk m c 5 t) x9 dc
  refine (congrArg (fun L => scA.view.read (Elt Ideal) (scA.view.writes (Elt Ideal) ea L)) e).trans ?_
  rw [View.read_writes_eq_canon _ _ _ (fun y => ⟨_, List.mem_cons_self, View.mem_set_unit_zero hz2A inb_S1024x1024_S1024x1024_0_0 y⟩),
    View.canon_cons_unit_zero (S := S1024x1024) hz2A]
  funext y
  obtain ⟨r, e', rfl⟩ : ∃ r e', y = ix2 r e' := ⟨y 0, y 1, eq_ix2 y⟩
  have hacc : ∀ r e : Fin 1024, (k0_pay1 (F := Ideal) (ix2 r e) : EReal)
      = accSpec (Xa m c) (WgA m c) (WoA m c) (BsA m c) (bOf t) (tnOf t) (128 * (dnOf t).val) r e := by
    intro r e
    rw [pay1_apply, hd0, Nat.mul_zero, accSpec_zero]
  have hs := accNew_spec (Xa m c) (WgA m c) (WoA m c) (BsA m c) (loaded m c t) (carryOK_atA m c t dc hK)
    (k0_pay1 (F := Ideal)) hacc r e'
  rw [← arg1_eq t] at hs
  exact hs

/-- The carried-state buffer after the case's run keeps the invariant. -/
theorem carry_readA (t : Fin cfg0.N) (h1 : cond1 (grid0.coords t)) (h2 : ¬cond2 (grid0.coords t)) (x9 : Vec Ideal S1x1024x1024 .f32) (dc : Vec Ideal S1x1024 .f32)
    (ec : scC.view.ty.Contents (Elt Ideal)) (hec : scC.view.read (Elt Ideal) ec = dc)
    (hK : 0 < t.val → Known (Xa m c) (WgA m c) (BsA m c) (t.val - 1) dc) :
    Known (Xa m c) (WgA m c) (BsA m c) t.val
      (scC.view.read (Elt Ideal) (scC.view.writes (Elt Ideal) ec (runA c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _) h1 h2 (iblk m c 0 t) (iblk m c 1 t) (iblk m c 2 t) (iblk m c 3 t) (iblk m c 4 t) (iblk m c 5 t) x9 dc).2.1)) := by
  obtain ⟨-, -, o20, o21, -, -⟩ := off_facts t
  have e := runA_carry (F := Ideal) c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _) h1 h2 (iblk m c 0 t) (iblk m c 1 t) (iblk m c 2 t) (iblk m c 3 t) (iblk m c 4 t) (iblk m c 5 t) x9 dc
  have hd : (dnOf t).val = t.val % 8 := rfl
  rw [e]
  refine known_step (Xa m c) (WgA m c) (BsA m c) t dc _ hK ?_ ?_
  · intro j
    refine (View.read_writes_cons_unit_of_mem scC.view ec (k0_off2_inb (grid0.coords t)) _ []
      (ix2 (0 : Fin 1) (dIdx (dnOf t) j)) (ix2 (0 : Fin 1) j) rfl ?_).trans ?_
    · intro a
      match a with
      | ⟨0, _⟩ => show (0 : ℕ) = k0_off2 (grid0.coords t) 0 + 0; omega
      | ⟨1, _⟩ => show 128 * (dnOf t).val + j.val = k0_off2 (grid0.coords t) 1 + j.val; omega
    · rw [arg1_eq t]
      exact carryNew_spec (Xa m c) (WgA m c) (WoA m c) (BsA m c) (loaded m c t) (carryOK_atA m c t dc hK) j
  · intro d hne
    refine (View.read_writes_cons_unit_of_not_mem scC.view ec (k0_off2_inb (grid0.coords t)) _ []
      (ix2 (0 : Fin 1) d) rfl (1 : Fin 2) ?_).trans ?_
    · show d.val < k0_off2 (grid0.coords t) 1 ∨ k0_off2 (grid0.coords t) 1 + 128 ≤ d.val
      omega
    · exact congrFun hec (ix2 (0 : Fin 1) d)

end Cert.KernelIdeal.Hand

end
-- ==== Proof.KCaseB.lean ====
/-
  The kernel body's case 0 < dn < 7: the accumulator gains channel chunk dn. What the case's run leaves, read back on the extended reals: the accumulator is the
  partial channel sum of G over the first 128·(dn + 1) channels; the carried-state buffer, whose slice dn the body
  overwrites with the recurrent state at the chunk's last row, keeps its invariant.
-/
import proofs.«111377_j19533511262472_1_alg».proof.Proof.KState
import Idealize.ShloMosaic.Lib.WritesUnit
import Idealize.ShloMosaic.Lib.Writes

set_option maxRecDepth 16384

noncomputable section

namespace Cert.KernelIdeal.Hand

open Idealize.ShloMosaic Idealize.ShloMosaic.TcCoe Idealize.ShloMosaic.ValueIdx Idealize.ShloMosaic.Tactic Idealize.SL.Sem
open Cert.KernelIdeal Cert.KernelIdeal.Gen Cert.Spec

section Generic
variable {F : FTy → Type} [FloatOps F]

theorem hz3B : (![0, 0, 0] : Fin 3 → ℕ) = fun _ => 0 := by
  funext a
  match a with
  | ⟨0, _⟩ => rfl
  | ⟨1, _⟩ => rfl
  | ⟨2, _⟩ => rfl

theorem hz2B : (![0, 0] : Fin 2 → ℕ) = fun _ => 0 := by
  funext a
  match a with
  | ⟨0, _⟩ => rfl
  | ⟨1, _⟩ => rfl

/-- The case's run writes the carried-state buffer once: slice dn receives the new carried state computed from the loads. -/
theorem runB_LC (c : Dev nD) (i : grid0.Coords) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1x1024 .f32) (harg11 : arg11.IsWhole) (hc1 : ¬cond1 i) (hc2 : ¬cond2 i)
    (x0 : Vec F S1x1024x1024 .f32) (x1 x2 x3 : Vec F S1024x1024 .bf16) (x4 : Vec F S1x1024 .f32) (x5 : Vec F S1024x1024 .bf16) (x9 : Vec F S1x1024x1024 .f32) (xa : Vec F S1024x1024 .f32) (xc : Vec F S1x1024 .f32) :
    (runB c i arg3 harg3 arg4 harg4 arg5 harg5 arg6 harg6 arg7 harg7 arg8 harg8 arg9 harg9 arg10 harg10 arg11 harg11 hc1 hc2 x0 x1 x2 x3 x4 x5 x9 xa xc).2.1
      = [(⟨Rect.unit (s := S1x1024) (k0_off2 i) S1x128.size (k0_off2_inb i),
          carryNew (BitVec.ofNat 32 (i 1).val) x0 (View.ld x1 (Rect.unit (s := S1024x1024) (k0_off1 i) S128x1024.size (k0_off1_inb i))) (View.ld x2 (Rect.unit (s := S1024x1024) (k0_off1 i) S128x1024.size (k0_off1_inb i))) (View.ld x4 (Rect.unit (s := S1x1024) (k0_off2 i) S1x128.size (k0_off2_inb i))) (View.ld xc (Rect.unit (s := S1x1024) (k0_off2 i) S1x128.size (k0_off2_inb i)))⟩ : View.Piece (Elt F) S1x1024 .f32)] := by
  unfold runB
  dsimp only
  sl_unfold_words
  simp only [View.readAt_eq_ld, Memref.IsWhole.read_unread, View.ld_unit_zero (S := S1x1024x1024) hz3B, View.ld_unit_zero (S := S1024x1024) hz2B]
  rfl

/-- The case's run writes the accumulator once, whole: what it held plus the gated state's product with the output
    matrix's slice. -/
theorem runB_LA (c : Dev nD) (i : grid0.Coords) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1x1024 .f32) (harg11 : arg11.IsWhole) (hc1 : ¬cond1 i) (hc2 : ¬cond2 i)
    (x0 : Vec F S1x1024x1024 .f32) (x1 x2 x3 : Vec F S1024x1024 .bf16) (x4 : Vec F S1x1024 .f32) (x5 : Vec F S1024x1024 .bf16) (x9 : Vec F S1x1024x1024 .f32) (xa : Vec F S1024x1024 .f32) (xc : Vec F S1x1024 .f32) :
    (runB c i arg3 harg3 arg4 harg4 arg5 harg5 arg6 harg6 arg7 harg7 arg8 harg8 arg9 harg9 arg10 harg10 arg11 harg11 hc1 hc2 x0 x1 x2 x3 x4 x5 x9 xa xc).1
      = [(⟨Rect.unit (s := S1024x1024) ![0, 0] S1024x1024.size inb_S1024x1024_S1024x1024_0_0,
          accNew (hO (BitVec.ofNat 32 (i 1).val) x0 (View.ld x1 (Rect.unit (s := S1024x1024) (k0_off1 i) S128x1024.size (k0_off1_inb i))) (View.ld x2 (Rect.unit (s := S1024x1024) (k0_off1 i) S128x1024.size (k0_off1_inb i))) (View.ld x3 (Rect.unit (s := S1024x1024) (k0_off1 i) S128x1024.size (k0_off1_inb i))) (View.ld x4 (Rect.unit (s := S1x1024) (k0_off2 i) S1x128.size (k0_off2_inb i))) (View.ld xc (Rect.unit (s := S1x1024) (k0_off2 i) S1x128.size (k0_off2_inb i)))) (View.ld x5 (Rect.unit (s := S1024x1024) (k0_off3 i) S1024x128.size (k0_off3_inb i))) xa⟩ : View.Piece (Elt F) S1024x1024 .f32)] := by
  unfold runB
  dsimp only
  sl_unfold_words
  simp only [View.readAt_eq_ld, Memref.IsWhole.read_unread, View.ld_unit_zero (S := S1x1024x1024) hz3B, View.ld_unit_zero (S := S1024x1024) hz2B]
  rfl

end Generic

variable (m : (ℓ : Loc nD τ sig) → Buf (Elt Ideal) ℓ) (c : Dev nD)

/-- The carried-in slice the body loads satisfies what the chunk-plus-carry law asks of it. -/
theorem carryOK_ldB (t : Fin cfg0.N) (dc : Vec Ideal S1x1024 .f32)
    (hK : 0 < t.val → Known (Xa m c) (WgA m c) (BsA m c) (t.val - 1) dc) :
    CarryOK (Xa m c) (WgA m c) (BsA m c) (bOf t) (tnOf t) (dnOf t) (ldCarry t dc) := by
  by_cases h0 : (tnOf t).val = 0
  · exact carryOK_first (Xa m c) (WgA m c) (BsA m c) t h0 (ldCarry t dc)
  · exact carryOK_of_known (Xa m c) (WgA m c) (BsA m c) t dc hK (ldCarry t dc) (ldCarry_apply t dc)

/-- The accumulator after the case's run. -/
theorem acc_readB (t : Fin cfg0.N) (h1 : ¬cond1 (grid0.coords t)) (h2 : ¬cond2 (grid0.coords t)) (x9 : Vec Ideal S1x1024x1024 .f32) (dc : Vec Ideal S1x1024 .f32)
    (ea : scA.view.ty.Contents (Elt Ideal))
    (hK : 0 < t.val → Known (Xa m c) (WgA m c) (BsA m c) (t.val - 1) dc) :
    scA.view.read (Elt Ideal) (scA.view.writes (Elt Ideal) ea (runB c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _) h1 h2 (iblk m c 0 t) (iblk m c 1 t) (iblk m c 2 t) (iblk m c 3 t) (iblk m c 4 t) (iblk m c 5 t) x9 (accIn m c t) dc).1) = accAt m c t := by
  have hlist := runB_LA (F := Ideal) c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _) h1 h2 (iblk m c 0 t) (iblk m c 1 t) (iblk m c 2 t) (iblk m c 3 t) (iblk m c 4 t) (iblk m c 5 t) x9 (accIn m c t) dc
  refine (congrArg (fun L => scA.view.read (Elt Ideal) (scA.view.writes (Elt Ideal) ea L)) hlist).trans ?_
  funext y
  obtain ⟨r, e, rfl⟩ : ∃ (r e : Fin 1024), y = ix2 r e := ⟨y 0, y 1, eq_ix2 y⟩
  refine (View.read_writes_cons_unit_of_mem scA.view ea inb_S1024x1024_S1024x1024_0_0 _ [] (ix2 r e) (ix2 r e) rfl (fun a => ?_)).trans ?_
  · match a with
    | ⟨0, _⟩ => exact (Nat.zero_add _).symm
    | ⟨1, _⟩ => exact (Nat.zero_add _).symm
  · have key := accNew_spec (Xa m c) (WgA m c) (WoA m c) (BsA m c) (loaded m c t) (carryOK_ldB m c t dc hK) (accIn m c t)
      (fun r e => rfl) r e
    rw [← arg1_eq t] at key
    exact key

/-- The carried-state buffer after the case's run keeps the invariant. -/
theorem carry_readB (t : Fin cfg0.N) (h1 : ¬cond1 (grid0.coords t)) (h2 : ¬cond2 (grid0.coords t)) (x9 : Vec Ideal S1x1024x1024 .f32) (dc : Vec Ideal S1x1024 .f32)
    (ec : scC.view.ty.Contents (Elt Ideal)) (hec : scC.view.read (Elt Ideal) ec = dc)
    (hK : 0 < t.val → Known (Xa m c) (WgA m c) (BsA m c) (t.val - 1) dc) :
    Known (Xa m c) (WgA m c) (BsA m c) t.val
      (scC.view.read (Elt Ideal) (scC.view.writes (Elt Ideal) ec (runB c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _) h1 h2 (iblk m c 0 t) (iblk m c 1 t) (iblk m c 2 t) (iblk m c 3 t) (iblk m c 4 t) (iblk m c 5 t) x9 (accIn m c t) dc).2.1)) := by
  obtain ⟨-, -, o20, o21, -, -⟩ := off_facts t
  have hlist := runB_LC (F := Ideal) c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _) h1 h2 (iblk m c 0 t) (iblk m c 1 t) (iblk m c 2 t) (iblk m c 3 t) (iblk m c 4 t) (iblk m c 5 t) x9 (accIn m c t) dc
  refine known_step (Xa m c) (WgA m c) (BsA m c) t dc _ hK (fun j => ?_) (fun d hd => ?_)
  · refine (congrFun (congrArg (fun L => scC.view.read (Elt Ideal) (scC.view.writes (Elt Ideal) ec L)) hlist)
      (ix2 (0 : Fin 1) (dIdx (dnOf t) j))).trans ?_
    refine (View.read_writes_cons_unit_of_mem scC.view ec (k0_off2_inb (grid0.coords t)) _ []
      (ix2 (0 : Fin 1) (dIdx (dnOf t) j)) (ix2 (0 : Fin 1) j) rfl (fun a => ?_)).trans ?_
    · match a with
      | ⟨0, _⟩ =>
        show (0 : ℕ) = k0_off2 (grid0.coords t) 0 + 0
        omega
      | ⟨1, _⟩ =>
        show 128 * (t.val % 8) + j.val = k0_off2 (grid0.coords t) 1 + j.val
        omega
    · have key := carryNew_spec (Xa m c) (WgA m c) (WoA m c) (BsA m c) (loaded m c t) (carryOK_ldB m c t dc hK) j
      rw [← arg1_eq t] at key
      exact key
  · refine (congrFun (congrArg (fun L => scC.view.read (Elt Ideal) (scC.view.writes (Elt Ideal) ec L)) hlist)
      (ix2 (0 : Fin 1) d)).trans ?_
    refine (View.read_writes_cons_unit_of_not_mem scC.view ec (k0_off2_inb (grid0.coords t)) _ []
      (ix2 (0 : Fin 1) d) rfl (1 : Fin 2) ?_).trans ?_
    · have hdn : (dnOf t).val = t.val % 8 := rfl
      show d.val < k0_off2 (grid0.coords t) 1 ∨ k0_off2 (grid0.coords t) 1 + 128 ≤ d.val
      omega
    · exact congrFun hec (ix2 (0 : Fin 1) d)

end Cert.KernelIdeal.Hand

end
-- ==== Proof.KCaseC.lean ====
/-
  The kernel body's case dn = 7: the accumulator gains the last channel chunk and is copied to the output block. What the case's run leaves, read back on the extended reals: the accumulator is the
  partial channel sum of G over the first 128·(dn + 1) channels; the carried-state buffer, whose slice dn the body
  overwrites with the recurrent state at the chunk's last row, keeps its invariant; the output block is G at the chunk's rows.
-/
import proofs.«111377_j19533511262472_1_alg».proof.Proof.KState
import Idealize.ShloMosaic.Lib.WritesUnit
import Idealize.ShloMosaic.Lib.Writes

set_option maxRecDepth 16384

noncomputable section

namespace Cert.KernelIdeal.Hand

open Idealize.ShloMosaic Idealize.ShloMosaic.TcCoe Idealize.ShloMosaic.ValueIdx Idealize.ShloMosaic.Tactic Idealize.SL.Sem
open Cert.KernelIdeal Cert.KernelIdeal.Gen Cert.Spec

section Generic
variable {F : FTy → Type} [FloatOps F]

theorem hz3C : (![0, 0, 0] : Fin 3 → ℕ) = fun _ => 0 := funext fun a => by
  match a with
  | ⟨0, _⟩ => rfl
  | ⟨1, _⟩ => rfl
  | ⟨2, _⟩ => rfl
theorem hz2C : (![0, 0] : Fin 2 → ℕ) = fun _ => 0 := funext fun a => by
  match a with
  | ⟨0, _⟩ => rfl
  | ⟨1, _⟩ => rfl

/-- The body's slice loads of a gate matrix's block, of a row block (the bias, the carried state) and of the output
    matrix's block, at the offsets the grid point gives. -/
abbrev sWfC (i : grid0.Coords) (x1 : Vec F S1024x1024 .bf16) : Vec F S128x1024 .bf16 :=
  View.ld x1 (Rect.unit (s := S1024x1024) (k0_off1 i) S128x1024.size (k0_off1_inb i))
abbrev sBC (i : grid0.Coords) (x4 : Vec F S1x1024 .f32) : Vec F S1x128 .f32 :=
  View.ld x4 (Rect.unit (s := S1x1024) (k0_off2 i) S1x128.size (k0_off2_inb i))
abbrev sWoC (i : grid0.Coords) (x5 : Vec F S1024x1024 .bf16) : Vec F S1024x128 .bf16 :=
  View.ld x5 (Rect.unit (s := S1024x1024) (k0_off3 i) S1024x128.size (k0_off3_inb i))

/-- The accumulator's new contents: what it held plus the gated state's product with the output matrix's slice. -/
abbrev accPayC (i : grid0.Coords) (x0 : Vec F S1x1024x1024 .f32) (x1 x2 x3 : Vec F S1024x1024 .bf16) (x4 : Vec F S1x1024 .f32) (x5 : Vec F S1024x1024 .bf16) (xa : Vec F S1024x1024 .f32) (xc : Vec F S1x1024 .f32) : FVec F S1024x1024 .f32 :=
  accNew (hO (BitVec.ofNat 32 (i 1).val) x0 (sWfC i x1) (sWfC i x2) (sWfC i x3) (sBC i x4) (sBC i xc)) (sWoC i x5) xa

/-- The case's run writes the accumulator once, whole. -/
theorem runC_acc (c : Dev nD) (i : grid0.Coords) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1x1024 .f32) (harg11 : arg11.IsWhole) (hc1 : ¬cond1 i) (hc2 : cond2 i)
    (x0 : Vec F S1x1024x1024 .f32) (x1 x2 x3 : Vec F S1024x1024 .bf16) (x4 : Vec F S1x1024 .f32) (x5 : Vec F S1024x1024 .bf16) (xa : Vec F S1024x1024 .f32) (xc : Vec F S1x1024 .f32) :
    (runC c i arg3 harg3 arg4 harg4 arg5 harg5 arg6 harg6 arg7 harg7 arg8 harg8 arg9 harg9 arg10 harg10 arg11 harg11 hc1 hc2 x0 x1 x2 x3 x4 x5 xa xc).2.1
      = [(⟨Rect.unit (s := S1024x1024) ![0, 0] S1024x1024.size inb_S1024x1024_S1024x1024_0_0, accPayC i x0 x1 x2 x3 x4 x5 xa xc⟩ : View.Piece (Elt F) S1024x1024 .f32)] := by
  unfold runC
  dsimp only
  sl_unfold_words
  simp only [View.readAt_eq_ld, Memref.IsWhole.read_unread, View.ld_unit_zero (S := S1x1024x1024) hz3C, View.ld_unit_zero (S := S1024x1024) hz2C]
  rfl

/-- The case's run writes the carried-state buffer once: slice dn receives the new carried state. -/
theorem runC_carry (c : Dev nD) (i : grid0.Coords) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1x1024 .f32) (harg11 : arg11.IsWhole) (hc1 : ¬cond1 i) (hc2 : cond2 i)
    (x0 : Vec F S1x1024x1024 .f32) (x1 x2 x3 : Vec F S1024x1024 .bf16) (x4 : Vec F S1x1024 .f32) (x5 : Vec F S1024x1024 .bf16) (xa : Vec F S1024x1024 .f32) (xc : Vec F S1x1024 .f32) :
    (runC c i arg3 harg3 arg4 harg4 arg5 harg5 arg6 harg6 arg7 harg7 arg8 harg8 arg9 harg9 arg10 harg10 arg11 harg11 hc1 hc2 x0 x1 x2 x3 x4 x5 xa xc).2.2.1
      = [(⟨Rect.unit (s := S1x1024) (k0_off2 i) S1x128.size (k0_off2_inb i), carryNew (BitVec.ofNat 32 (i 1).val) x0 (sWfC i x1) (sWfC i x2) (sBC i x4) (sBC i xc)⟩ : View.Piece (Elt F) S1x1024 .f32)] := by
  unfold runC
  dsimp only
  sl_unfold_words
  simp only [View.readAt_eq_ld, Memref.IsWhole.read_unread, View.ld_unit_zero (S := S1x1024x1024) hz3C, View.ld_unit_zero (S := S1024x1024) hz2C]
  rfl

/-- The case's run writes the output block once, whole: the new accumulator, reshaped. -/
theorem runC_out (c : Dev nD) (i : grid0.Coords) (arg3 : Memref sig .tc .vmem S1x1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024x1024 .f32) (harg9 : arg9.IsWhole) (arg10 : Memref sig .tc .vmem S1024x1024 .f32) (harg10 : arg10.IsWhole) (arg11 : Memref sig .tc .vmem S1x1024 .f32) (harg11 : arg11.IsWhole) (hc1 : ¬cond1 i) (hc2 : cond2 i)
    (x0 : Vec F S1x1024x1024 .f32) (x1 x2 x3 : Vec F S1024x1024 .bf16) (x4 : Vec F S1x1024 .f32) (x5 : Vec F S1024x1024 .bf16) (xa : Vec F S1024x1024 .f32) (xc : Vec F S1x1024 .f32) :
    (runC c i arg3 harg3 arg4 harg4 arg5 harg5 arg6 harg6 arg7 harg7 arg8 harg8 arg9 harg9 arg10 harg10 arg11 harg11 hc1 hc2 x0 x1 x2 x3 x4 x5 xa xc).1
      = [(⟨Rect.unit (s := S1x1024x1024) ![0, 0, 0] S1x1024x1024.size inb_S1x1024x1024_S1x1024x1024_0_0_0, k0_pay3 (accPayC i x0 x1 x2 x3 x4 x5 xa xc)⟩ : View.Piece (Elt F) S1x1024x1024 .f32)] := by
  unfold runC
  dsimp only
  sl_unfold_words
  simp only [View.readAt_eq_ld, Memref.IsWhole.read_unread, View.ld_unit_zero (S := S1x1024x1024) hz3C, View.ld_unit_zero (S := S1024x1024) hz2C, View.readCov_unit_zero (S := S1024x1024) _ hz2C]
  rfl
end Generic

variable (m : (ℓ : Loc nD τ sig) → Buf (Elt Ideal) ℓ) (c : Dev nD)

/-- The carried-in slice the point loads is what the chunk-plus-carry law asks. -/
theorem carryOK_atC (t : Fin cfg0.N) (dc : Vec Ideal S1x1024 .f32)
    (hK : 0 < t.val → Known (Xa m c) (WgA m c) (BsA m c) (t.val - 1) dc) :
    CarryOK (Xa m c) (WgA m c) (BsA m c) (bOf t) (tnOf t) (dnOf t) (ldCarry t dc) :=
  carryOK_of_known (Xa m c) (WgA m c) (BsA m c) t dc hK (ldCarry t dc) (ldCarry_apply t dc)

/-- The accumulator's new contents at (r, e): the partial channel sum of G over the first 128·(dn + 1) channels. -/
theorem accPayC_spec (t : Fin cfg0.N) (dc : Vec Ideal S1x1024 .f32)
    (hK : 0 < t.val → Known (Xa m c) (WgA m c) (BsA m c) (t.val - 1) dc) (r e : Fin 1024) :
    (accPayC (grid0.coords t) (iblk m c 0 t) (iblk m c 1 t) (iblk m c 2 t) (iblk m c 3 t) (iblk m c 4 t) (iblk m c 5 t) (accIn m c t) dc (ix2 r e) : EReal)
      = accSpec (Xa m c) (WgA m c) (WoA m c) (BsA m c) (bOf t) (tnOf t) (128 * ((dnOf t).val + 1)) r e := by
  have h := accNew_spec (Xa m c) (WgA m c) (WoA m c) (BsA m c) (loaded m c t) (carryOK_atC m c t dc hK) (accIn m c t)
    (fun _ _ => rfl) r e
  rw [← arg1_eq t] at h
  exact h

/-- The new carried slice at channel j: the recurrent state at the chunk's last row. -/
theorem carryPayC_spec (t : Fin cfg0.N) (dc : Vec Ideal S1x1024 .f32)
    (hK : 0 < t.val → Known (Xa m c) (WgA m c) (BsA m c) (t.val - 1) dc) (j : Fin 128) :
    (carryNew (BitVec.ofNat 32 ((grid0.coords t) 1).val) (iblk m c 0 t) (sWfC (grid0.coords t) (iblk m c 1 t)) (sWfC (grid0.coords t) (iblk m c 2 t))
        (sBC (grid0.coords t) (iblk m c 4 t)) (sBC (grid0.coords t) dc) (ix2 (0 : Fin 1) j) : EReal)
      = carrySlice (Xa m c) (WgA m c) (BsA m c) t j := by
  have h := carryNew_spec (Xa m c) (WgA m c) (WoA m c) (BsA m c) (loaded m c t) (carryOK_atC m c t dc hK) j
  rw [← arg1_eq t] at h
  exact h

/-- The accumulator after the case's run. -/
theorem acc_readC (t : Fin cfg0.N) (h1 : ¬cond1 (grid0.coords t)) (h2 : cond2 (grid0.coords t)) (dc : Vec Ideal S1x1024 .f32)
    (ea : scA.view.ty.Contents (Elt Ideal))
    (hK : 0 < t.val → Known (Xa m c) (WgA m c) (BsA m c) (t.val - 1) dc) :
    scA.view.read (Elt Ideal) (scA.view.writes (Elt Ideal) ea (runC c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _) h1 h2 (iblk m c 0 t) (iblk m c 1 t) (iblk m c 2 t) (iblk m c 3 t) (iblk m c 4 t) (iblk m c 5 t) (accIn m c t) dc).2.1) = accAt m c t := by
  refine (congrArg (fun L => scA.view.read (Elt Ideal) (scA.view.writes (Elt Ideal) ea L))
    (runC_acc (F := Ideal) c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _) h1 h2 (iblk m c 0 t) (iblk m c 1 t) (iblk m c 2 t) (iblk m c 3 t) (iblk m c 4 t) (iblk m c 5 t) (accIn m c t) dc)).trans ?_
  funext y
  obtain ⟨r, e, rfl⟩ : ∃ (r e : Fin 1024), y = ix2 r e := ⟨y 0, y 1, eq_ix2 y⟩
  refine (View.read_writes_cons_unit_of_mem scA.view ea inb_S1024x1024_S1024x1024_0_0
    (accPayC (grid0.coords t) (iblk m c 0 t) (iblk m c 1 t) (iblk m c 2 t) (iblk m c 3 t) (iblk m c 4 t) (iblk m c 5 t) (accIn m c t) dc) [] (ix2 r e) (ix2 r e) rfl ?_).trans ?_
  · intro a
    match a with
    | ⟨0, _⟩ => show r.val = 0 + r.val; omega
    | ⟨1, _⟩ => show e.val = 0 + e.val; omega
  · exact accPayC_spec m c t dc hK r e

/-- The carried-state buffer after the case's run keeps the invariant. -/
theorem carry_readC (t : Fin cfg0.N) (h1 : ¬cond1 (grid0.coords t)) (h2 : cond2 (grid0.coords t)) (dc : Vec Ideal S1x1024 .f32)
    (ec : scC.view.ty.Contents (Elt Ideal)) (hec : scC.view.read (Elt Ideal) ec = dc)
    (hK : 0 < t.val → Known (Xa m c) (WgA m c) (BsA m c) (t.val - 1) dc) :
    Known (Xa m c) (WgA m c) (BsA m c) t.val
      (scC.view.read (Elt Ideal) (scC.view.writes (Elt Ideal) ec (runC c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _) h1 h2 (iblk m c 0 t) (iblk m c 1 t) (iblk m c 2 t) (iblk m c 3 t) (iblk m c 4 t) (iblk m c 5 t) (accIn m c t) dc).2.2.1)) := by
  rw [runC_carry (F := Ideal) c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _) h1 h2 (iblk m c 0 t) (iblk m c 1 t) (iblk m c 2 t) (iblk m c 3 t) (iblk m c 4 t) (iblk m c 5 t) (accIn m c t) dc]
  obtain ⟨-, -, o20, o21, -, -⟩ := off_facts t
  refine known_step (Xa m c) (WgA m c) (BsA m c) t dc _ hK ?_ ?_
  · intro j
    refine (View.read_writes_cons_unit_of_mem scC.view ec (k0_off2_inb (grid0.coords t))
      (carryNew (BitVec.ofNat 32 ((grid0.coords t) 1).val) (iblk m c 0 t) (sWfC (grid0.coords t) (iblk m c 1 t)) (sWfC (grid0.coords t) (iblk m c 2 t))
        (sBC (grid0.coords t) (iblk m c 4 t)) (sBC (grid0.coords t) dc)) [] (ix2 (0 : Fin 1) (dIdx (dnOf t) j)) (ix2 (0 : Fin 1) j) rfl ?_).trans ?_
    · intro a
      match a with
      | ⟨0, _⟩ => show (0 : ℕ) = k0_off2 (grid0.coords t) 0 + 0; omega
      | ⟨1, _⟩ => show 128 * (t.val % 8) + j.val = k0_off2 (grid0.coords t) 1 + j.val; omega
    · exact carryPayC_spec m c t dc hK j
  · intro d hd
    have hd' : d.val / 128 ≠ t.val % 8 := hd
    refine (View.read_writes_cons_unit_of_not_mem scC.view ec (k0_off2_inb (grid0.coords t))
      (carryNew (BitVec.ofNat 32 ((grid0.coords t) 1).val) (iblk m c 0 t) (sWfC (grid0.coords t) (iblk m c 1 t)) (sWfC (grid0.coords t) (iblk m c 2 t))
        (sBC (grid0.coords t) (iblk m c 4 t)) (sBC (grid0.coords t) dc)) [] (ix2 (0 : Fin 1) d) rfl (1 : Fin 2) ?_).trans ?_
    · show d.val < k0_off2 (grid0.coords t) 1 ∨ k0_off2 (grid0.coords t) 1 + 128 ≤ d.val
      omega
    · exact congrFun hec (ix2 (0 : Fin 1) d)

/-- The output block after the case's run. -/
theorem out_readC (t : Fin cfg0.N) (h1 : ¬cond1 (grid0.coords t)) (h2 : cond2 (grid0.coords t)) (dc : Vec Ideal S1x1024 .f32)
    (e6 : (ms6 t).view.ty.Contents (Elt Ideal))
    (hK : 0 < t.val → Known (Xa m c) (WgA m c) (BsA m c) (t.val - 1) dc) :
    (ms6 t).view.read (Elt Ideal) ((ms6 t).view.writes (Elt Ideal) e6 (runC c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _) h1 h2 (iblk m c 0 t) (iblk m c 1 t) (iblk m c 2 t) (iblk m c 3 t) (iblk m c 4 t) (iblk m c 5 t) (accIn m c t) dc).1) = outAt m c t := by
  refine (congrArg (fun L => (ms6 t).view.read (Elt Ideal) ((ms6 t).view.writes (Elt Ideal) e6 L))
    (runC_out (F := Ideal) c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _) h1 h2 (iblk m c 0 t) (iblk m c 1 t) (iblk m c 2 t) (iblk m c 3 t) (iblk m c 4 t) (iblk m c 5 t) (accIn m c t) dc)).trans ?_
  have h7 : (dnOf t).val = 7 := (hcond2 t).mp h2
  funext y
  obtain ⟨z, r, e, rfl⟩ : ∃ (z : Fin 1) (r e : Fin 1024), y = ix3 z r e := ⟨y 0, y 1, y 2, eq_ix3 y⟩
  obtain rfl : z = 0 := Subsingleton.elim _ _
  refine (View.read_writes_cons_unit_of_mem (ms6 t).view e6 inb_S1x1024x1024_S1x1024x1024_0_0_0
    (k0_pay3 (accPayC (grid0.coords t) (iblk m c 0 t) (iblk m c 1 t) (iblk m c 2 t) (iblk m c 3 t) (iblk m c 4 t) (iblk m c 5 t) (accIn m c t) dc)) [] (ix3 (0 : Fin 1) r e) (ix3 (0 : Fin 1) r e) rfl ?_).trans ?_
  · intro a
    match a with
    | ⟨0, _⟩ => show (0 : ℕ) = 0 + 0; omega
    | ⟨1, _⟩ => show r.val = 0 + r.val; omega
    | ⟨2, _⟩ => show e.val = 0 + e.val; omega
  · refine (pay3_apply (accPayC (grid0.coords t) (iblk m c 0 t) (iblk m c 1 t) (iblk m c 2 t) (iblk m c 3 t) (iblk m c 4 t) (iblk m c 5 t) (accIn m c t) dc) r e).trans ?_
    refine (accPayC_spec m c t dc hK r e).trans ?_
    rw [h7]
    exact accSpec_full (Xa m c) (WgA m c) (WoA m c) (BsA m c) (bOf t) (tnOf t) r e

end Cert.KernelIdeal.Hand

end
-- ==== Proof.KFinal.lean ====
/-
  From blocks to the output array. The output window's block at grid point (b, tn, dn) is rows
  1024·tn … 1024·tn + 1023 of batch b, written back at the points with dn = 7. If at each of those points the body
  leaves the block of one function G of the whole index, then, those 16 blocks covering the array, the array ends
  holding G.
-/
import proofs.«111377_j19533511262472_1_alg».proof.Proof.KBlocks
import Idealize.ShloMosaic.Lib.Pipeline.Value
import Idealize.ShloMosaic.Lib.Pipeline.Frame

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen

variable {F : FTy → Type} [FloatOps F]

/-- The output window's block index at point `t`, at every point of the grid: batch t / 32, time chunk (t / 8) mod 4, and the one
    channel block. -/
theorem outIdx_facts : ∀ t : Fin cfg0.N, win0_6.index t (0 : Fin 3) = t.val / 32
    ∧ win0_6.index t (1 : Fin 3) = (t.val / 8) % 4
    ∧ win0_6.index t (2 : Fin 3) = 0 :=
  (by decide +kernel : ∀ t : Fin grid0.N, _)

/-- What a write-back point writes back is its block of `G`: the block's element (0, r, e) sits in the array at
    (t / 32, 1024 · ((t / 8) mod 4) + r, e). -/
theorem outFlushed_eq {c : Dev nD} (dat : Dat τ (Elt F) Unit ℕ (UR sig nD τ) ℕ cfg0 c) (G : S4x4096x1024.Idx → Elt F .f32)
    (hafter : ∀ t : Fin cfg0.N, (cfg0.win 6).flush t = true → ∀ (r e : Fin 1024),
      dat.after 6 t (ix3 (0 : Fin 1) r e)
        = G (ix3 (bOf t) (⟨1024 * (tnOf t).val + r.val, by have := (tnOf t).isLt; omega⟩ : Fin 4096) e))
    (t : Fin cfg0.N) (hf : (cfg0.win 6).flush t = true) :
    dat.flushed 6 t = ((cfg0.win 6).blk t).view.read (Elt F) G := by
  show (cfg0.win 6).cut (grid0.coords t) (dat.after 6 t) = _
  obtain ⟨e0, e1, e2⟩ := outIdx_facts t
  funext j
  obtain ⟨z, r, e, rfl⟩ : ∃ (z : Fin 1) (r e : Fin 1024), j = ix3 z r e := ⟨j 0, j 1, j 2, eq_ix3 j⟩
  obtain rfl : z = 0 := Subsingleton.elim _ _
  show dat.after 6 t (ix3 (0 : Fin 1) r e) = G (((cfg0.win 6).blk t).view.emb (ix3 (0 : Fin 1) r e))
  rw [hafter t hf r e]
  congr 1
  funext a
  apply Fin.ext
  match a with
  | ⟨0, _⟩ => show (bOf t).val = win0_6.index t (0 : Fin 3) * 1 + 1 * 0; rw [e0]; show t.val / 32 = _; omega
  | ⟨1, _⟩ => show 1024 * (tnOf t).val + r.val = win0_6.index t (1 : Fin 3) * 1024 + 1 * r.val; rw [e1]; show 1024 * ((t.val / 8) % 4) + r.val = _; omega
  | ⟨2, _⟩ => show e.val = win0_6.index t (2 : Fin 3) * 1024 + 1 * e.val; rw [e2]; omega

/-- An index of the array is in point `t`'s block iff each coordinate is in the block's range on its axis. -/
theorem mem_outBlk (t : Fin cfg0.N) (i : S4x4096x1024.Idx) :
    i ∈ ((cfg0.win 6).blk t).view.set ↔ ∀ a : Fin 3, win0_6.index t a * S1x1024x1024.size a ≤ (i a).val
      ∧ (i a).val < win0_6.index t a * S1x1024x1024.size a + S1x1024x1024.size a := by
  show i ∈ ((View.whole main_v32).slice (win0_6.rect t)).set ↔ _
  rw [View.set_slice_whole, Rect.mem_set_unit]
  exact Iff.rfl

/-- Every index (b, tt, e) of the array is in the block of the write-back point 32·b + 8·(tt / 1024) + 7. -/
theorem out_cover (i : S4x4096x1024.Idx) :
    ∃ t : Fin cfg0.N, (cfg0.win 6).flush t = true ∧ i ∈ ((cfg0.win 6).blk t).view.set := by
  have h0 : (i 0).val < 4 := (i 0).isLt
  have h1 : (i 1).val < 4096 := (i 1).isLt
  have h2 : (i 2).val < 1024 := (i 2).isLt
  have hN : cfg0.N = 128 := N_0
  obtain ⟨t, ht⟩ : ∃ t : Fin cfg0.N, t.val = 32 * (i 0).val + 8 * ((i 1).val / 1024) + 7 :=
    ⟨⟨32 * (i 0).val + 8 * ((i 1).val / 1024) + 7, by omega⟩, rfl⟩
  obtain ⟨e0, e1, e2⟩ := outIdx_facts t
  refine ⟨t, (flush0_6 t).mpr (by omega), ?_⟩
  rw [mem_outBlk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 1024 ≤ (i 2).val ∧ (i 2).val < win0_6.index t (2 : Fin 3) * 1024 + 1024; omega

/-- The output array after the run is `G`, for any proof data whose output block at every write-back point is `G`'s. -/
theorem final6 {c : Dev nD} (dat : Dat τ (Elt F) Unit ℕ (UR sig nD τ) ℕ cfg0 c) (G : S4x4096x1024.Idx → Elt F .f32)
    (hafter : ∀ t : Fin cfg0.N, (cfg0.win 6).flush t = true → ∀ (r e : Fin 1024),
      dat.after 6 t (ix3 (0 : Fin 1) r e)
        = G (ix3 (bOf t) (⟨1024 * (tnOf t).val + r.val, by have := (tnOf t).isLt; omega⟩ : Fin 4096) e)) :
    (dat.arrAt 6 cfg0.N : S4x4096x1024.Idx → Elt F .f32) = G :=
  dat.arrAt_eq_of_cover 6 G (fun t hf => outFlushed_eq dat G hafter t hf) out_cover

end Cert.KernelIdeal.Hand

end
-- ==== Proof.KDat.lean ====
/-
  The kernel's run on the extended reals with everything it keeps between grid points named. Before point 0 the two
  scratch buffers hold anything; after point n the accumulator holds the partial channel sum of G in closed form, and
  the carried-state buffer holds SOME contents whose slices written by the last eight points are the recurrent state at
  those points' last rows (the slices never written yet are never used: at the first time chunk the body replaces the
  slice it loads by zero). The output block is named at the points that write it back (dn = 7) and is handed back
  untouched elsewhere. Each point's obligation is its control case's run with the case's read-back lemmas.
-/
import proofs.«111377_j19533511262472_1_alg».proof.Proof.KState
import proofs.«111377_j19533511262472_1_alg».proof.Proof.KCaseA
import proofs.«111377_j19533511262472_1_alg».proof.Proof.KCaseB
import proofs.«111377_j19533511262472_1_alg».proof.Proof.KCaseC
import proofs.«111377_j19533511262472_1_alg».proof.Proof.KFinal
import proofs.«111377_j19533511262472_1_alg».proof.Proof.Gen.KernelIdeal.Frame

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Spec

local notation "𝕄" => MT nD τ sig Unit (Elt Ideal) ℕ (UR sig nD τ) ℕ

variable (m : (ℓ : Loc nD τ sig) → Buf (Elt Ideal) ℓ) (ρ : Dev nD → PrngReg)

/-- The region's invariant with the two scratch operands as memrefs owned at some contents. -/
theorem PhiA_eqV (c : Dev nD) :
    (Pipeline.ΦA spec0 c : sProp 𝕄)
      = iprop(iprop((∃ d, owns (c : Thread nD τ) scA fullShare d) ∗ (∃ d, owns (c : Thread nD τ) scC fullShare d)) ∗ (∃ r, prngReg c r)) := by
  unfold Pipeline.ΦA; rw [scopedRest0_eq]; simp only [scA, scC, owns_whole]; try rfl

/-- The input windows are never idle; the output window is idle and not written back except at dn = 7. -/
theorem liveV0 : ∀ t : Fin cfg0.N, cfg0.idle 0 (grid0.coords t) = false := by decide +kernel
theorem liveV1 : ∀ t : Fin cfg0.N, cfg0.idle 1 (grid0.coords t) = false := by decide +kernel
theorem liveV2 : ∀ t : Fin cfg0.N, cfg0.idle 2 (grid0.coords t) = false := by decide +kernel
theorem liveV3 : ∀ t : Fin cfg0.N, cfg0.idle 3 (grid0.coords t) = false := by decide +kernel
theorem liveV4 : ∀ t : Fin cfg0.N, cfg0.idle 4 (grid0.coords t) = false := by decide +kernel
theorem liveV5 : ∀ t : Fin cfg0.N, cfg0.idle 5 (grid0.coords t) = false := by decide +kernel
theorem live6 : ∀ t : Fin cfg0.N, t.val % 8 = 7 → cfg0.idle 6 (grid0.coords t) = false := by decide +kernel
theorem idle6 : ∀ t : Fin cfg0.N, ¬ t.val % 8 = 7 → cfg0.idle 6 (grid0.coords t) = true := by decide +kernel
theorem noflush6 : ∀ t : Fin cfg0.N, ¬ t.val % 8 = 7 → (cfg0.win 6).flush t = false := by decide +kernel

/-- The invariant before position `n`. -/
def PhiV (c : Dev nD) : (n : ℕ) → n ≤ cfg0.N → sProp 𝕄
  | 0, _ => Pipeline.ΦA spec0 c
  | n + 1, hn => iprop(iprop(owns (c : Thread nD τ) scA fullShare (accAt m c ⟨n, hn⟩)
      ∗ (∃ C, ⌜Known (Xa m c) (WgA m c) (BsA m c) n C⌝ ∗ owns (c : Thread nD τ) scC fullShare C)) ∗ (∃ r, prngReg c r))

theorem PhiV_zero (c : Dev nD) (n : ℕ) (h : n ≤ cfg0.N) (hz : n = 0) : PhiV m c n h = Pipeline.ΦA spec0 c := by
  subst hz; rfl
theorem PhiV_succ (c : Dev nD) (n : ℕ) (hn : n < cfg0.N) :
    PhiV m c (n + 1) hn = iprop(iprop(owns (c : Thread nD τ) scA fullShare (accAt m c ⟨n, hn⟩)
      ∗ (∃ C, ⌜Known (Xa m c) (WgA m c) (BsA m c) n C⌝ ∗ owns (c : Thread nD τ) scC fullShare C)) ∗ (∃ r, prngReg c r)) := rfl
theorem PhiV_pos (c : Dev nD) (n : ℕ) (h : n ≤ cfg0.N) (hz : n ≠ 0) :
    PhiV m c n h = iprop(iprop(owns (c : Thread nD τ) scA fullShare (accAt m c ⟨n - 1, by omega⟩)
      ∗ (∃ C, ⌜Known (Xa m c) (WgA m c) (BsA m c) (n - 1) C⌝ ∗ owns (c : Thread nD τ) scC fullShare C)) ∗ (∃ r, prngReg c r)) := by
  cases n with
  | zero => exact absurd rfl hz
  | succ n => rfl

/-- The proof data: the arrays as the region finds them; after the body each input's buffer at its block and the
    output's at `outAt`; the invariant `PhiV`; nothing owed; full shares. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiV m c t.val (Nat.le_of_lt_succ t.isLt)
  q _ := fullShare
  owed _ := 0

theorem AV_eq (c : Dev nD) (w : Fin cfg0.W) : (datsV m 0 c).A w = V m c (Pipeline.arrRef spec0 w) := by
  dsimp only [datsV]
theorem PhiV_castSucc (c : Dev nD) (t : Fin cfg0.N) :
    (datsV m 0 c).Φ t.castSucc = PhiV m c t.val (Nat.le_of_lt t.isLt) := by
  dsimp only [datsV]; simp only [Fin.coe_castSucc]

theorem afterV0 (c : Dev nD) (t : Fin cfg0.N) : (datsV m 0 c).after 0 t = iblk m c 0 t := by dsimp only [datsV]
theorem afterV1 (c : Dev nD) (t : Fin cfg0.N) : (datsV m 0 c).after 1 t = iblk m c 1 t := by dsimp only [datsV]
theorem afterV2 (c : Dev nD) (t : Fin cfg0.N) : (datsV m 0 c).after 2 t = iblk m c 2 t := by dsimp only [datsV]
theorem afterV3 (c : Dev nD) (t : Fin cfg0.N) : (datsV m 0 c).after 3 t = iblk m c 3 t := by dsimp only [datsV]
theorem afterV4 (c : Dev nD) (t : Fin cfg0.N) : (datsV m 0 c).after 4 t = iblk m c 4 t := by dsimp only [datsV]
theorem afterV5 (c : Dev nD) (t : Fin cfg0.N) : (datsV m 0 c).after 5 t = iblk m c 5 t := by dsimp only [datsV]
theorem afterV6 (c : Dev nD) (t : Fin cfg0.N) : (datsV m 0 c).after 6 t = outAt m c t := by dsimp only [datsV]

theorem beforeV0 (c : Dev nD) (t : Fin cfg0.N) (d) : (datsV m 0 c).before 0 t d = iblk m c 0 t :=
  before0_0_of m (datsV m 0 c) (AV_eq m c 0) (afterV0 m c) t d
theorem beforeV1 (c : Dev nD) (t : Fin cfg0.N) (d) : (datsV m 0 c).before 1 t d = iblk m c 1 t :=
  before0_1_of m (datsV m 0 c) (AV_eq m c 1) (afterV1 m c) t d
theorem beforeV2 (c : Dev nD) (t : Fin cfg0.N) (d) : (datsV m 0 c).before 2 t d = iblk m c 2 t :=
  before0_2_of m (datsV m 0 c) (AV_eq m c 2) (afterV2 m c) t d
theorem beforeV3 (c : Dev nD) (t : Fin cfg0.N) (d) : (datsV m 0 c).before 3 t d = iblk m c 3 t :=
  before0_3_of m (datsV m 0 c) (AV_eq m c 3) (afterV3 m c) t d
theorem beforeV4 (c : Dev nD) (t : Fin cfg0.N) (d) : (datsV m 0 c).before 4 t d = iblk m c 4 t :=
  before0_4_of m (datsV m 0 c) (AV_eq m c 4) (afterV4 m c) t d
theorem beforeV5 (c : Dev nD) (t : Fin cfg0.N) (d) : (datsV m 0 c).before 5 t d = iblk m c 5 t :=
  before0_5_of m (datsV m 0 c) (AV_eq m c 5) (afterV5 m c) t d

/-- The invariant at a point's start, opened: the accumulator at some contents — the partial sum over the chunks
    before, past the first channel chunk — and the carried-state buffer at some contents with the invariant of the
    point before, past the first point. -/
theorem PhiV_open (c : Dev nD) (t : Fin cfg0.N) :
    (datsV m 0 c).Φ t.castSucc ⊢ (iprop(∃ da dc, ⌜(0 < t.val → Known (Xa m c) (WgA m c) (BsA m c) (t.val - 1) dc) ∧ (t.val % 8 ≠ 0 → da = accIn m c t)⌝
        ∗ owns (c : Thread nD τ) scA fullShare da ∗ owns (c : Thread nD τ) scC fullShare dc ∗ (∃ r, prngReg c r)) : sProp 𝕄) := by
  rw [PhiV_castSucc m c t]
  by_cases hz : t.val = 0
  · rw [PhiV_zero m c _ _ hz, PhiA_eqV]
    iintro ⟨⟨⟨%da, HSA⟩, ⟨%dc, HSC⟩⟩, Hg⟩
    iexists da; iexists dc
    isplitr
    · ipureintro; exact ⟨fun h => absurd hz (by omega), fun h => absurd (by rw [hz]) h⟩
    isplitl [HSA]; · iexact HSA
    isplitl [HSC]; · iexact HSC
    iexact Hg
  · rw [PhiV_pos m c _ _ hz]
    iintro ⟨⟨HSA, ⟨%dc, %hKc, HSC⟩⟩, Hg⟩
    iexists _; iexists dc
    isplitr
    · ipureintro; exact ⟨fun _ => hKc, fun h => (accIn_eq_accAt_pred m c t h).symm⟩
    isplitl [HSA]; · iexact HSA
    isplitl [HSC]; · iexact HSC
    iexact Hg

/-- What the body is called with at point `t`, -/
def bodyPreV (c : Dev nD) (t : Fin cfg0.N) : sProp 𝕄 :=
  iprop((datsV m 0 c).Φ t.castSucc ∗ (datsV m 0 c).owesAt () t.castSucc
    ∗ (∃ d, owns (c : Thread nD τ) (ms0 t) fullShare ((datsV m 0 c).before 0 t d))
    ∗ (∃ d, owns (c : Thread nD τ) (ms1 t) fullShare ((datsV m 0 c).before 1 t d))
    ∗ (∃ d, owns (c : Thread nD τ) (ms2 t) fullShare ((datsV m 0 c).before 2 t d))
    ∗ (∃ d, owns (c : Thread nD τ) (ms3 t) fullShare ((datsV m 0 c).before 3 t d))
    ∗ (∃ d, owns (c : Thread nD τ) (ms4 t) fullShare ((datsV m 0 c).before 4 t d))
    ∗ (∃ d, owns (c : Thread nD τ) (ms5 t) fullShare ((datsV m 0 c).before 5 t d))
    ∗ (∃ d, owns (c : Thread nD τ) (ms6 t) fullShare ((datsV m 0 c).before 6 t d)))

/-- and what it returns. -/
def bodyPostV (c : Dev nD) (t : Fin cfg0.N) : sProp 𝕄 :=
  iprop((datsV m 0 c).Φ t.succ ∗ (datsV m 0 c).owesAt () t.succ
    ∗ (datsV m 0 c).leavesExact 0 t
    ∗ (datsV m 0 c).leavesExact 1 t
    ∗ (datsV m 0 c).leavesExact 2 t
    ∗ (datsV m 0 c).leavesExact 3 t
    ∗ (datsV m 0 c).leavesExact 4 t
    ∗ (datsV m 0 c).leavesExact 5 t
    ∗ (datsV m 0 c).leavesExact 6 t)

/-- What the body leaves in each input window's buffer is the window's block at the point. -/
theorem leavesV (c : Dev nD) (t : Fin cfg0.N) :
    (datsV m 0 c).leavesExact 0 t = owns (c : Thread nD τ) (ms0 t) fullShare (iblk m c 0 t)
    ∧ (datsV m 0 c).leavesExact 1 t = owns (c : Thread nD τ) (ms1 t) fullShare (iblk m c 1 t)
    ∧ (datsV m 0 c).leavesExact 2 t = owns (c : Thread nD τ) (ms2 t) fullShare (iblk m c 2 t)
    ∧ (datsV m 0 c).leavesExact 3 t = owns (c : Thread nD τ) (ms3 t) fullShare (iblk m c 3 t)
    ∧ (datsV m 0 c).leavesExact 4 t = owns (c : Thread nD τ) (ms4 t) fullShare (iblk m c 4 t)
    ∧ (datsV m 0 c).leavesExact 5 t = owns (c : Thread nD τ) (ms5 t) fullShare (iblk m c 5 t) := by
  refine ⟨?_, ?_, ?_, ?_, ?_, ?_⟩
  · unfold Dat.leavesExact; rw [liveV0 t, afterV0]
  · unfold Dat.leavesExact; rw [liveV1 t, afterV1]
  · unfold Dat.leavesExact; rw [liveV2 t, afterV2]
  · unfold Dat.leavesExact; rw [liveV3 t, afterV3]
  · unfold Dat.leavesExact; rw [liveV4 t, afterV4]
  · unfold Dat.leavesExact; rw [liveV5 t, afterV5]

set_option maxHeartbeats 4000000 in
/-- The body at any point: its control case's run, with the case's read-back lemmas for what it leaves. -/
theorem sound_bodyV (c : Dev nD) (t : Fin cfg0.N) :
    bodyPreV m c t ⊢ wp frame (wpE (defs₀ (F := Ideal)) Variants.none c none) Set.univ (bodyAt0 t) (fun _ => bodyPostV m c t) := by
  unfold bodyPreV bodyPostV bodyAt0
  simp only [beforeV0, beforeV1, beforeV2, beforeV3, beforeV4, beforeV5]
  rw [show (datsV m 0 c).owesAt () t.succ = (datsV m 0 c).owesAt () t.castSucc from rfl]
  rw [show (datsV m 0 c).Φ t.succ = PhiV m c (t.val + 1) t.isLt from rfl, PhiV_succ]
  obtain ⟨e0, e1, e2, e3, e4, e5⟩ := leavesV m c t
  rw [e0, e1, e2, e3, e4, e5]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := (PhiV_open m c t) $$ HΦ
  icases HΦ' with ⟨%da, %dc, %hinv, HSA, HSC, Hg⟩
  by_cases h1 : t.val % 8 = 0
  · have h2 : ¬ t.val % 8 = 7 := by omega
    rw [Dat.leavesExact_idle (datsV m 0 c) 6 t (idle6 t h2) (noflush6 t h2)]
    iapply ((runA c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _)
      ((hcond1 t).mpr h1) (fun h => h2 ((hcond2 t).mp h)) (iblk m c 0 t) (iblk m c 1 t) (iblk m c 2 t) (iblk m c 3 t) (iblk m c 4 t) (iblk m c 5 t) ((datsV m 0 c).before 6 t d6) dc).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HSA]; · iexists _; iexact HSA
    isplitl [HSC]; · iexact HSC
    iintro ⟨H0, H1, H2, H3, H4, H5, H6, ⟨%ea, HSA⟩, ⟨%ec, %hec, HSC⟩⟩
    isplitl [HSA HSC Hg]
    · isplitl [HSA HSC]
      · isplitl [HSA]
        · unfold owns; iexists _; isplitr
          · ipureintro; exact acc_readA m c t ((hcond1 t).mpr h1) (fun h => h2 ((hcond2 t).mp h)) ((datsV m 0 c).before 6 t d6) dc ea hinv.1
          iexact HSA
        · iexists _; isplitr
          · ipureintro; exact carry_readA m c t ((hcond1 t).mpr h1) (fun h => h2 ((hcond2 t).mp h)) ((datsV m 0 c).before 6 t d6) dc ec hec hinv.1
          unfold owns; iexists _; isplitr; · ipureintro; rfl
          iexact HSC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · have hda : da = accIn m c t := hinv.2 h1
    subst hda
    by_cases h2 : t.val % 8 = 7
    · rw [show (datsV m 0 c).leavesExact 6 t = owns (c : Thread nD τ) (ms6 t) fullShare ((datsV m 0 c).after 6 t) from by
        unfold Dat.leavesExact; rw [live6 t h2], afterV6]
      iapply ((runC c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _)
        (fun h => h1 ((hcond1 t).mp h)) ((hcond2 t).mpr h2) (iblk m c 0 t) (iblk m c 1 t) (iblk m c 2 t) (iblk m c 3 t) (iblk m c 4 t) (iblk m c 5 t) (accIn m c t) dc).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HSA]; · iexact HSA
      isplitl [HSC]; · iexact HSC
      iintro ⟨H0, H1, H2, H3, H4, H5, ⟨%e6, H6⟩, ⟨%ea, HSA⟩, ⟨%ec, %hec, HSC⟩⟩
      isplitl [HSA HSC Hg]
      · isplitl [HSA HSC]
        · isplitl [HSA]
          · unfold owns; iexists _; isplitr
            · ipureintro; exact acc_readC m c t (fun h => h1 ((hcond1 t).mp h)) ((hcond2 t).mpr h2) dc ea hinv.1
            iexact HSA
          · iexists _; isplitr
            · ipureintro; exact carry_readC m c t (fun h => h1 ((hcond1 t).mp h)) ((hcond2 t).mpr h2) dc ec hec hinv.1
            unfold owns; iexists _; isplitr; · ipureintro; rfl
            iexact HSC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      · ipureintro; exact out_readC m c t (fun h => h1 ((hcond1 t).mp h)) ((hcond2 t).mpr h2) dc e6 hinv.1
      iexact H6
    · rw [Dat.leavesExact_idle (datsV m 0 c) 6 t (idle6 t h2) (noflush6 t h2)]
      iapply ((runB c (grid0.coords t) (ms0 t) (hs0 t) (ms1 t) (hs1 t) (ms2 t) (hs2 t) (ms3 t) (hs3 t) (ms4 t) (hs4 t) (ms5 t) (hs5 t) (ms6 t) (hs6 t) scA (Memref.isWhole_whole _) scC (Memref.isWhole_whole _)
        (fun h => h1 ((hcond1 t).mp h)) (fun h => h2 ((hcond2 t).mp h)) (iblk m c 0 t) (iblk m c 1 t) (iblk m c 2 t) (iblk m c 3 t) (iblk m c 4 t) (iblk m c 5 t) ((datsV m 0 c).before 6 t d6) (accIn m c t) dc).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HSA]; · iexact HSA
      isplitl [HSC]; · iexact HSC
      iintro ⟨H0, H1, H2, H3, H4, H5, H6, ⟨%ea, HSA⟩, ⟨%ec, %hec, HSC⟩⟩
      isplitl [HSA HSC Hg]
      · isplitl [HSA HSC]
        · isplitl [HSA]
          · unfold owns; iexists _; isplitr
            · ipureintro; exact acc_readB m c t (fun h => h1 ((hcond1 t).mp h)) (fun h => h2 ((hcond2 t).mp h)) ((datsV m 0 c).before 6 t d6) dc ea hinv.1
            iexact HSA
          · iexists _; isplitr
            · ipureintro; exact carry_readB m c t (fun h => h1 ((hcond1 t).mp h)) (fun h => h2 ((hcond2 t).mp h)) ((datsV m 0 c).before 6 t d6) dc ec hec hinv.1
            unfold owns; iexists _; isplitr; · ipureintro; rfl
            iexact HSC
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

/-- The library's body obligation, at every point. -/
theorem body_obligationV (c : Dev nD) : BodyObligation (datsV m 0 c) (defs₀ (F := Ideal)) Variants.none () Set.univ := fun t => by
  rw [bigSep_W0, bigSep_W0]
  exact sound_bodyV m c t

/-- What the launch hands the region is the invariant before the first point. -/
theorem hinV (c : Dev nD) : Pipeline.ΦA spec0 c ⊢ (datsV m 0 c).Φ 0 := by
  rw [show (datsV m 0 c).Φ 0 = PhiV m c 0 (Nat.zero_le _) from rfl, PhiV_zero m c 0 _ rfl]
  try exact Idealize.SL.BI.Entails.refl _

/-- After the last point the invariant gives the scratch buffers back at some contents. -/
theorem houtV (c : Dev nD) : (datsV m 0 c).Φ (Fin.last cfg0.N) ⊢ Pipeline.ΦA spec0 c := by
  rw [show (datsV m 0 c).Φ (Fin.last cfg0.N) = PhiV m c (Fin.last cfg0.N).val (Nat.le_of_lt_succ (Fin.last cfg0.N).isLt) from rfl,
    PhiV_pos m c _ _ (by rw [Fin.val_last]; have : cfg0.N = 128 := N_0; omega), PhiA_eqV]
  iintro ⟨⟨HSA, ⟨%dc, -, HSC⟩⟩, Hg⟩
  isplitl [HSA HSC]
  · isplitl [HSA]
    · iexists _; iexact HSA
    · iexists _; iexact HSC
  iexact Hg

set_option backward.isDefEq.respectTransparency.types false in
/-- Every weakly fair execution of @main terminates with every array of the pipeline at what the library computes
    from the proof data and every other unscoped buffer at its region-entry contents. -/
theorem run_mainV : θ_run defs (onTc (τ := τ) (main (F := Ideal))) (s₀ m ρ) (Pipeline.FramePost cfgs (datsV m) 0 (V m)) :=
  Pipeline.θ_run_frame_track cfgs (datsV m) (0 : Fin 1) launch0 defs₀ Variants.none m ρ main
    (hbody := fun c => (body_obligationV m c).loose) (hshare := fun c => (datsV m 0 c).share_full fun _ => rfl)
    (howed := fun _ _ => rfl) (V := V m) (hmain := hmain m Variants.none) (hA := AV_eq m) (hin := hinV m) (hout := houtV m)

end Cert.KernelIdeal.Hand

end
-- ==== Proof.KValue.lean ====
/-
  The kernel program's run with its result named: every weakly fair execution terminates with the output array at G
  of the features, the quantised gate matrix, the quantised output matrix and the bias, and the arguments unchanged.
  The output array after the run is what the write-back points left (the blocks with dn = 7, which cover it), each
  the block of G; an input array is as the region found it; the other arguments bypass the region.
-/
import proofs.«111377_j19533511262472_1_alg».proof.Proof.KDat

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

/-- The output array after the run is G. -/
theorem out_final (m : (ℓ : Loc nD τ sig) → Buf (Elt Ideal) ℓ) (c : Dev nD) :
    ((datsV m 0 c).arrAt 6 cfg0.N : S4x4096x1024.Idx → Ideal .f32) = Cert.Spec.G (Xa m c) (WgA m c) (WoA m c) (BsA m c) :=
  final6 (F := Ideal) (datsV m 0 c) (Cert.Spec.G (Xa m c) (WgA m c) (WoA m c) (BsA m c)) (fun t _ r e => by
    rw [afterV6]
    rfl)

theorem value_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v32) : S4x4096x1024.Idx → Ideal .f32)
          = Cert.Spec.G (Xa m c) (WgA m c) (WoA m c) (BsA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 6).trans (out_final m c),
      ((h c).1 0).trans (((datsV m 0 c).arrAt_in 0 rfl _).trans ((AV_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_mainV m ρ)

end Cert.KernelIdeal.Hand

end
-- ==== Proof.RefStages.lean ====
/-
  The reference program's run read back over named stages: each of its 238 host operations writes one buffer, and
  the value it writes is the stage function of that buffer (a function of the program's arguments that cites the
  earlier stages by name). The fold of the operations over the launch contents, read at the result buffer, is the
  last stage; the argument buffers are written by no operation.

  The fold is never composed into one term. The program is cut into eighteen stretches: four for the prologue (the
  quantized input projection and its three gates), one for each of the twelve rounds of the doubling scan, one for the
  quantization of the output weights, one for the two closing operations. A stretch is folded over contents W of
  which only the two or three buffers it reads are known, each as its NAMED stage; what it hands on is again a named
  stage, so every round has the same small shape whatever the depth of the scan before it.
-/
import proofs.«111377_j19533511262472_1_alg».proof.Proof.RefRun
import proofs.«111377_j19533511262472_1_alg».proof.Proof.RefRead
import Idealize.ShloMosaic.Lib.Pipeline.Frame

noncomputable section

namespace Cert.ReferenceIdeal.RefStages

open Cert.ReferenceIdeal Cert.ReferenceIdeal.Gen Idealize.ShloMosaic Idealize.ShloMosaic.TcCoe Idealize.SL.Sem Idealize.ShloMosaic.StableHlo
open Cert.ReferenceIdeal.RunP Cert.ReferenceIdeal.ReadP

variable {F : FTy → Type} [FloatOps F]

/-- A TensorCore reference as the device buffer it names. -/
local notation:max "↟" b:max => Proc.devRef Proc.tc b

/-! ## No operation writes an argument -/

/-- The operation writes none of the four argument buffers. -/
def KeepsArgs (op : HloOp τ sig (Elt F)) : Prop :=
  (↟main_arg0 : DevRef τ sig) ∉ op.writes ∧ (↟main_arg1 : DevRef τ sig) ∉ op.writes
    ∧ (↟main_arg2 : DevRef τ sig) ∉ op.writes ∧ (↟main_arg3 : DevRef τ sig) ∉ op.writes

set_option maxRecDepth 8192 in
set_option maxHeartbeats 4000000 in
theorem part0_keeps : (ops_part0 : List (HloOp τ sig (Elt F))).Forall KeepsArgs := by
  simp only [ops_part0, List.Forall, KeepsArgs, nullary_writes, unary_writes, binary_writes, Finset.mem_singleton]
  repeat' apply And.intro
  all_goals exact devRef_ne_of_ne (by decide)
set_option maxRecDepth 8192 in
set_option maxHeartbeats 4000000 in
theorem part1_keeps : (ops_part1 : List (HloOp τ sig (Elt F))).Forall KeepsArgs := by
  simp only [ops_part1, List.Forall, KeepsArgs, nullary_writes, unary_writes, binary_writes, Finset.mem_singleton]
  repeat' apply And.intro
  all_goals exact devRef_ne_of_ne (by decide)
set_option maxRecDepth 8192 in
set_option maxHeartbeats 4000000 in
theorem part2_keeps : (ops_part2 : List (HloOp τ sig (Elt F))).Forall KeepsArgs := by
  simp only [ops_part2, List.Forall, KeepsArgs, nullary_writes, unary_writes, binary_writes, Finset.mem_singleton]
  repeat' apply And.intro
  all_goals exact devRef_ne_of_ne (by decide)
set_option maxRecDepth 8192 in
set_option maxHeartbeats 4000000 in
theorem part3_keeps : (ops_part3 : List (HloOp τ sig (Elt F))).Forall KeepsArgs := by
  simp only [ops_part3, List.Forall, KeepsArgs, nullary_writes, unary_writes, binary_writes, Finset.mem_singleton]
  repeat' apply And.intro
  all_goals exact devRef_ne_of_ne (by decide)

/-- No operation of the program writes an argument buffer. -/
theorem ops_keeps : ∀ op ∈ (ops : List (HloOp τ sig (Elt F))), KeepsArgs op := fun op h => by
  simp only [ops, List.mem_append] at h
  rcases h with h | h | h | h
  exacts [List.forall_iff_forall_mem.mp part0_keeps op h, List.forall_iff_forall_mem.mp part1_keeps op h,
    List.forall_iff_forall_mem.mp part2_keeps op h, List.forall_iff_forall_mem.mp part3_keeps op h]

/-- The whole program leaves each argument as launched. -/
theorem ops_arg0 (V : Valuation τ sig (Elt F)) : after ops V ↟main_arg0 = V ↟main_arg0 :=
  after_of_forall_not_mem _ V fun op h => (ops_keeps op h).1
theorem ops_arg1 (V : Valuation τ sig (Elt F)) : after ops V ↟main_arg1 = V ↟main_arg1 :=
  after_of_forall_not_mem _ V fun op h => (ops_keeps op h).2.1
theorem ops_arg2 (V : Valuation τ sig (Elt F)) : after ops V ↟main_arg2 = V ↟main_arg2 :=
  after_of_forall_not_mem _ V fun op h => (ops_keeps op h).2.2.1
theorem ops_arg3 (V : Valuation τ sig (Elt F)) : after ops V ↟main_arg3 = V ↟main_arg3 :=
  after_of_forall_not_mem _ V fun op h => (ops_keeps op h).2.2.2
/-- So does every prefix of it, for the weights' argument, which is first read late. -/
theorem take_arg2 (n : Nat) (V : Valuation τ sig (Elt F)) : after (ops.take n) V ↟main_arg2 = V ↟main_arg2 :=
  after_of_forall_not_mem _ V fun op h => (ops_keeps op (List.mem_of_mem_take h)).2.2.1

/-! ## The stretches -/

/-- Operations 0–22: the input weights quantized (scale, round, clip, rescale) and the projection of the input. -/
abbrev st0 : List (HloOp τ sig (Elt F)) := ops_part0.take 23
/-- Operations 23–34: the first third of the projection, biased, through the logistic function: the decay gate. -/
abbrev st1 : List (HloOp τ sig (Elt F)) := (ops_part0.drop 23).take 12
/-- Operations 35–44: the second third through x ↦ x · logistic x. -/
abbrev st2 : List (HloOp τ sig (Elt F)) := (ops_part0.drop 35).take 10
/-- Operations 45–57: the last third through the logistic function (the output gate), and the scan's input
    (one minus the decay gate, times the second third's value). -/
abbrev st3 : List (HloOp τ sig (Elt F)) := (ops_part0.drop 45).take 13
/-- Operations 58–70, 71–83, …, 201–213: the twelve rounds of the doubling scan, at distances 1, 2, …, 2048. -/
abbrev rd1 : List (HloOp τ sig (Elt F)) := (ops_part0.drop 58).take 13
abbrev rd2 : List (HloOp τ sig (Elt F)) := ops_part0.drop 71 ++ ops_part1.take 11
abbrev rd3 : List (HloOp τ sig (Elt F)) := (ops_part1.drop 11).take 13
abbrev rd4 : List (HloOp τ sig (Elt F)) := (ops_part1.drop 24).take 13
abbrev rd5 : List (HloOp τ sig (Elt F)) := (ops_part1.drop 37).take 13
abbrev rd6 : List (HloOp τ sig (Elt F)) := ops_part1.drop 50 ++ ops_part2.take 3
abbrev rd7 : List (HloOp τ sig (Elt F)) := (ops_part2.drop 3).take 13
abbrev rd8 : List (HloOp τ sig (Elt F)) := (ops_part2.drop 16).take 13
abbrev rd9 : List (HloOp τ sig (Elt F)) := (ops_part2.drop 29).take 13
abbrev rd10 : List (HloOp τ sig (Elt F)) := (ops_part2.drop 42).take 13
abbrev rd11 : List (HloOp τ sig (Elt F)) := ops_part2.drop 55 ++ ops_part3.take 8
abbrev rd12 : List (HloOp τ sig (Elt F)) := (ops_part3.drop 8).take 13
/-- Operations 214–235: the output weights quantized. -/
abbrev stq : List (HloOp τ sig (Elt F)) := (ops_part3.drop 21).take 22
/-- Operations 236–237: the scan's result under the output gate, and the output projection. -/
abbrev stf : List (HloOp τ sig (Elt F)) := ops_part3.drop 43

/-- Everything before the output weights are touched: operations 0–213. -/
abbrev pre : List (HloOp τ sig (Elt F)) :=
  st0 ++ (st1 ++ (st2 ++ (st3 ++ (rd1 ++ (rd2 ++ (rd3 ++ (rd4 ++ (rd5 ++ (rd6 ++ (rd7 ++ (rd8 ++ (rd9 ++ (rd10 ++ (rd11 ++ rd12))))))))))))))

set_option maxRecDepth 16384 in
/-- The program is its stretches one after the other. -/
theorem ops_stretches : (ops : List (HloOp τ sig (Elt F))) = pre ++ (stq ++ stf) := rfl
set_option maxRecDepth 16384 in
theorem pre_take : (pre : List (HloOp τ sig (Elt F))) = ops.take 214 := rfl

/-- A stretch, spelt as a cut of the printed windows, as its literal list of operations. -/
macro "stretch_lit" : tactic =>
  `(tactic| simp only [st0, st1, st2, st3, rd1, rd2, rd3, rd4, rd5, rd6, rd7, rd8, rd9, rd10, rd11, rd12, stq, stf,
      ops_part0, ops_part1, ops_part2, ops_part3, List.drop_succ_cons, List.drop_zero, List.take_succ_cons, List.take_zero,
      List.cons_append, List.nil_append])

/-- The contents types of the four arguments. -/
abbrev X0 (G : FTy → Type) : Type := (⟨S4x4096x1024, .f32⟩ : BufTy).Contents (Elt G)
abbrev X1 (G : FTy → Type) : Type := (⟨S3072x1024, .f32⟩ : BufTy).Contents (Elt G)
abbrev X2 (G : FTy → Type) : Type := (⟨S1024x1024, .f32⟩ : BufTy).Contents (Elt G)
abbrev X3 (G : FTy → Type) : Type := (⟨S1024, .f32⟩ : BufTy).Contents (Elt G)

section Stretches

variable {W : Valuation τ sig (Elt F)} {x0 : X0 F} {x1 : X1 F} {x2 : X2 F} {x3 : X3 F}

/-! ## The prologue -/

set_option maxRecDepth 8192 in
set_option maxHeartbeats 4000000 in
/-- From the input and the input weights to the projection; the bias is not touched. -/
theorem stage0 (h0 : W ↟main_arg0 = x0) (h1 : W ↟main_arg1 = x1) :
    after st0 W ↟main_v12 = val_main_v12 x0 x1 ∧ after st0 W ↟main_arg3 = W ↟main_arg3 := by
  stretch_lit
  refine ⟨?_, ?_⟩
  · after_results; rw [h0, h1]; rfl
  · after_results

set_option maxRecDepth 8192 in
set_option maxHeartbeats 4000000 in
/-- From the projection and the bias to the decay gate; the projection stays. -/
theorem stage1 (h12 : W ↟main_v12 = val_main_v12 x0 x1) (h3 : W ↟main_arg3 = x3) :
    after st1 W ↟main_v22 = val_main_v22 x0 x1 x3 ∧ after st1 W ↟main_v12 = W ↟main_v12 := by
  stretch_lit
  refine ⟨?_, ?_⟩
  · after_results; rw [h12, h3]; rfl
  · after_results

set_option maxRecDepth 8192 in
set_option maxHeartbeats 4000000 in
/-- From the projection to its second third's value; the projection and the decay gate stay. -/
theorem stage2 (h12 : W ↟main_v12 = val_main_v12 x0 x1) :
    after st2 W ↟main_v24 = val_main_v24 x0 x1 ∧ after st2 W ↟main_v12 = W ↟main_v12
      ∧ after st2 W ↟main_v22 = W ↟main_v22 := by
  stretch_lit
  refine ⟨?_, ?_, ?_⟩
  · after_results; rw [h12]; rfl
  · after_results
  · after_results

set_option maxRecDepth 8192 in
set_option maxHeartbeats 4000000 in
/-- To the scan's input and the output gate; the decay gate stays. -/
theorem stage3 (h12 : W ↟main_v12 = val_main_v12 x0 x1) (h22 : W ↟main_v22 = val_main_v22 x0 x1 x3)
    (h24 : W ↟main_v24 = val_main_v24 x0 x1) :
    after st3 W ↟main_v34 = val_main_v34 x0 x1 x3 ∧ after st3 W ↟main_v31 = val_main_v31 x0 x1
      ∧ after st3 W ↟main_v22 = W ↟main_v22 := by
  stretch_lit
  refine ⟨?_, ?_, ?_⟩
  · after_results; rw [h22, h24]; rfl
  · after_results; rw [h12]; rfl
  · after_results

/-! ## The doubling scan

The scan solves h t = a t · h (t-1) + b t along the sequence axis. Each round holds a pair (A, B): A the product of
the decays over the window ending at t, B the scan restricted to that window. With d the round's distance, the next
pair is A' = A · (A shifted by d, filled with one) and B' = A · (B shifted by d, filled with zero) + B. The shifts
are a slice joined behind a constant block; a round reads A and B and nothing else. The output gate, made in the
prologue, is touched by no round. -/

set_option maxRecDepth 8192 in
set_option maxHeartbeats 4000000 in
/-- Distance 1: the first pair, from the decay gate and the scan's input. -/
theorem round1 (h22 : W ↟main_v22 = val_main_v22 x0 x1 x3) (h34 : W ↟main_v34 = val_main_v34 x0 x1 x3) :
    after rd1 W ↟main_v45 = val_main_v45 x0 x1 x3 ∧ after rd1 W ↟main_v44 = val_main_v44 x0 x1 x3
      ∧ after rd1 W ↟main_v31 = W ↟main_v31 := by
  stretch_lit
  refine ⟨?_, ?_, ?_⟩
  · after_results; rw [h22]; rfl
  · after_results; rw [h22, h34]; rfl
  · after_results

set_option maxRecDepth 8192 in
set_option maxHeartbeats 4000000 in
/-- Distance 2. -/
theorem round2 (hA : W ↟main_v45 = val_main_v45 x0 x1 x3) (hB : W ↟main_v44 = val_main_v44 x0 x1 x3) :
    after rd2 W ↟main_v56 = val_main_v56 x0 x1 x3 ∧ after rd2 W ↟main_v55 = val_main_v55 x0 x1 x3
      ∧ after rd2 W ↟main_v31 = W ↟main_v31 := by
  stretch_lit
  refine ⟨?_, ?_, ?_⟩
  · after_results; rw [hA]; rfl
  · after_results; rw [hA, hB]; rfl
  · after_results

set_option maxRecDepth 8192 in
set_option maxHeartbeats 4000000 in
/-- Distance 4. -/
theorem round3 (hA : W ↟main_v56 = val_main_v56 x0 x1 x3) (hB : W ↟main_v55 = val_main_v55 x0 x1 x3) :
    after rd3 W ↟main_v67 = val_main_v67 x0 x1 x3 ∧ after rd3 W ↟main_v66 = val_main_v66 x0 x1 x3
      ∧ after rd3 W ↟main_v31 = W ↟main_v31 := by
  stretch_lit
  refine ⟨?_, ?_, ?_⟩
  · after_results; rw [hA]; rfl
  · after_results; rw [hA, hB]; rfl
  · after_results

set_option maxRecDepth 8192 in
set_option maxHeartbeats 4000000 in
/-- Distance 8. -/
theorem round4 (hA : W ↟main_v67 = val_main_v67 x0 x1 x3) (hB : W ↟main_v66 = val_main_v66 x0 x1 x3) :
    after rd4 W ↟main_v78 = val_main_v78 x0 x1 x3 ∧ after rd4 W ↟main_v77 = val_main_v77 x0 x1 x3
      ∧ after rd4 W ↟main_v31 = W ↟main_v31 := by
  stretch_lit
  refine ⟨?_, ?_, ?_⟩
  · after_results; rw [hA]; rfl
  · after_results; rw [hA, hB]; rfl
  · after_results

set_option maxRecDepth 8192 in
set_option maxHeartbeats 4000000 in
/-- Distance 16. -/
theorem round5 (hA : W ↟main_v78 = val_main_v78 x0 x1 x3) (hB : W ↟main_v77 = val_main_v77 x0 x1 x3) :
    after rd5 W ↟main_v89 = val_main_v89 x0 x1 x3 ∧ after rd5 W ↟main_v88 = val_main_v88 x0 x1 x3
      ∧ after rd5 W ↟main_v31 = W ↟main_v31 := by
  stretch_lit
  refine ⟨?_, ?_, ?_⟩
  · after_results; rw [hA]; rfl
  · after_results; rw [hA, hB]; rfl
  · after_results

set_option maxRecDepth 8192 in
set_option maxHeartbeats 4000000 in
/-- Distance 32. -/
theorem round6 (hA : W ↟main_v89 = val_main_v89 x0 x1 x3) (hB : W ↟main_v88 = val_main_v88 x0 x1 x3) :
    after rd6 W ↟main_v100 = val_main_v100 x0 x1 x3 ∧ after rd6 W ↟main_v99 = val_main_v99 x0 x1 x3
      ∧ after rd6 W ↟main_v31 = W ↟main_v31 := by
  stretch_lit
  refine ⟨?_, ?_, ?_⟩
  · after_results; rw [hA]; rfl
  · after_results; rw [hA, hB]; rfl
  · after_results

set_option maxRecDepth 8192 in
set_option maxHeartbeats 4000000 in
/-- Distance 64. -/
theorem round7 (hA : W ↟main_v100 = val_main_v100 x0 x1 x3) (hB : W ↟main_v99 = val_main_v99 x0 x1 x3) :
    after rd7 W ↟main_v111 = val_main_v111 x0 x1 x3 ∧ after rd7 W ↟main_v110 = val_main_v110 x0 x1 x3
      ∧ after rd7 W ↟main_v31 = W ↟main_v31 := by
  stretch_lit
  refine ⟨?_, ?_, ?_⟩
  · after_results; rw [hA]; rfl
  · after_results; rw [hA, hB]; rfl
  · after_results

set_option maxRecDepth 8192 in
set_option maxHeartbeats 4000000 in
/-- Distance 128. -/
theorem round8 (hA : W ↟main_v111 = val_main_v111 x0 x1 x3) (hB : W ↟main_v110 = val_main_v110 x0 x1 x3) :
    after rd8 W ↟main_v122 = val_main_v122 x0 x1 x3 ∧ after rd8 W ↟main_v121 = val_main_v121 x0 x1 x3
      ∧ after rd8 W ↟main_v31 = W ↟main_v31 := by
  stretch_lit
  refine ⟨?_, ?_, ?_⟩
  · after_results; rw [hA]; rfl
  · after_results; rw [hA, hB]; rfl
  · after_results

set_option maxRecDepth 8192 in
set_option maxHeartbeats 4000000 in
/-- Distance 256. -/
theorem round9 (hA : W ↟main_v122 = val_main_v122 x0 x1 x3) (hB : W ↟main_v121 = val_main_v121 x0 x1 x3) :
    after rd9 W ↟main_v133 = val_main_v133 x0 x1 x3 ∧ after rd9 W ↟main_v132 = val_main_v132 x0 x1 x3
      ∧ after rd9 W ↟main_v31 = W ↟main_v31 := by
  stretch_lit
  refine ⟨?_, ?_, ?_⟩
  · after_results; rw [hA]; rfl
  · after_results; rw [hA, hB]; rfl
  · after_results

set_option maxRecDepth 8192 in
set_option maxHeartbeats 4000000 in
/-- Distance 512. -/
theorem round10 (hA : W ↟main_v133 = val_main_v133 x0 x1 x3) (hB : W ↟main_v132 = val_main_v132 x0 x1 x3) :
    after rd10 W ↟main_v144 = val_main_v144 x0 x1 x3 ∧ after rd10 W ↟main_v143 = val_main_v143 x0 x1 x3
      ∧ after rd10 W ↟main_v31 = W ↟main_v31 := by
  stretch_lit
  refine ⟨?_, ?_, ?_⟩
  · after_results; rw [hA]; rfl
  · after_results; rw [hA, hB]; rfl
  · after_results

set_option maxRecDepth 8192 in
set_option maxHeartbeats 4000000 in
/-- Distance 1024. -/
theorem round11 (hA : W ↟main_v144 = val_main_v144 x0 x1 x3) (hB : W ↟main_v143 = val_main_v143 x0 x1 x3) :
    after rd11 W ↟main_v155 = val_main_v155 x0 x1 x3 ∧ after rd11 W ↟main_v154 = val_main_v154 x0 x1 x3
      ∧ after rd11 W ↟main_v31 = W ↟main_v31 := by
  stretch_lit
  refine ⟨?_, ?_, ?_⟩
  · after_results; rw [hA]; rfl
  · after_results; rw [hA, hB]; rfl
  · after_results

set_option maxRecDepth 8192 in
set_option maxHeartbeats 4000000 in
/-- Distance 2048, the last: only the scan itself is read afterwards. -/
theorem round12 (hA : W ↟main_v155 = val_main_v155 x0 x1 x3) (hB : W ↟main_v154 = val_main_v154 x0 x1 x3) :
    after rd12 W ↟main_v165 = val_main_v165 x0 x1 x3 ∧ after rd12 W ↟main_v31 = W ↟main_v31 := by
  stretch_lit
  refine ⟨?_, ?_⟩
  · after_results; rw [hA, hB]; rfl
  · after_results

/-! ## The closing stretches -/

set_option maxRecDepth 8192 in
set_option maxHeartbeats 4000000 in
/-- The output weights quantized; the scan's result and the output gate stay. -/
theorem stageq (h2 : W ↟main_arg2 = x2) :
    after stq W ↟main_v178 = val_main_v178 x2 ∧ after stq W ↟main_v165 = W ↟main_v165
      ∧ after stq W ↟main_v31 = W ↟main_v31 := by
  stretch_lit
  refine ⟨?_, ?_, ?_⟩
  · after_results; rw [h2]; rfl
  · after_results
  · after_results

set_option maxRecDepth 8192 in
set_option maxHeartbeats 4000000 in
/-- The scan's result under the output gate, through the quantized output weights. -/
theorem stagef (h165 : W ↟main_v165 = val_main_v165 x0 x1 x3) (h31 : W ↟main_v31 = val_main_v31 x0 x1)
    (h178 : W ↟main_v178 = val_main_v178 x2) :
    after stf W ↟main_v180 = val_main_v180 x0 x1 x2 x3 := by
  stretch_lit
  after_results; rw [h165, h31, h178]; rfl

end Stretches

/-! ## The chain -/

set_option maxRecDepth 8192 in
/-- After everything before the output weights: the scan's result and the output gate are their stages. -/
theorem pre_stage (V : Valuation τ sig (Elt F)) :
    after pre V ↟main_v165 = val_main_v165 (V ↟main_arg0) (V ↟main_arg1) (V ↟main_arg3)
      ∧ after pre V ↟main_v31 = val_main_v31 (V ↟main_arg0) (V ↟main_arg1) := by
  simp only [pre, after_append]
  have t0 := stage0 (W := V) (x0 := V ↟main_arg0) (x1 := V ↟main_arg1) rfl rfl
  have t1 := stage1 t0.1 t0.2
  have t2 := stage2 (t1.2.trans t0.1)
  have t3 := stage3 (t2.2.1.trans (t1.2.trans t0.1)) (t2.2.2.trans t1.1) t2.1
  have u1 := round1 (t3.2.2.trans (t2.2.2.trans t1.1)) t3.1
  have u2 := round2 u1.1 u1.2.1
  have u3 := round3 u2.1 u2.2.1
  have u4 := round4 u3.1 u3.2.1
  have u5 := round5 u4.1 u4.2.1
  have u6 := round6 u5.1 u5.2.1
  have u7 := round7 u6.1 u6.2.1
  have u8 := round8 u7.1 u7.2.1
  have u9 := round9 u8.1 u8.2.1
  have u10 := round10 u9.1 u9.2.1
  have u11 := round11 u10.1 u10.2.1
  have u12 := round12 u11.1 u11.2.1
  exact ⟨u12.1, u12.2.trans (u11.2.2.trans (u10.2.2.trans (u9.2.2.trans (u8.2.2.trans (u7.2.2.trans (u6.2.2.trans
    (u5.2.2.trans (u4.2.2.trans (u3.2.2.trans (u2.2.2.trans (u1.2.2.trans t3.2.1)))))))))))⟩

/-- The fold of the whole program, read at the result buffer, is the last stage of the launch contents. -/
theorem stages (V : Valuation τ sig (Elt F)) :
    after ops V ↟main_v180 = val_main_v180 (V ↟main_arg0) (V ↟main_arg1) (V ↟main_arg2) (V ↟main_arg3) := by
  have a2 : after (pre (F := F)) V ↟main_arg2 = V ↟main_arg2 := by rw [pre_take]; exact take_arg2 214 V
  rw [ops_stretches, after_append, after_append]
  obtain ⟨e165, e31⟩ := pre_stage V
  have tq := stageq a2
  exact stagef (tq.2.1.trans e165) (tq.2.2.trans e31) tq.1

/-- Every weakly fair execution of the reference terminates with the result buffer at the last stage of the
    arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v180)
          = val_main_v180 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v180).trans (stages (launchContents m c)),
      (h c main_arg0).trans (ops_arg0 (launchContents m c)), (h c main_arg1).trans (ops_arg1 (launchContents m c)),
      (h c main_arg2).trans (ops_arg2 (launchContents m c)), (h c main_arg3).trans (ops_arg3 (launchContents m c))⟩)
    (run_after m ρ)

end Cert.ReferenceIdeal.RefStages

end
-- ==== Proof.RefValue.lean ====
/-
  The reference's last stage is the function G of the arguments, with the gate matrix and the output matrix the
  quantised weights the program computes from its second and third arguments (stages 11 and 178).

  Stage 12 is the inner product of the features with the quantised gate matrix; stages 13–34 are the three gates
  and the recurrence's constant term, the sigmoid spelt 1 / (1 + e^(-x)); stages 35–166 are twelve doubling rounds
  at strides 1 … 2048, each shifting the two sequences down the time axis by its stride behind a block of ones
  (slopes) or zeros (constants); stage 165 is the recurrent state, stage 179 gates it, stage 180 is its inner
  product with the quantised output matrix.
-/
import proofs.«111377_j19533511262472_1_alg».proof.Proof.RefRead
import proofs.«111377_j19533511262472_1_alg».proof.Proof.Spec
import Idealize.ShloMosaic.Lib.IdealHost
import Idealize.ShloMosaic.Lib.ValueLayout

noncomputable section

namespace Cert.ReferenceIdeal.RefValue

open Cert.ReferenceIdeal Cert.ReferenceIdeal.Gen Idealize.ShloMosaic Idealize.ShloMosaic.TcCoe Idealize.ShloMosaic.ValueIdx
open Cert.ReferenceIdeal.ReadP

/-- An index of a rank-3 array is determined by the values of its three coordinates. -/
theorem ix3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => Fin.ext (by
    match d with
    | ⟨0, _⟩ => exact h0
    | ⟨1, _⟩ => exact h1
    | ⟨2, _⟩ => exact h2)

/-- Joining a block of `s` constant rows `c` and the first `r` time rows of `v` along the time axis is `v` shifted down
    the time axis by `s`, with `c` in the first `s` rows. -/
theorem shift_apply (s r : ℕ) (hsr : s + r = 4096) (c : EReal)
    (pad : (⟨3, ![4, s, 1024]⟩ : Shape).Idx → EReal) (sl : (⟨3, ![4, r, 1024]⟩ : Shape).Idx → EReal)
    (v : (⟨3, ![4, 4096, 1024]⟩ : Shape).Idx → EReal)
    (h : Shape.Concatenates [(⟨3, ![4, s, 1024]⟩ : Shape), ⟨3, ![4, r, 1024]⟩] ⟨3, ![4, 4096, 1024]⟩ 1)
    (hpad : ∀ i, pad i = c)
    (hsl : ∀ (b : Fin 4) (t : Fin r) (e : Fin 1024), sl (ix3 b t e) = v (ix3 b ⟨t.val, by omega⟩ e))
    (b : Fin 4) (t : Fin 4096) (e : Fin 1024) :
    concatenate ⟨3, ![4, 4096, 1024]⟩ 1 [⟨_, pad⟩, ⟨_, sl⟩] h (ix3 b t e)
      = if hh : s ≤ t.val then v (ix3 b ⟨t.val - s, by omega⟩ e) else c := by
  by_cases hh : s ≤ t.val
  · rw [dif_pos hh]
    have ht : t.val - s < r := by omega
    rw [concatenate_pair_apply_right (t := ⟨3, ![4, 4096, 1024]⟩) (s₁ := ⟨3, ![4, s, 1024]⟩) (s₂ := ⟨3, ![4, r, 1024]⟩)
      (1 : Fin 3) pad sl h (ix3 b t e) rfl rfl (ix3 b ⟨t.val - s, ht⟩ e)
      (fun d hd => by
        match d with
        | ⟨0, _⟩ => rfl
        | ⟨1, _⟩ => exact absurd rfl hd
        | ⟨2, _⟩ => rfl)
      (by show (t.val - s) + s = t.val; omega)]
    exact hsl b ⟨t.val - s, ht⟩ e
  · rw [dif_neg hh]
    have ht : t.val < s := by omega
    rw [concatenate_pair_apply_left (t := ⟨3, ![4, 4096, 1024]⟩) (s₁ := ⟨3, ![4, s, 1024]⟩) (s₂ := ⟨3, ![4, r, 1024]⟩)
      (1 : Fin 3) pad sl h (ix3 b t e) rfl (ix3 b ⟨t.val, ht⟩ e)
      (fun d => by
        match d with
        | ⟨0, _⟩ => rfl
        | ⟨1, _⟩ => rfl
        | ⟨2, _⟩ => rfl)]
    exact hpad _

open Cert.Scan in
/-- One doubling round on the arrays: if along a column the slopes `a` and constants `bb` are the sequences `P`,
    the round's results are one step of the doubling scan of `P` at stride `s`. -/
theorem round_step (s r : ℕ) (hsr : s + r = 4096)
    (a bb : (⟨3, ![4, 4096, 1024]⟩ : Shape).Idx → EReal)
    (pad1 pad0 : (⟨3, ![4, s, 1024]⟩ : Shape).Idx → EReal) (sla slb : (⟨3, ![4, r, 1024]⟩ : Shape).Idx → EReal)
    (h : Shape.Concatenates [(⟨3, ![4, s, 1024]⟩ : Shape), ⟨3, ![4, r, 1024]⟩] ⟨3, ![4, 4096, 1024]⟩ 1)
    (hpad1 : ∀ i, pad1 i = 1) (hpad0 : ∀ i, pad0 i = 0)
    (hsla : ∀ (b : Fin 4) (t : Fin r) (e : Fin 1024), sla (ix3 b t e) = a (ix3 b ⟨t.val, by omega⟩ e))
    (hslb : ∀ (b : Fin 4) (t : Fin r) (e : Fin 1024), slb (ix3 b t e) = bb (ix3 b ⟨t.val, by omega⟩ e))
    (a' b' : (⟨3, ![4, 4096, 1024]⟩ : Shape).Idx → EReal)
    (ha' : ∀ i, a' i = a i * concatenate ⟨3, ![4, 4096, 1024]⟩ 1 [⟨_, pad1⟩, ⟨_, sla⟩] h i)
    (hb' : ∀ i, b' i = a i * concatenate ⟨3, ![4, 4096, 1024]⟩ 1 [⟨_, pad0⟩, ⟨_, slb⟩] h i + bb i)
    (P : (ℕ → EReal) × (ℕ → EReal)) (b : Fin 4) (e : Fin 1024)
    (hP : ∀ (t : ℕ) (ht : t < 4096), a (ix3 b ⟨t, ht⟩ e) = P.1 t ∧ bb (ix3 b ⟨t, ht⟩ e) = P.2 t) :
    ∀ (t : ℕ) (ht : t < 4096), a' (ix3 b ⟨t, ht⟩ e) = (hsStep s P).1 t ∧ b' (ix3 b ⟨t, ht⟩ e) = (hsStep s P).2 t := by
  intro t ht
  rw [ha', hb', shift_apply s r hsr 1 pad1 sla a h hpad1 hsla, shift_apply s r hsr 0 pad0 slb bb h hpad0 hslb]
  show _ = P.1 t * (if s ≤ t then P.1 (t - s) else 1) ∧ _ = P.1 t * (if s ≤ t then P.2 (t - s) else 0) + P.2 t
  by_cases hh : s ≤ t
  · rw [dif_pos hh, dif_pos hh, if_pos hh, if_pos hh, (hP t ht).1, (hP t ht).2, (hP (t - s) (by omega)).1,
      (hP (t - s) (by omega)).2]
    exact ⟨rfl, rfl⟩
  · rw [dif_neg hh, dif_neg hh, if_neg hh, if_neg hh, (hP t ht).1, (hP t ht).2]
    exact ⟨rfl, rfl⟩

/-! ## The gates -/

section Gates

variable (x0 : (⟨S4x4096x1024, .f32⟩ : BufTy).Contents (Elt Ideal)) (x1 : (⟨S3072x1024, .f32⟩ : BufTy).Contents (Elt Ideal))
  (x3 : (⟨S1024, .f32⟩ : BufTy).Contents (Elt Ideal))

/-- An index of a rank-2 array is determined by the values of its two coordinates. -/
theorem ix2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by
    match d with
    | ⟨0, _⟩ => exact h0
    | ⟨1, _⟩ => exact h1)

/-- An index of a rank-1 array is determined by the value of its coordinate. -/
theorem ix1_ext {n0 : Nat} (j : (⟨1, ![n0]⟩ : Shape).Idx) (a : Fin n0) (h0 : (j 0).val = a.val) : j = ix1 a :=
  funext fun d => Fin.ext (by
    match d with
    | ⟨0, _⟩ => exact h0)

/-- The sigmoid as the program spells it, 1 / (1 + e^(-y)) with the constant 1 given by its bits, is the logistic function. -/
theorem sigmoid_spelt (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
      = Ideal.logistic y := by
  show Ideal.div (Ideal.ofBits .f32 0x3F800000#32) (Ideal.ofBits .f32 0x3F800000#32 + Ideal.exp (-y)) = Ideal.logistic y
  rw [Ideal.ofBits_one_f32]
  rfl

/-- Stage 12 at (b, t, r) is row r of the quantised gate matrix against the features at (b, t). -/
theorem v12_at (b : Fin 4) (t : Fin 4096) (r : Fin 3072) :
    val_main_v12 (F := Ideal) x0 x1 (ix3 b t r) = Cert.Spec.gate x0 (val_main_v11 (F := Ideal) x1) r b t := by
  rw [val_main_v12_apply]
  unfold Cert.Spec.gate
  refine Finset.sum_congr rfl fun k _ => ?_
  have e1 : lidx_main_v12 (ix3 b t r) k = ix3 b t k := ix3_ext _ _ _ _ rfl rfl rfl
  have e2 : ridx_main_v12 (ix3 b t r) k = ix2 r k := ix2_ext _ _ _ rfl rfl
  rw [e1, e2]

/-- Stage 22 is the forget gate. -/
theorem v22_at (b : Fin 4) (t : Fin 4096) (d : Fin 1024) :
    val_main_v22 (F := Ideal) x0 x1 x3 (ix3 b t d) = Cert.Spec.fG x0 (val_main_v11 (F := Ideal) x1) x3 b t d := by
  rw [val_main_v22_apply, val_main_v21_apply, val_main_cst_5_apply, val_main_v20_apply, val_main_v19_apply,
    val_main_cst_4_apply, val_main_v18_apply, val_main_v17_apply, sigmoid_spelt, val_main_v16_apply,
    val_main_v13_apply, val_main_v15_apply, val_main_v14_apply]
  have e1 : idx_main_v13 (ix3 b t d) = ix3 b t (Cert.Spec.rowF d) := ix3_ext _ _ _ _ rfl rfl rfl
  have e2 : idx_main_v14 (idx_main_v15 (ix3 b t d)) = ix1 d := ix1_ext _ _ rfl
  rw [e1, e2, v12_at]
  rfl

/-- Stage 24 is the candidate. -/
theorem v24_at (b : Fin 4) (t : Fin 4096) (d : Fin 1024) :
    val_main_v24 (F := Ideal) x0 x1 (ix3 b t d) = Cert.Spec.cG x0 (val_main_v11 (F := Ideal) x1) b t d := by
  rw [val_main_v24_apply, val_main_call2_v5_apply, val_main_call2_v4_apply, val_main_call2_cst_0_apply,
    val_main_call2_v3_apply, val_main_call2_v2_apply, val_main_call2_cst_apply, val_main_call2_v1_apply,
    val_main_call2_v0_apply, sigmoid_spelt, val_main_v23_apply]
  have e1 : idx_main_v23 (ix3 b t d) = ix3 b t (Cert.Spec.rowC d) := ix3_ext _ _ _ _ rfl rfl rfl
  rw [e1, v12_at]
  rfl

/-- Stage 31 is the output gate. -/
theorem v31_at (b : Fin 4) (t : Fin 4096) (d : Fin 1024) :
    val_main_v31 (F := Ideal) x0 x1 (ix3 b t d) = Cert.Spec.oG x0 (val_main_v11 (F := Ideal) x1) b t d := by
  rw [val_main_v31_apply, val_main_v30_apply, val_main_cst_7_apply, val_main_v29_apply, val_main_v28_apply,
    val_main_cst_6_apply, val_main_v27_apply, val_main_v26_apply, sigmoid_spelt, val_main_v25_apply]
  have e1 : idx_main_v25 (ix3 b t d) = ix3 b t (Cert.Spec.rowO d) := ix3_ext _ _ _ _ rfl rfl rfl
  rw [e1, v12_at]
  rfl

/-- Stage 34 is the recurrence's constant term. -/
theorem v34_at (b : Fin 4) (t : Fin 4096) (d : Fin 1024) :
    val_main_v34 (F := Ideal) x0 x1 x3 (ix3 b t d) = Cert.Spec.bG x0 (val_main_v11 (F := Ideal) x1) x3 b t d := by
  rw [val_main_v34_apply, val_main_v33_apply, val_main_v32_apply, val_main_cst_8_apply, v22_at, v24_at]
  show (Ideal.ofBits .f32 0x3F800000#32 - _) * _ = _
  rw [Ideal.ofBits_one_f32]
  rfl

end Gates

/-! ## The twelve doubling rounds -/

open Cert.Scan in
/-- Along the column (b, d) the arrays `a` and `bb` are the two sequences of `P` (before position 4096). -/
def ColIs (a bb : (⟨3, ![4, 4096, 1024]⟩ : Shape).Idx → EReal) (b : Fin 4) (d : Fin 1024)
    (P : (ℕ → EReal) × (ℕ → EReal)) : Prop :=
  ∀ (t : ℕ) (ht : t < 4096), a (ix3 b ⟨t, ht⟩ d) = P.1 t ∧ bb (ix3 b ⟨t, ht⟩ d) = P.2 t

open Cert.Scan in
/-- Round `k` of the program (stride `s = 2^k`) takes columns that are `k` rounds of the doubling scan to columns
    that are `k + 1` rounds of it. -/
theorem round_iter (k k' s r : ℕ) (hk : k' = k + 1) (hs : s = 2 ^ k) (hsr : s + r = 4096)
    (a bb : (⟨3, ![4, 4096, 1024]⟩ : Shape).Idx → EReal)
    (pad1 pad0 : (⟨3, ![4, s, 1024]⟩ : Shape).Idx → EReal) (sla slb : (⟨3, ![4, r, 1024]⟩ : Shape).Idx → EReal)
    (h : Shape.Concatenates [(⟨3, ![4, s, 1024]⟩ : Shape), ⟨3, ![4, r, 1024]⟩] ⟨3, ![4, 4096, 1024]⟩ 1)
    (hpad1 : ∀ i, pad1 i = 1) (hpad0 : ∀ i, pad0 i = 0)
    (hsla : ∀ (b : Fin 4) (t : Fin r) (e : Fin 1024), sla (ix3 b t e) = a (ix3 b ⟨t.val, by omega⟩ e))
    (hslb : ∀ (b : Fin 4) (t : Fin r) (e : Fin 1024), slb (ix3 b t e) = bb (ix3 b ⟨t.val, by omega⟩ e))
    (a' b' : (⟨3, ![4, 4096, 1024]⟩ : Shape).Idx → EReal)
    (ha' : ∀ i, a' i = a i * concatenate ⟨3, ![4, 4096, 1024]⟩ 1 [⟨_, pad1⟩, ⟨_, sla⟩] h i)
    (hb' : ∀ i, b' i = a i * concatenate ⟨3, ![4, 4096, 1024]⟩ 1 [⟨_, pad0⟩, ⟨_, slb⟩] h i + bb i)
    (P0 : (ℕ → EReal) × (ℕ → EReal)) (b : Fin 4) (d : Fin 1024)
    (hP : ColIs a bb b d (hsIter k P0)) : ColIs a' b' b d (hsIter k' P0) := by
  subst hk
  have e : hsIter (k + 1) P0 = hsStep s (hsIter k P0) := by rw [hs]; rfl
  rw [e]
  exact round_step s r hsr a bb pad1 pad0 sla slb h hpad1 hpad0 hsla hslb a' b' ha' hb' (hsIter k P0) b d hP

section Rounds

open Cert.Scan

variable (x0 : (⟨S4x4096x1024, .f32⟩ : BufTy).Contents (Elt Ideal)) (x1 : (⟨S3072x1024, .f32⟩ : BufTy).Contents (Elt Ideal))
  (x3 : (⟨S1024, .f32⟩ : BufTy).Contents (Elt Ideal))

/-- Before position 4096 a column's slopes are the forget gate. -/
theorem aSeq_lt (wg : FVec Ideal Cert.Spec.SW3 .f32) (b : Fin 4) (d : Fin 1024) (t : ℕ) (ht : t < 4096) :
    Cert.Spec.aSeq x0 wg x3 b d t = Cert.Spec.fG x0 wg x3 b ⟨t, ht⟩ d := dif_pos ht

/-- Before position 4096 a column's constant terms are (1 - f) · c. -/
theorem bSeq_lt (wg : FVec Ideal Cert.Spec.SW3 .f32) (b : Fin 4) (d : Fin 1024) (t : ℕ) (ht : t < 4096) :
    Cert.Spec.bSeq x0 wg x3 b d t = Cert.Spec.bG x0 wg x3 b ⟨t, ht⟩ d := dif_pos ht

/-- After the twelve rounds (strides 1, 2, …, 2048) a column of stage 165 is the constant term of the twelve-round
    doubling scan of the column's slopes and constants. -/
theorem v165_scan (b : Fin 4) (d : Fin 1024) (t : ℕ) (ht : t < 4096) :
    val_main_v165 (F := Ideal) x0 x1 x3 (ix3 b ⟨t, ht⟩ d)
      = (hsIter 12 (Cert.Spec.aSeq x0 (val_main_v11 (F := Ideal) x1) x3 b d,
          Cert.Spec.bSeq x0 (val_main_v11 (F := Ideal) x1) x3 b d)).2 t := by
  have h0 : ∀ (t : ℕ) (ht : t < 4096),
      val_main_v22 (F := Ideal) x0 x1 x3 (ix3 b ⟨t, ht⟩ d)
        = (Cert.Spec.aSeq x0 (val_main_v11 (F := Ideal) x1) x3 b d, Cert.Spec.bSeq x0 (val_main_v11 (F := Ideal) x1) x3 b d).1 t ∧
      val_main_v34 (F := Ideal) x0 x1 x3 (ix3 b ⟨t, ht⟩ d)
        = (Cert.Spec.aSeq x0 (val_main_v11 (F := Ideal) x1) x3 b d, Cert.Spec.bSeq x0 (val_main_v11 (F := Ideal) x1) x3 b d).2 t :=
    fun t ht => ⟨(v22_at x0 x1 x3 b ⟨t, ht⟩ d).trans (aSeq_lt x0 x3 _ b d t ht).symm,
      (v34_at x0 x1 x3 b ⟨t, ht⟩ d).trans (bSeq_lt x0 x3 _ b d t ht).symm⟩
  generalize (Cert.Spec.aSeq x0 (val_main_v11 (F := Ideal) x1) x3 b d, Cert.Spec.bSeq x0 (val_main_v11 (F := Ideal) x1) x3 b d) = P0 at h0 ⊢
  have h0' : ColIs (val_main_v22 (F := Ideal) x0 x1 x3) (val_main_v34 (F := Ideal) x0 x1 x3) b d (hsIter 0 P0) := h0
  clear h0
  -- stride 1
  have h1 := round_iter 0 1 1 4095 rfl (by norm_num) rfl (val_main_v22 (F := Ideal) x0 x1 x3) (val_main_v34 (F := Ideal) x0 x1 x3)
    (val_main_v36 (F := Ideal)) (val_main_v40 (F := Ideal)) (val_main_v37 (F := Ideal) x0 x1 x3) (val_main_v41 (F := Ideal) x0 x1 x3)
    concatenates_S4x1x1024_S4x4095x1024_S4x4096x1024_d1
    (fun i => by rw [val_main_v36_apply, val_main_cst_9_apply]; exact Ideal.ofBits_one_f32)
    (fun i => by rw [val_main_v40_apply, val_main_cst_10_apply]; exact Ideal.ofBits_zero_f32)
    (fun b t e => (val_main_v37_apply x0 x1 x3 _).trans (congrArg _ (ix3_ext _ _ _ _ rfl rfl rfl)))
    (fun b t e => (val_main_v41_apply x0 x1 x3 _).trans (congrArg _ (ix3_ext _ _ _ _ rfl rfl rfl)))
    (val_main_v45 (F := Ideal) x0 x1 x3) (val_main_v44 (F := Ideal) x0 x1 x3) (fun _ => rfl) (fun _ => rfl) P0 b d h0'
  -- stride 2
  have h2 := round_iter 1 2 2 4094 rfl (by norm_num) rfl (val_main_v45 (F := Ideal) x0 x1 x3) (val_main_v44 (F := Ideal) x0 x1 x3)
    (val_main_v47 (F := Ideal)) (val_main_v51 (F := Ideal)) (val_main_v48 (F := Ideal) x0 x1 x3) (val_main_v52 (F := Ideal) x0 x1 x3)
    concatenates_S4x2x1024_S4x4094x1024_S4x4096x1024_d1
    (fun i => by rw [val_main_v47_apply, val_main_cst_11_apply]; exact Ideal.ofBits_one_f32)
    (fun i => by rw [val_main_v51_apply, val_main_cst_12_apply]; exact Ideal.ofBits_zero_f32)
    (fun b t e => (val_main_v48_apply x0 x1 x3 _).trans (congrArg _ (ix3_ext _ _ _ _ rfl rfl rfl)))
    (fun b t e => (val_main_v52_apply x0 x1 x3 _).trans (congrArg _ (ix3_ext _ _ _ _ rfl rfl rfl)))
    (val_main_v56 (F := Ideal) x0 x1 x3) (val_main_v55 (F := Ideal) x0 x1 x3) (fun _ => rfl) (fun _ => rfl) P0 b d h1
  -- stride 4
  have h3 := round_iter 2 3 4 4092 rfl (by norm_num) rfl (val_main_v56 (F := Ideal) x0 x1 x3) (val_main_v55 (F := Ideal) x0 x1 x3)
    (val_main_v58 (F := Ideal)) (val_main_v62 (F := Ideal)) (val_main_v59 (F := Ideal) x0 x1 x3) (val_main_v63 (F := Ideal) x0 x1 x3)
    concatenates_S4x4x1024_S4x4092x1024_S4x4096x1024_d1
    (fun i => by rw [val_main_v58_apply, val_main_cst_13_apply]; exact Ideal.ofBits_one_f32)
    (fun i => by rw [val_main_v62_apply, val_main_cst_14_apply]; exact Ideal.ofBits_zero_f32)
    (fun b t e => (val_main_v59_apply x0 x1 x3 _).trans (congrArg _ (ix3_ext _ _ _ _ rfl rfl rfl)))
    (fun b t e => (val_main_v63_apply x0 x1 x3 _).trans (congrArg _ (ix3_ext _ _ _ _ rfl rfl rfl)))
    (val_main_v67 (F := Ideal) x0 x1 x3) (val_main_v66 (F := Ideal) x0 x1 x3) (fun _ => rfl) (fun _ => rfl) P0 b d h2
  -- stride 8
  have h4 := round_iter 3 4 8 4088 rfl (by norm_num) rfl (val_main_v67 (F := Ideal) x0 x1 x3) (val_main_v66 (F := Ideal) x0 x1 x3)
    (val_main_v69 (F := Ideal)) (val_main_v73 (F := Ideal)) (val_main_v70 (F := Ideal) x0 x1 x3) (val_main_v74 (F := Ideal) x0 x1 x3)
    concatenates_S4x8x1024_S4x4088x1024_S4x4096x1024_d1
    (fun i => by rw [val_main_v69_apply, val_main_cst_15_apply]; exact Ideal.ofBits_one_f32)
    (fun i => by rw [val_main_v73_apply, val_main_cst_16_apply]; exact Ideal.ofBits_zero_f32)
    (fun b t e => (val_main_v70_apply x0 x1 x3 _).trans (congrArg _ (ix3_ext _ _ _ _ rfl rfl rfl)))
    (fun b t e => (val_main_v74_apply x0 x1 x3 _).trans (congrArg _ (ix3_ext _ _ _ _ rfl rfl rfl)))
    (val_main_v78 (F := Ideal) x0 x1 x3) (val_main_v77 (F := Ideal) x0 x1 x3) (fun _ => rfl) (fun _ => rfl) P0 b d h3
  -- stride 16
  have h5 := round_iter 4 5 16 4080 rfl (by norm_num) rfl (val_main_v78 (F := Ideal) x0 x1 x3) (val_main_v77 (F := Ideal) x0 x1 x3)
    (val_main_v80 (F := Ideal)) (val_main_v84 (F := Ideal)) (val_main_v81 (F := Ideal) x0 x1 x3) (val_main_v85 (F := Ideal) x0 x1 x3)
    concatenates_S4x16x1024_S4x4080x1024_S4x4096x1024_d1
    (fun i => by rw [val_main_v80_apply, val_main_cst_17_apply]; exact Ideal.ofBits_one_f32)
    (fun i => by rw [val_main_v84_apply, val_main_cst_18_apply]; exact Ideal.ofBits_zero_f32)
    (fun b t e => (val_main_v81_apply x0 x1 x3 _).trans (congrArg _ (ix3_ext _ _ _ _ rfl rfl rfl)))
    (fun b t e => (val_main_v85_apply x0 x1 x3 _).trans (congrArg _ (ix3_ext _ _ _ _ rfl rfl rfl)))
    (val_main_v89 (F := Ideal) x0 x1 x3) (val_main_v88 (F := Ideal) x0 x1 x3) (fun _ => rfl) (fun _ => rfl) P0 b d h4
  -- stride 32
  have h6 := round_iter 5 6 32 4064 rfl (by norm_num) rfl (val_main_v89 (F := Ideal) x0 x1 x3) (val_main_v88 (F := Ideal) x0 x1 x3)
    (val_main_v91 (F := Ideal)) (val_main_v95 (F := Ideal)) (val_main_v92 (F := Ideal) x0 x1 x3) (val_main_v96 (F := Ideal) x0 x1 x3)
    concatenates_S4x32x1024_S4x4064x1024_S4x4096x1024_d1
    (fun i => by rw [val_main_v91_apply, val_main_cst_19_apply]; exact Ideal.ofBits_one_f32)
    (fun i => by rw [val_main_v95_apply, val_main_cst_20_apply]; exact Ideal.ofBits_zero_f32)
    (fun b t e => (val_main_v92_apply x0 x1 x3 _).trans (congrArg _ (ix3_ext _ _ _ _ rfl rfl rfl)))
    (fun b t e => (val_main_v96_apply x0 x1 x3 _).trans (congrArg _ (ix3_ext _ _ _ _ rfl rfl rfl)))
    (val_main_v100 (F := Ideal) x0 x1 x3) (val_main_v99 (F := Ideal) x0 x1 x3) (fun _ => rfl) (fun _ => rfl) P0 b d h5
  -- stride 64
  have h7 := round_iter 6 7 64 4032 rfl (by norm_num) rfl (val_main_v100 (F := Ideal) x0 x1 x3) (val_main_v99 (F := Ideal) x0 x1 x3)
    (val_main_v102 (F := Ideal)) (val_main_v106 (F := Ideal)) (val_main_v103 (F := Ideal) x0 x1 x3) (val_main_v107 (F := Ideal) x0 x1 x3)
    concatenates_S4x64x1024_S4x4032x1024_S4x4096x1024_d1
    (fun i => by rw [val_main_v102_apply, val_main_cst_21_apply]; exact Ideal.ofBits_one_f32)
    (fun i => by rw [val_main_v106_apply, val_main_cst_22_apply]; exact Ideal.ofBits_zero_f32)
    (fun b t e => (val_main_v103_apply x0 x1 x3 _).trans (congrArg _ (ix3_ext _ _ _ _ rfl rfl rfl)))
    (fun b t e => (val_main_v107_apply x0 x1 x3 _).trans (congrArg _ (ix3_ext _ _ _ _ rfl rfl rfl)))
    (val_main_v111 (F := Ideal) x0 x1 x3) (val_main_v110 (F := Ideal) x0 x1 x3) (fun _ => rfl) (fun _ => rfl) P0 b d h6
  -- stride 128
  have h8 := round_iter 7 8 128 3968 rfl (by norm_num) rfl (val_main_v111 (F := Ideal) x0 x1 x3) (val_main_v110 (F := Ideal) x0 x1 x3)
    (val_main_v113 (F := Ideal)) (val_main_v117 (F := Ideal)) (val_main_v114 (F := Ideal) x0 x1 x3) (val_main_v118 (F := Ideal) x0 x1 x3)
    concatenates_S4x128x1024_S4x3968x1024_S4x4096x1024_d1
    (fun i => by rw [val_main_v113_apply, val_main_cst_23_apply]; exact Ideal.ofBits_one_f32)
    (fun i => by rw [val_main_v117_apply, val_main_cst_24_apply]; exact Ideal.ofBits_zero_f32)
    (fun b t e => (val_main_v114_apply x0 x1 x3 _).trans (congrArg _ (ix3_ext _ _ _ _ rfl rfl rfl)))
    (fun b t e => (val_main_v118_apply x0 x1 x3 _).trans (congrArg _ (ix3_ext _ _ _ _ rfl rfl rfl)))
    (val_main_v122 (F := Ideal) x0 x1 x3) (val_main_v121 (F := Ideal) x0 x1 x3) (fun _ => rfl) (fun _ => rfl) P0 b d h7
  -- stride 256
  have h9 := round_iter 8 9 256 3840 rfl (by norm_num) rfl (val_main_v122 (F := Ideal) x0 x1 x3) (val_main_v121 (F := Ideal) x0 x1 x3)
    (val_main_v124 (F := Ideal)) (val_main_v128 (F := Ideal)) (val_main_v125 (F := Ideal) x0 x1 x3) (val_main_v129 (F := Ideal) x0 x1 x3)
    concatenates_S4x256x1024_S4x3840x1024_S4x4096x1024_d1
    (fun i => by rw [val_main_v124_apply, val_main_cst_25_apply]; exact Ideal.ofBits_one_f32)
    (fun i => by rw [val_main_v128_apply, val_main_cst_26_apply]; exact Ideal.ofBits_zero_f32)
    (fun b t e => (val_main_v125_apply x0 x1 x3 _).trans (congrArg _ (ix3_ext _ _ _ _ rfl rfl rfl)))
    (fun b t e => (val_main_v129_apply x0 x1 x3 _).trans (congrArg _ (ix3_ext _ _ _ _ rfl rfl rfl)))
    (val_main_v133 (F := Ideal) x0 x1 x3) (val_main_v132 (F := Ideal) x0 x1 x3) (fun _ => rfl) (fun _ => rfl) P0 b d h8
  -- stride 512
  have h10 := round_iter 9 10 512 3584 rfl (by norm_num) rfl (val_main_v133 (F := Ideal) x0 x1 x3) (val_main_v132 (F := Ideal) x0 x1 x3)
    (val_main_v135 (F := Ideal)) (val_main_v139 (F := Ideal)) (val_main_v136 (F := Ideal) x0 x1 x3) (val_main_v140 (F := Ideal) x0 x1 x3)
    concatenates_S4x512x1024_S4x3584x1024_S4x4096x1024_d1
    (fun i => by rw [val_main_v135_apply, val_main_cst_27_apply]; exact Ideal.ofBits_one_f32)
    (fun i => by rw [val_main_v139_apply, val_main_cst_28_apply]; exact Ideal.ofBits_zero_f32)
    (fun b t e => (val_main_v136_apply x0 x1 x3 _).trans (congrArg _ (ix3_ext _ _ _ _ rfl rfl rfl)))
    (fun b t e => (val_main_v140_apply x0 x1 x3 _).trans (congrArg _ (ix3_ext _ _ _ _ rfl rfl rfl)))
    (val_main_v144 (F := Ideal) x0 x1 x3) (val_main_v143 (F := Ideal) x0 x1 x3) (fun _ => rfl) (fun _ => rfl) P0 b d h9
  -- stride 1024
  have h11 := round_iter 10 11 1024 3072 rfl (by norm_num) rfl (val_main_v144 (F := Ideal) x0 x1 x3) (val_main_v143 (F := Ideal) x0 x1 x3)
    (val_main_v146 (F := Ideal)) (val_main_v150 (F := Ideal)) (val_main_v147 (F := Ideal) x0 x1 x3) (val_main_v151 (F := Ideal) x0 x1 x3)
    concatenates_S4x1024x1024_S4x3072x1024_S4x4096x1024_d1
    (fun i => by rw [val_main_v146_apply, val_main_cst_29_apply]; exact Ideal.ofBits_one_f32)
    (fun i => by rw [val_main_v150_apply, val_main_cst_30_apply]; exact Ideal.ofBits_zero_f32)
    (fun b t e => (val_main_v147_apply x0 x1 x3 _).trans (congrArg _ (ix3_ext _ _ _ _ rfl rfl rfl)))
    (fun b t e => (val_main_v151_apply x0 x1 x3 _).trans (congrArg _ (ix3_ext _ _ _ _ rfl rfl rfl)))
    (val_main_v155 (F := Ideal) x0 x1 x3) (val_main_v154 (F := Ideal) x0 x1 x3) (fun _ => rfl) (fun _ => rfl) P0 b d h10
  -- stride 2048
  have h12 := round_iter 11 12 2048 2048 rfl (by norm_num) rfl (val_main_v155 (F := Ideal) x0 x1 x3) (val_main_v154 (F := Ideal) x0 x1 x3)
    (val_main_v157 (F := Ideal)) (val_main_v161 (F := Ideal)) (val_main_v158 (F := Ideal) x0 x1 x3) (val_main_v162 (F := Ideal) x0 x1 x3)
    concatenates_S4x2048x1024_S4x2048x1024_S4x4096x1024_d1
    (fun i => by rw [val_main_v157_apply, val_main_cst_31_apply]; exact Ideal.ofBits_one_f32)
    (fun i => by rw [val_main_v161_apply, val_main_cst_32_apply]; exact Ideal.ofBits_zero_f32)
    (fun b t e => (val_main_v158_apply x0 x1 x3 _).trans (congrArg _ (ix3_ext _ _ _ _ rfl rfl rfl)))
    (fun b t e => (val_main_v162_apply x0 x1 x3 _).trans (congrArg _ (ix3_ext _ _ _ _ rfl rfl rfl)))
    (val_main_v166 (F := Ideal) x0 x1 x3) (val_main_v165 (F := Ideal) x0 x1 x3) (fun _ => rfl) (fun _ => rfl) P0 b d h11
  exact (h12 t ht).2

/-- Stage 165 is the recurrent state. -/
theorem v165_at (b : Fin 4) (t : Fin 4096) (d : Fin 1024) :
    val_main_v165 (F := Ideal) x0 x1 x3 (ix3 b t d) = Cert.Spec.hG x0 (val_main_v11 (F := Ideal) x1) x3 b t d := by
  have h := v165_scan x0 x1 x3 b d t.val t.isLt
  rw [hs_full _ _ (Cert.Spec.aSeq_nonnegReal x0 (val_main_v11 (F := Ideal) x1) x3 b d) 12 t.val
    (lt_of_lt_of_eq t.isLt (by norm_num))] at h
  exact h

end Rounds

/-- The reference's result is `G` of the features, the quantised gate matrix (stage 11), the quantised output
    matrix (stage 178) and the bias. -/
theorem ref_eq (x0 : (⟨S4x4096x1024, .f32⟩ : BufTy).Contents (Elt Ideal)) (x1 : (⟨S3072x1024, .f32⟩ : BufTy).Contents (Elt Ideal))
    (x2 : (⟨S1024x1024, .f32⟩ : BufTy).Contents (Elt Ideal)) (x3 : (⟨S1024, .f32⟩ : BufTy).Contents (Elt Ideal)) :
    val_main_v180 (F := Ideal) x0 x1 x2 x3
      = Cert.Spec.G x0 (val_main_v11 (F := Ideal) x1) (val_main_v178 (F := Ideal) x2) x3 := by
  funext i
  obtain ⟨b, t, e, rfl⟩ : ∃ (b : Fin 4) (t : Fin 4096) (e : Fin 1024), i = ix3 b t e := ⟨i 0, i 1, i 2, eq_ix3 i⟩
  rw [val_main_v180_apply, Cert.Spec.G_apply]
  unfold Cert.Spec.Gat
  refine Finset.sum_congr rfl fun k _ => ?_
  have e1 : lidx_main_v180 (ix3 b t e) k = ix3 b t k := ix3_ext _ _ _ _ rfl rfl rfl
  have e2 : ridx_main_v180 (ix3 b t e) k = ix2 e k := ix2_ext _ _ _ rfl rfl
  rw [e1, e2, val_main_v179_apply, v165_at, v31_at]
  rfl

end Cert.ReferenceIdeal.RefValue

end
-- ==== Proof.Alg.lean ====
/-
  The reference's frame and the algebraic claim, from the two programs' runs with their results named.

  The reference's run ends with its result buffer at the last stage of its arguments and the arguments unchanged;
  dropping the result gives its frame. The kernel program's run ends with its result buffer at G of the features,
  the quantised gate matrix (stage 11 of the second argument), the quantised output matrix (stage 178 of the third)
  and the bias; the reference's last stage is G of the same four arrays (RefValue), so from memories that agree on
  the arguments the two results are one array.
-/
import proofs.«111377_j19533511262472_1_alg».proof.Defs
import proofs.«111377_j19533511262472_1_alg».proof.Proof.Gen.Pre_finite_inputs
import proofs.«111377_j19533511262472_1_alg».proof.Proof.KValue
import proofs.«111377_j19533511262472_1_alg».proof.Proof.RefStages
import proofs.«111377_j19533511262472_1_alg».proof.Proof.RefValue

noncomputable section

namespace Cert.Proof.Alg

open Idealize.ShloMosaic Idealize.ShloMosaic.TcCoe Idealize.SL.Sem

/-- The reference runs to the end and leaves its arguments unchanged. -/
theorem frame_ri : Cert.frame_ReferenceIdeal := fun m ρ _ =>
  (θ_run Cert.ReferenceIdeal.defs _ _).mono (fun _ h c => (h c).2) (Cert.ReferenceIdeal.RefStages.run (F := Ideal) m ρ)

/-- From memories that agree on the arguments both programs end with the result at G of the features, the quantised
    gate and output matrices and the bias, and with the arguments unchanged. -/
theorem algebraic : Cert.algebraic_KernelIdeal_ReferenceIdeal := by
  intro m ρ m' ρ' _ hagree
  refine ⟨fun c => Cert.Spec.G (Cert.KernelIdeal.Hand.Xa m c) (Cert.KernelIdeal.Hand.WgA m c)
    (Cert.KernelIdeal.Hand.WoA m c) (Cert.KernelIdeal.Hand.BsA m c), ?_, ?_⟩
  · exact (θ_run Cert.KernelIdeal.defs _ _).mono (fun _ h c => h c) (Cert.KernelIdeal.Hand.value_run m ρ)
  · refine (θ_run Cert.ReferenceIdeal.defs _ _).mono (fun _ h c => ⟨(h c).1.trans ?_, (h c).2⟩)
      (Cert.ReferenceIdeal.RefStages.run (F := Ideal) m' ρ')
    rw [(hagree c).1, (hagree c).2.1, (hagree c).2.2.1, (hagree c).2.2.2]
    exact Cert.ReferenceIdeal.RefValue.ref_eq _ _ _ _

end Cert.Proof.Alg

end
-- ==== Proof.lean ====
/- The proof of `Cert.Claim`. The kernel program leaves its arguments unchanged at any float instance: read word by
   word (BFrame) and on the extended reals (KFrame). The reference leaves its arguments unchanged, and from memories
   that agree on the arguments both programs end with one result array: G of the features, the quantised gate and
   output matrices and the bias (Alg, from the kernel program's run with its result named, KValue, the reference's run
   over its named stages, RefStages, and the last stage's value, RefValue). The idealization rewrote no operation, so
   there is nothing to preserve. The witnesses of the programs' stated facts are the instances of the Gen modules. -/
import proofs.«111377_j19533511262472_1_alg».proof.Defs
import proofs.«111377_j19533511262472_1_alg».proof.Proof.Gen.Kernel
import proofs.«111377_j19533511262472_1_alg».proof.Proof.Gen.KernelIdeal
import proofs.«111377_j19533511262472_1_alg».proof.Proof.Gen.ReferenceIdeal
import proofs.«111377_j19533511262472_1_alg».proof.Proof.Gen.Pre_finite_inputs
import proofs.«111377_j19533511262472_1_alg».proof.Proof.BFrame
import proofs.«111377_j19533511262472_1_alg».proof.Proof.KFrame
import proofs.«111377_j19533511262472_1_alg».proof.Proof.Alg

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ, fun m ρ _ => Cert.KernelIdeal.Hand.frame m ρ,
    Cert.Proof.Alg.frame_ri, trivial, Cert.Proof.Alg.algebraic⟩

end Cert.Proof

end
